-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S4x4096x64 : Shape := ⟨3, ![4, 4096, 64]⟩
abbrev S4x16384x3 : Shape := ⟨3, ![4, 16384, 3]⟩
abbrev S4x16384x64 : Shape := ⟨3, ![4, 16384, 64]⟩
abbrev S4x16384x8 : Shape := ⟨3, ![4, 16384, 8]⟩
abbrev S64x64 : Shape := ⟨2, ![64, 64]⟩
abbrev S64 : Shape := ⟨1, ![64]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x4096x64 : S_.BroadcastsInDim S4x4096x64 (![] : Fin 0 → Fin S4x4096x64.rank)
  reducesTo_S4x4096x64_S_d0_1_2 : S4x4096x64.ReducesTo [0, 1, 2] S_
  bcast_S_S4x16384x3 : S_.BroadcastsInDim S4x16384x3 (![] : Fin 0 → Fin S4x16384x3.rank)
  reducesTo_S4x16384x3_S_d0_1_2 : S4x16384x3.ReducesTo [0, 1, 2] S_
  bcast_S_S4x16384x64 : S_.BroadcastsInDim S4x16384x64 (![] : Fin 0 → Fin S4x16384x64.rank)
  reducesTo_S4x16384x64_S_d0_1_2 : S4x16384x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S64 .f32) (main_arg9 : FVec F S64x64 .f32) (main_arg10 : FVec F S64 .f32) (main_arg11 : FVec F S64 .f32) (main_arg12 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_v48 main_v49 main_v50

def fn_part1 {F : FTy → Type} [FloatOps F] (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_v13 : IVec S_ 1) (main_v16 : IVec S4x16384x64 1) : IVec S_ 1 :=
  let main_c_5 : IVec S_ 1 := constantI S_ 1 1#1
  let main_v17 : IVec S_ 1 := (fun x v => Host.reduce IntOp.andi x v reducesTo_S4x16384x64_S_d0_1_2 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S4x4096x3 .f32) (main_arg1 : FVec F S4x4096x64 .f32) (main_arg2 : FVec F S4x16384x3 .f32) (main_arg3 : FVec F S4x16384x64 .f32) (main_arg4 : IVec S4x16384x8 32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x16384x3 .f32 := Host.absf main_arg2
  let main_cst_2 : FVec F S_ .f32 := constant S_ .f32 0x7F800000#32
  let main_v10 : FVec F S4x16384x3 .f32 := broadcastInDim S4x16384x3 ![] bcast_S_S4x16384x3 main_cst_2
  let main_v11 : IVec S4x16384x3 1 := cmpf .olt main_v9 main_v10
  let main_c_3 : IVec S_ 1 := constantI S_ 1 1#1
  let main_v12 : IVec S_ 1 := (fun x v => Host.reduce IntOp.andi x v reducesTo_S4x16384x3_S_d0_1_2 h_S_) main_v11 main_c_3
  let main_v13 : IVec S_ 1 := andi main_v8 main_v12
  let main_v14 : FVec F S4x16384x64 .f32 := Host.absf main_arg3
  let main_cst_4 : FVec F S_ .f32 := constant S_ .f32 0x7F800000#32
  let main_v15 : FVec F S4x16384x64 .f32 := broadcastInDim S4x16384x64 ![] bcast_S_S4x16384x64 main_cst_4
  let main_v16 : IVec S4x16384x64 1 := cmpf .olt main_v14 main_v15
  fn_part1 (F := F) main_arg5 main_arg6 main_arg7 main_arg8 main_arg9 main_arg10 main_arg11 main_arg12 main_v13 main_v16
-- ==== Kernel.lean ====
abbrev S4x4096x3 : Shape := ⟨3, ![4, 4096, 3]⟩
abbrev S4x4096x64 : Shape := ⟨3, ![4, 4096, 64]⟩
abbrev S4x16384x3 : Shape := ⟨3, ![4, 16384, 3]⟩
abbrev S4x16384x64 : Shape := ⟨3, ![4, 16384, 64]⟩
abbrev S4x16384x8 : Shape := ⟨3, ![4, 16384, 8]⟩
abbrev S64x64 : Shape := ⟨2, ![64, 64]⟩
abbrev S64 : Shape := ⟨1, ![64]⟩
abbrev S4x16384x1 : Shape := ⟨3, ![4, 16384, 1]⟩
abbrev S4x16384 : Shape := ⟨2, ![4, 16384]⟩
abbrev S_ : Shape := ⟨0, ![]⟩
abbrev S4x16384x128 : Shape := ⟨3, ![4, 16384, 128]⟩
abbrev S4x4x2x64 : Shape := ⟨4, ![4, 4, 2, 64]⟩
abbrev S1x4096x64 : Shape := ⟨3, ![1, 4096, 64]⟩
abbrev S1x4096x128 : Shape := ⟨3, ![1, 4096, 128]⟩
abbrev S1x1x2x64 : Shape := ⟨4, ![1, 1, 2, 64]⟩
abbrev S4096x64 : Shape := ⟨2, ![4096, 64]⟩
abbrev S1x64 : Shape := ⟨2, ![1, 64]⟩
abbrev S4096x128 : Shape := ⟨2, ![4096, 128]⟩
abbrev S1x1x1x64 : Shape := ⟨4, ![1, 1, 1, 64]⟩
abbrev S16x2x64 : Shape := ⟨3, ![16, 2, 64]⟩
abbrev S2x64 : Shape := ⟨2, ![2, 64]⟩
abbrev S1x2x64 : Shape := ⟨3, ![1, 2, 64]⟩
abbrev S4x16384x131 : Shape := ⟨3, ![4, 16384, 131]⟩
abbrev S1x4096x3 : Shape := ⟨3, ![1, 4096, 3]⟩
abbrev S1x4096x131 : Shape := ⟨3, ![1, 4096, 131]⟩
abbrev S4096x3 : Shape := ⟨2, ![4096, 3]⟩
abbrev S4096x131 : Shape := ⟨2, ![4096, 131]⟩

abbrev nBuf : Space → Nat
  | .hbm => 158
  | .vmem => 24
  | .smem => 0
  | _ => 0

abbrev hbmTy0_0 (i : Nat) : BufTy := match i % 128 with
  | 0 => ⟨S4x4096x3, .f32⟩
  | 1 => ⟨S4x4096x64, .f32⟩
  | 2 => ⟨S4x16384x3, .f32⟩
  | 3 => ⟨S4x16384x64, .f32⟩
  | 4 => ⟨S4x16384x8, .i32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S4x16384x1, .i32⟩
  | 14 => ⟨S4x16384, .i32⟩
  | 15 => ⟨S_, .i32⟩
  | 16 => ⟨S4x16384, .i32⟩
  | 17 => ⟨S4x16384, .i1⟩
  | 18 => ⟨S_, .i32⟩
  | 19 => ⟨S4x16384, .i32⟩
  | 20 => ⟨S4x16384, .i32⟩
  | 21 => ⟨S4x16384, .i32⟩
  | 22 => ⟨S4x16384x1, .i32⟩
  | 23 => ⟨S4x16384x64, .f32⟩
  | 24 => ⟨S4x16384x1, .i32⟩
  | 25 => ⟨S4x16384, .i32⟩
  | 26 => ⟨S_, .i32⟩
  | 27 => ⟨S4x16384, .i32⟩
  | 28 => ⟨S4x16384, .i1⟩
  | 29 => ⟨S_, .i32⟩
  | 30 => ⟨S4x16384, .i32⟩
  | 31 => ⟨S4x16384, .i32⟩
  | 32 => ⟨S4x16384, .i32⟩
  | 33 => ⟨S4x16384x1, .i32⟩
  | 34 => ⟨S4x16384x64, .f32⟩
  | 35 => ⟨S4x16384x64, .f32⟩
  | 36 => ⟨S4x16384x1, .i32⟩
  | 37 => ⟨S4x16384, .i32⟩
  | 38 => ⟨S_, .i32⟩
  | 39 => ⟨S4x16384, .i32⟩
  | 40 => ⟨S4x16384, .i1⟩
  | 41 => ⟨S_, .i32⟩
  | 42 => ⟨S4x16384, .i32⟩
  | 43 => ⟨S4x16384, .i32⟩
  | 44 => ⟨S4x16384, .i32⟩
  | 45 => ⟨S4x16384x1, .i32⟩
  | 46 => ⟨S4x16384x64, .f32⟩
  | 47 => ⟨S4x16384x64, .f32⟩
  | 48 => ⟨S4x16384x1, .i32⟩
  | 49 => ⟨S4x16384, .i32⟩
  | 50 => ⟨S_, .i32⟩
  | 51 => ⟨S4x16384, .i32⟩
  | 52 => ⟨S4x16384, .i1⟩
  | 53 => ⟨S_, .i32⟩
  | 54 => ⟨S4x16384, .i32⟩
  | 55 => ⟨S4x16384, .i32⟩
  | 56 => ⟨S4x16384, .i32⟩
  | 57 => ⟨S4x16384x1, .i32⟩
  | 58 => ⟨S4x16384x64, .f32⟩
  | 59 => ⟨S4x16384x64, .f32⟩
  | 60 => ⟨S4x16384x1, .i32⟩
  | 61 => ⟨S4x16384, .i32⟩
  | 62 => ⟨S_, .i32⟩
  | 63 => ⟨S4x16384, .i32⟩
  | 64 => ⟨S4x16384, .i1⟩
  | 65 => ⟨S_, .i32⟩
  | 66 => ⟨S4x16384, .i32⟩
  | 67 => ⟨S4x16384, .i32⟩
  | 68 => ⟨S4x16384, .i32⟩
  | 69 => ⟨S4x16384x1, .i32⟩
  | 70 => ⟨S4x16384x64, .f32⟩
  | 71 => ⟨S4x16384x64, .f32⟩
  | 72 => ⟨S4x16384x1, .i32⟩
  | 73 => ⟨S4x16384, .i32⟩
  | 74 => ⟨S_, .i32⟩
  | 75 => ⟨S4x16384, .i32⟩
  | 76 => ⟨S4x16384, .i1⟩
  | 77 => ⟨S_, .i32⟩
  | 78 => ⟨S4x16384, .i32⟩
  | 79 => ⟨S4x16384, .i32⟩
  | 80 => ⟨S4x16384, .i32⟩
  | 81 => ⟨S4x16384x1, .i32⟩
  | 82 => ⟨S4x16384x64, .f32⟩
  | 83 => ⟨S4x16384x64, .f32⟩
  | 84 => ⟨S4x16384x1, .i32⟩
  | 85 => ⟨S4x16384, .i32⟩
  | 86 => ⟨S_, .i32⟩
  | 87 => ⟨S4x16384, .i32⟩
  | 88 => ⟨S4x16384, .i1⟩
  | 89 => ⟨S_, .i32⟩
  | 90 => ⟨S4x16384, .i32⟩
  | 91 => ⟨S4x16384, .i32⟩
  | 92 => ⟨S4x16384, .i32⟩
  | 93 => ⟨S4x16384x1, .i32⟩
  | 94 => ⟨S4x16384x64, .f32⟩
  | 95 => ⟨S4x16384x64, .f32⟩
  | 96 => ⟨S4x16384x1, .i32⟩
  | 97 => ⟨S4x16384, .i32⟩
  | 98 => ⟨S_, .i32⟩
  | 99 => ⟨S4x16384, .i32⟩
  | 100 => ⟨S4x16384, .i1⟩
  | 101 => ⟨S_, .i32⟩
  | 102 => ⟨S4x16384, .i32⟩
  | 103 => ⟨S4x16384, .i32⟩
  | 104 => ⟨S4x16384, .i32⟩
  | 105 => ⟨S4x16384x1, .i32⟩
  | 106 => ⟨S4x16384x64, .f32⟩
  | 107 => ⟨S4x16384x64, .f32⟩
  | 108 => ⟨S64x64, .f32⟩
  | 109 => ⟨S64x64, .f32⟩
  | 110 => ⟨S4x16384x128, .f32⟩
  | 111 => ⟨S4x4x2x64, .f32⟩
  | 112 => ⟨S4x4x2x64, .f32⟩
  | 113 => ⟨S16x2x64, .f32⟩
  | 114 => ⟨S16x2x64, .f32⟩
  | 115 => ⟨S_, .f32⟩
  | 116 => ⟨S2x64, .f32⟩
  | 117 => ⟨S_, .f32⟩
  | 118 => ⟨S2x64, .f32⟩
  | 119 => ⟨S2x64, .f32⟩
  | 120 => ⟨S_, .f32⟩
  | 121 => ⟨S2x64, .f32⟩
  | 122 => ⟨S_, .f32⟩
  | 123 => ⟨S2x64, .f32⟩
  | 124 => ⟨S2x64, .f32⟩
  | 125 => ⟨S1x2x64, .f32⟩
  | 126 => ⟨S16x2x64, .f32⟩
  | 127 => ⟨S16x2x64, .f32⟩
  | _ => ⟨S4x4096x3, .f32⟩

abbrev hbmTy0_1 (i : Nat) : BufTy := match i % 128 with
  | 0 => ⟨S16x2x64, .f32⟩
  | 1 => ⟨S_, .f32⟩
  | 2 => ⟨S2x64, .f32⟩
  | 3 => ⟨S_, .f32⟩
  | 4 => ⟨S2x64, .f32⟩
  | 5 => ⟨S2x64, .f32⟩
  | 6 => ⟨S2x64, .f32⟩
  | 7 => ⟨S1x64, .f32⟩
  | 8 => ⟨S64, .f32⟩
  | 9 => ⟨S1x64, .f32⟩
  | 10 => ⟨S64, .f32⟩
  | 11 => ⟨S1x64, .f32⟩
  | 12 => ⟨S64, .f32⟩
  | 13 => ⟨S1x64, .f32⟩
  | 14 => ⟨S64, .f32⟩
  | 15 => ⟨S_, .f32⟩
  | 16 => ⟨S64, .f32⟩
  | 17 => ⟨S64, .f32⟩
  | 18 => ⟨S64, .f32⟩
  | 19 => ⟨S64, .f32⟩
  | 20 => ⟨S64, .f32⟩
  | 21 => ⟨S64, .f32⟩
  | 22 => ⟨S_, .f32⟩
  | 23 => ⟨S64, .f32⟩
  | 24 => ⟨S64, .f32⟩
  | 25 => ⟨S64, .f32⟩
  | 26 => ⟨S64, .f32⟩
  | 27 => ⟨S64, .f32⟩
  | 28 => ⟨S64, .f32⟩
  | 29 => ⟨S4x16384x131, .f32⟩
  | _ => ⟨S4x4096x3, .f32⟩

abbrev hbmTy (i : Nat) : BufTy := match i / 128 with
  | 0 => hbmTy0_0 i
  | 1 => hbmTy0_1 i
  | _ => ⟨S4x4096x3, .f32⟩

abbrev bufTy : (tb : Table) → Fin (tcTables nBuf tb) → BufTy
  | .hbm, ⟨i, _⟩ => hbmTy i
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S1x4096x128, .f32⟩
  | .local _ .vmem, ⟨9, _⟩ => ⟨S1x4096x128, .f32⟩
  | .local _ .vmem, ⟨10, _⟩ => ⟨S1x1x2x64, .f32⟩
  | .local _ .vmem, ⟨11, _⟩ => ⟨S1x1x2x64, .f32⟩
  | .local _ .vmem, ⟨12, _⟩ => ⟨S1x1x2x64, .f32⟩
  | .local _ .vmem, ⟨13, _⟩ => ⟨S1x1x2x64, .f32⟩
  | .local _ .vmem, ⟨14, _⟩ => ⟨S1x4096x128, .f32⟩
  | .local _ .vmem, ⟨15, _⟩ => ⟨S1x4096x128, .f32⟩
  | .local _ .vmem, ⟨16, _⟩ => ⟨S1x4096x3, .f32⟩
  | .local _ .vmem, ⟨17, _⟩ => ⟨S1x4096x3, .f32⟩
  | .local _ .vmem, ⟨18, _⟩ => ⟨S64, .f32⟩
  | .local _ .vmem, ⟨19, _⟩ => ⟨S64, .f32⟩
  | .local _ .vmem, ⟨20, _⟩ => ⟨S64, .f32⟩
  | .local _ .vmem, ⟨21, _⟩ => ⟨S64, .f32⟩
  | .local _ .vmem, ⟨22, _⟩ => ⟨S1x4096x131, .f32⟩
  | .local _ .vmem, ⟨23, _⟩ => ⟨S1x4096x131, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_13 : Ref sig .tc := ⟨.hbm, 98, rfl⟩
abbrev main_v71 : Ref sig .tc := ⟨.hbm, 99, rfl⟩
abbrev main_v72 : Ref sig .tc := ⟨.hbm, 100, rfl⟩
abbrev main_c_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81_0 : Ref sig .tc := ⟨.hbm, 110, rfl⟩
abbrev main_v81_1 : Ref sig .tc := ⟨.hbm, 111, rfl⟩
abbrev main_v81_2 : Ref sig .tc := ⟨.hbm, 112, rfl⟩
abbrev main_v82 : Ref sig .tc := ⟨.hbm, 113, rfl⟩
abbrev main_v83 : Ref sig .tc := ⟨.hbm, 114, rfl⟩
abbrev main_cst : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_cst_17 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_cst_19 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_21 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x4096x131 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  slices_S4x16384x8_S4x16384x1_0_0_0 : S4x16384x8.Slices ![0, 0, 0] S4x16384x1
  shapeCasts_S4x16384x1_S4x16384 : S4x16384x1.ShapeCasts S4x16384
  bcast_S_S4x16384 : S_.BroadcastsInDim S4x16384 (![] : Fin 0 → Fin S4x16384.rank)
  bcast_S4x16384_S4x16384x1_0_1 : S4x16384.BroadcastsInDim S4x16384x1 (![0, 1] : Fin 2 → Fin S4x16384x1.rank)
  slices_S4x16384x8_S4x16384x1_0_0_1 : S4x16384x8.Slices ![0, 0, 1] S4x16384x1
  slices_S4x16384x8_S4x16384x1_0_0_2 : S4x16384x8.Slices ![0, 0, 2] S4x16384x1
  slices_S4x16384x8_S4x16384x1_0_0_3 : S4x16384x8.Slices ![0, 0, 3] S4x16384x1
  slices_S4x16384x8_S4x16384x1_0_0_4 : S4x16384x8.Slices ![0, 0, 4] S4x16384x1
  slices_S4x16384x8_S4x16384x1_0_0_5 : S4x16384x8.Slices ![0, 0, 5] S4x16384x1
  slices_S4x16384x8_S4x16384x1_0_0_6 : S4x16384x8.Slices ![0, 0, 6] S4x16384x1
  slices_S4x16384x8_S4x16384x1_0_0_7 : S4x16384x8.Slices ![0, 0, 7] S4x16384x1
  transposes_S64x64_S64x64_1_0 : S64x64.Transposes [1, 0] S64x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  reduces_S4096x64_S64 : S4096x64.Reduces [0] S64
  concatenates_S4096x64_S4096x64_S4096x128_d1 : Shape.Concatenates [S4096x64, S4096x64] S4096x128 1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  inb_S1x1x2x64_S1x1x1x64_0_0_0_0 : ∀ a, (![0, 0, 0, 0] : Fin 4 → Nat) a + S1x1x1x64.size a ≤ S1x1x2x64.size a
  h_S1x1x1x64 : 0 < S1x1x1x64.numel
  shapeCasts_S1x1x1x64_S64 : S1x1x1x64.ShapeCasts S64
  shapeCasts_S64_S1x1x1x64 : S64.ShapeCasts S1x1x1x64
  inb_S1x1x2x64_S1x1x1x64_0_0_1_0 : ∀ a, (![0, 0, 1, 0] : Fin 4 → Nat) a + S1x1x1x64.size a ≤ S1x1x2x64.size a
  shapeCasts_S4x4x2x64_S16x2x64 : S4x4x2x64.ShapeCasts S16x2x64
  reducesTo_S16x2x64_S2x64_d0 : S16x2x64.ReducesTo [0] S2x64
  h_S_ : 0 < S_.numel
  bcast_S_S2x64 : S_.BroadcastsInDim S2x64 (![] : Fin 0 → Fin S2x64.rank)
  bcast_S2x64_S1x2x64_1_2 : S2x64.BroadcastsInDim S1x2x64 (![1, 2] : Fin 2 → Fin S1x2x64.rank)
  bcast_S1x2x64_S16x2x64_0_1_2 : S1x2x64.BroadcastsInDim S16x2x64 (![0, 1, 2] : Fin 3 → Fin S16x2x64.rank)
  slices_S2x64_S1x64_0_0 : S2x64.Slices ![0, 0] S1x64
  shapeCasts_S1x64_S64 : S1x64.ShapeCasts S64
  slices_S2x64_S1x64_1_0 : S2x64.Slices ![1, 0] S1x64
  bcast_S_S64 : S_.BroadcastsInDim S64 (![] : Fin 0 → Fin S64.rank)
  slices_S4096x128_o0_0_S4096x64 : S4096x128.Slices ![0, 0] S4096x64
  slices_S4096x128_o0_64_S4096x64 : S4096x128.Slices ![0, 64] S4096x64
  shapeCasts_S64_S64 : S64.ShapeCasts S64
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  concatenates_S4096x3_S4096x64_S4096x64_S4096x131_d1 : Shape.Concatenates [S4096x3, S4096x64, S4096x64] S4096x131 1
  inb_S1x4096x131_S1x4096x131_0_0_0 : ∀ a, (![0, 0, 0] : Fin 3 → Nat) a + S1x4096x131.size a ≤ S1x4096x131.size a
  h_S1x4096x131 : 0 < S1x4096x131.numel
  shapeCasts_S1x4096x131_S4096x131 : S1x4096x131.ShapeCasts S4096x131
  shapeCasts_S4096x131_S1x4096x131 : S4096x131.ShapeCasts S1x4096x131
  gather_S4x4096x64_S4x16384x1_S4x16384x64_2_1_0_0_1_2_1164_wf : GatherDims.WF S4x4096x64 S4x16384x1 S4x16384x64 [2] [1] [0] [1] [0] 2 ![1, 1, 64]
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S4x16384x64.size a
  hwx0_0 : ∀ i : grid0.Coords, EltTy.bits .f32 = 32 ∨ (Rect.block (s := S4x16384x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x16384x64.size a
  hwx0_1 : ∀ i : grid0.Coords, EltTy.bits .f32 = 32 ∨ (Rect.block (s := S4x16384x64) S1x4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4096x128.size a ≤ S4x16384x128.size a
  hwx0_6 : ∀ i : grid0.Coords, EltTy.bits .f32 = 32 ∨ (Rect.block (s := S4x16384x128) S1x4096x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2x64.size a ≤ S4x4x2x64.size a
  hwx0_7 : ∀ i : grid0.Coords, EltTy.bits .f32 = 32 ∨ (Rect.block (s := S4x4x2x64) S1x1x2x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x2x64.size a ≤ S4x4x2x64.size a
  hwx0_8 : ∀ i : grid0.Coords, EltTy.bits .f32 = 32 ∨ (Rect.block (s := S4x4x2x64) S1x1x2x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S4x16384x128.size a
  hwx1_0 : ∀ i : grid1.Coords, EltTy.bits .f32 = 32 ∨ (Rect.block (s := S4x16384x128) S1x4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x3.size a ≤ S4x16384x3.size a
  hwx1_1 : ∀ i : grid1.Coords, EltTy.bits .f32 = 32 ∨ (Rect.block (s := S4x16384x3) S1x4096x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x4096x131.size a ≤ S4x16384x131.size a
  hwx1_6 : ∀ i : grid1.Coords, EltTy.bits .f32 = 32 ∨ (Rect.block (s := S4x16384x131) S1x4096x131.size (cc1_transform_6 i) (hinb1_6 i)).WholeWords (EltTy.packing .f32)

variable [Facts₀]

def gather_S4x4096x64_S4x16384x1_S4x16384x64_2_1_0_0_1_2_1164 : GatherDims S4x4096x64 S4x16384x1 S4x16384x64 where
  offsetDims := [2]
  collapsedSliceDims := [1]
  operandBatchingDims := [0]
  startIndicesBatchingDims := [0]
  startIndexMap := [1]
  indexVectorDim := 2
  sliceSizes := ![1, 1, 64]
  wf := gather_S4x4096x64_S4x16384x1_S4x16384x64_2_1_0_0_1_2_1164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v78) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v79) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v80) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v81_0) S1x4096x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v81_1) S1x1x2x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v81_2) S1x1x2x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v81_0) S1x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x4096x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v115) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v117) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v109) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v111) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v118) S1x4096x131.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x4096x3 : Shape := ⟨3, ![4, 4096, 3]⟩
abbrev S4x4096x64 : Shape := ⟨3, ![4, 4096, 64]⟩
abbrev S4x16384x3 : Shape := ⟨3, ![4, 16384, 3]⟩
abbrev S4x16384x64 : Shape := ⟨3, ![4, 16384, 64]⟩
abbrev S4x16384x8 : Shape := ⟨3, ![4, 16384, 8]⟩
abbrev S64x64 : Shape := ⟨2, ![64, 64]⟩
abbrev S64 : Shape := ⟨1, ![64]⟩
abbrev S_ : Shape := ⟨0, ![]⟩
abbrev S4x16384x8x1 : Shape := ⟨4, ![4, 16384, 8, 1]⟩
abbrev S4x16384x8x64 : Shape := ⟨4, ![4, 16384, 8, 64]⟩
abbrev S1x1x64 : Shape := ⟨3, ![1, 1, 64]⟩
abbrev S4x16384x128 : Shape := ⟨3, ![4, 16384, 128]⟩
abbrev S4x16384x131 : Shape := ⟨3, ![4, 16384, 131]⟩

abbrev nBuf : Space → Nat
  | .hbm => 100
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x64, .f32⟩
  | .hbm, ⟨2, _⟩ => ⟨S4x16384x3, .f32⟩
  | .hbm, ⟨3, _⟩ => ⟨S4x16384x64, .f32⟩
  | .hbm, ⟨4, _⟩ => ⟨S4x16384x8, .i32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .i32⟩
  | .hbm, ⟨14, _⟩ => ⟨S4x16384x8, .i32⟩
  | .hbm, ⟨15, _⟩ => ⟨S4x16384x8, .i1⟩
  | .hbm, ⟨16, _⟩ => ⟨S_, .i32⟩
  | .hbm, ⟨17, _⟩ => ⟨S4x16384x8, .i32⟩
  | .hbm, ⟨18, _⟩ => ⟨S4x16384x8, .i32⟩
  | .hbm, ⟨19, _⟩ => ⟨S4x16384x8, .i32⟩
  | .hbm, ⟨20, _⟩ => ⟨S4x16384x8x1, .i32⟩
  | .hbm, ⟨21, _⟩ => ⟨S4x16384x8x64, .f32⟩
  | .hbm, ⟨22, _⟩ => ⟨S_, .f32⟩
  | .hbm, ⟨23, _⟩ => ⟨S4x16384x64, .f32⟩
  | .hbm, ⟨24, _⟩ => ⟨S4x16384x64, .f32⟩
  | .hbm, ⟨25, _⟩ => ⟨S1x1x64, .f32⟩
  | .hbm, ⟨26, _⟩ => ⟨S4x16384x64, .f32⟩
  | .hbm, ⟨27, _⟩ => ⟨S4x16384x64, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S1x1x64, .f32⟩
  | .hbm, ⟨34, _⟩ => ⟨S4x16384x64, .f32⟩
  | .hbm, ⟨35, _⟩ => ⟨S4x16384x64, .f32⟩
  | .hbm, ⟨36, _⟩ => ⟨S4x16384x64, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S1x1x64, .f32⟩
  | .hbm, ⟨43, _⟩ => ⟨S4x16384x64, .f32⟩
  | .hbm, ⟨44, _⟩ => ⟨S4x16384x64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S1x1x64, .f32⟩
  | .hbm, ⟨50, _⟩ => ⟨S4x16384x64, .f32⟩
  | .hbm, ⟨51, _⟩ => ⟨S4x16384x64, .f32⟩
  | .hbm, ⟨52, _⟩ => ⟨S1x1x64, .f32⟩
  | .hbm, ⟨53, _⟩ => ⟨S4x16384x64, .f32⟩
  | .hbm, ⟨54, _⟩ => ⟨S4x16384x64, .f32⟩
  | .hbm, ⟨55, _⟩ => ⟨S1x1x64, .f32⟩
  | .hbm, ⟨56, _⟩ => ⟨S4x16384x64, .f32⟩
  | .hbm, ⟨57, _⟩ => ⟨S4x16384x64, .f32⟩
  | .hbm, ⟨58, _⟩ => ⟨S_, .f32⟩
  | .hbm, ⟨59, _⟩ => ⟨S4x16384x64, .f32⟩
  | .hbm, ⟨60, _⟩ => ⟨S4x16384x64, .f32⟩
  | .hbm, ⟨61, _⟩ => ⟨S4x16384x64, .f32⟩
  | .hbm, ⟨62, _⟩ => ⟨S1x1x64, .f32⟩
  | .hbm, ⟨63, _⟩ => ⟨S4x16384x64, .f32⟩
  | .hbm, ⟨64, _⟩ => ⟨S4x16384x64, .f32⟩
  | .hbm, ⟨65, _⟩ => ⟨S_, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S1x1x64, .f32⟩
  | .hbm, ⟨71, _⟩ => ⟨S4x16384x64, .f32⟩
  | .hbm, ⟨72, _⟩ => ⟨S4x16384x64, .f32⟩
  | .hbm, ⟨73, _⟩ => ⟨S4x16384x64, .f32⟩
  | .hbm, ⟨74, _⟩ => ⟨S_, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S1x1x64, .f32⟩
  | .hbm, ⟨80, _⟩ => ⟨S4x16384x64, .f32⟩
  | .hbm, ⟨81, _⟩ => ⟨S4x16384x64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64, .f32⟩
  | .hbm, ⟨86, _⟩ => ⟨S1x1x64, .f32⟩
  | .hbm, ⟨87, _⟩ => ⟨S4x16384x64, .f32⟩
  | .hbm, ⟨88, _⟩ => ⟨S4x16384x64, .f32⟩
  | .hbm, ⟨89, _⟩ => ⟨S1x1x64, .f32⟩
  | .hbm, ⟨90, _⟩ => ⟨S4x16384x64, .f32⟩
  | .hbm, ⟨91, _⟩ => ⟨S4x16384x64, .f32⟩
  | .hbm, ⟨92, _⟩ => ⟨S1x1x64, .f32⟩
  | .hbm, ⟨93, _⟩ => ⟨S4x16384x64, .f32⟩
  | .hbm, ⟨94, _⟩ => ⟨S4x16384x64, .f32⟩
  | .hbm, ⟨95, _⟩ => ⟨S_, .f32⟩
  | .hbm, ⟨96, _⟩ => ⟨S4x16384x64, .f32⟩
  | .hbm, ⟨97, _⟩ => ⟨S4x16384x64, .f32⟩
  | .hbm, ⟨98, _⟩ => ⟨S4x16384x128, .f32⟩
  | .hbm, ⟨99, _⟩ => ⟨S4x16384x131, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call0_cst : Ref sig .tc := ⟨.hbm, 58, rfl⟩
abbrev main_call0_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call1_cst : Ref sig .tc := ⟨.hbm, 95, rfl⟩
abbrev main_call1_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]

class Facts₀ : Prop where
  bcast_S_S4x16384x8 : S_.BroadcastsInDim S4x16384x8 (![] : Fin 0 → Fin S4x16384x8.rank)
  bcast_S4x16384x8_S4x16384x8x1_0_1_2 : S4x16384x8.BroadcastsInDim S4x16384x8x1 (![0, 1, 2] : Fin 3 → Fin S4x16384x8x1.rank)
  reducesTo_S4x16384x8x64_S4x16384x64_d2 : S4x16384x8x64.ReducesTo [2] S4x16384x64
  h_S_ : 0 < S_.numel
  bcast_S64_S1x1x64_2 : S64.BroadcastsInDim S1x1x64 (![2] : Fin 1 → Fin S1x1x64.rank)
  bcast_S1x1x64_S4x16384x64_0_1_2 : S1x1x64.BroadcastsInDim S4x16384x64 (![0, 1, 2] : Fin 3 → Fin S4x16384x64.rank)
  reducesTo_S4x16384x64_S64_d0_1 : S4x16384x64.ReducesTo [0, 1] S64
  bcast_S_S64 : S_.BroadcastsInDim S64 (![] : Fin 0 → Fin S64.rank)
  bcast_S_S4x16384x64 : S_.BroadcastsInDim S4x16384x64 (![] : Fin 0 → Fin S4x16384x64.rank)
  concatenates_S4x16384x64_S4x16384x64_S4x16384x128_d2 : Shape.Concatenates [S4x16384x64, S4x16384x64] S4x16384x128 2
  concatenates_S4x16384x3_S4x16384x128_S4x16384x131_d2 : Shape.Concatenates [S4x16384x3, S4x16384x128] S4x16384x131 2
  gather_S4x4096x64_S4x16384x8x1_S4x16384x8x64_3_1_0_0_1_3_1164_wf : GatherDims.WF S4x4096x64 S4x16384x8x1 S4x16384x8x64 [3] [1] [0] [1] [0] 3 ![1, 1, 64]
  dot_S4x16384x64_S64x64_S4x16384x64_2_1_01_0_n_n_wf : DotDims.WF S4x16384x64 S64x64 S4x16384x64 [2] [1] [0, 1] [0] [] []

variable [Facts₀]

def gather_S4x4096x64_S4x16384x8x1_S4x16384x8x64_3_1_0_0_1_3_1164 : GatherDims S4x4096x64 S4x16384x8x1 S4x16384x8x64 where
  offsetDims := [3]
  collapsedSliceDims := [1]
  operandBatchingDims := [0]
  startIndicesBatchingDims := [0]
  startIndexMap := [1]
  indexVectorDim := 3
  sliceSizes := ![1, 1, 64]
  wf := gather_S4x4096x64_S4x16384x8x1_S4x16384x8x64_3_1_0_0_1_3_1164_wf
def dot_S4x16384x64_S64x64_S4x16384x64_2_1_01_0_n_n : DotDims S4x16384x64 S64x64 S4x16384x64 where
  lhsContracting := [2]
  rhsContracting := [1]
  lhsNonContracting := [0, 1]
  rhsNonContracting := [0]
  lhsBatch := []
  rhsBatch := []
  wf := dot_S4x16384x64_S64x64_S4x16384x64_2_1_01_0_n_n_wf

class Facts : Prop extends Facts₀ where

variable [Facts]
-- ==== Proof.Spec.lean ====
/-
  The mathematics of the unpooling layer with skip connection, as functions on the extended reals.

  A point cloud of 4 batches of 16384 fine points takes, per fine point, the maximum over 8 neighbours of the coarse
  features (a table of 4096 rows per batch, rows named by index words), projects it by a 64 x 64 matrix with a bias,
  and normalizes each of the 64 channels over all 4 * 16384 points (mean and biased variance), scales by gamma, shifts
  by beta and clips below at zero; the fine points' own features go through a second such branch; the result is the
  fine coordinates followed by the second branch's 64 channels and then the first branch's.

  Two ways of taking a channel's statistics are written here. `chanR` takes the mean and the variance over all
  points at once. `chanK` takes them by 16 blocks of 4096 consecutive points (4 blocks per batch): per block the mean
  and the variance about the block's mean, then the mean of the block means and the mean of the block variances plus
  the variance of the block means about their mean; scale and shift are folded into `y * scale + shift`.
  The array-level functions below (`Y0`, `M0`, `Vr0`, `scaleH`, `shiftH`, `Out1`) spell the second way stage by stage
  over whole arrays, and `refOut` the first.
-/
import Idealize.ShloMosaic.PureOps.Ideal
import Idealize.ShloMosaic.Lib.ValueIdx

noncomputable section

namespace Cert.Unpool

open Idealize.ShloMosaic Idealize.ShloMosaic.ValueIdx

/-- Arrays of extended reals of rank 1 to 4, and rank-3 arrays of 32-bit words. -/
abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal
abbrev A4 (a b c d : Nat) := (⟨4, ![a, b, c, d]⟩ : Shape).Idx → EReal
abbrev W3 (a b c : Nat) := (⟨3, ![a, b, c]⟩ : Shape).Idx → BitVec 32

/-- The four float constants of the two programs, kept as the words that denote them: 4096, 16, 65536 and the
    variance's epsilon. -/
def c4096 : EReal := Ideal.ofBits .f32 0x45800000#32
def c16 : EReal := Ideal.ofBits .f32 0x41800000#32
def c65536 : EReal := Ideal.ofBits .f32 0x47800000#32
def epsC : EReal := Ideal.ofBits .f32 0x3727C5AC#32

/-! ## The neighbour maximum -/

/-- An index word as both programs normalize it: a negative word has 4096 added once. -/
def normWord (w : BitVec 32) : BitVec 32 := Scalar.select (IntOp.cmpi .slt w 0#32) (IntOp.addi w 4096#32) w

/-- The table row a normalized word names: read signed and clamped into 0 … 4095. -/
def rowOf (w : BitVec 32) : Fin 4096 := ⟨min (normWord w).toInt.toNat (4096 - 1), by omega⟩

/-- Neighbour `k`'s feature `c` of fine point `(b, n)`. -/
def gath (feats : A3 4 4096 64) (idx : W3 4 16384 8) (b : Fin 4) (n : Fin 16384) (k : Fin 8) (c : Fin 64) : EReal :=
  feats (ix3 b (rowOf (idx (ix3 b n k))) c)

/-- The maximum over the 8 neighbours, taken left to right. -/
def interC (feats : A3 4 4096 64) (idx : W3 4 16384 8) (b : Fin 4) (n : Fin 16384) (c : Fin 64) : EReal :=
  max (max (max (max (max (max (max (gath feats idx b n 0 c) (gath feats idx b n 1 c)) (gath feats idx b n 2 c))
    (gath feats idx b n 3 c)) (gath feats idx b n 4 c)) (gath feats idx b n 5 c)) (gath feats idx b n 6 c))
    (gath feats idx b n 7 c)

/-- The same as an array. -/
def interA (feats : A3 4 4096 64) (idx : W3 4 16384 8) : A3 4 16384 64 := fun i => interC feats idx (i 0) (i 1) (i 2)

/-! ## The projection -/

/-- `x · Wᵀ + bias` at `(b, n, o)`: the matrix is read `W[o, k]`. -/
def linC (x : A3 4 16384 64) (W : A2 64 64) (bias : A1 64) (b : Fin 4) (n : Fin 16384) (o : Fin 64) : EReal :=
  (∑ k : Fin 64, x (ix3 b n k) * W (ix2 o k)) + bias (ix1 o)

/-- `x · Wt + bias` at `(b, n, o)`: the matrix is read `Wt[k, o]` (the transposed matrix handed to the first launch). -/
def linT (x : A3 4 16384 64) (Wt : A2 64 64) (bias : A1 64) (b : Fin 4) (n : Fin 16384) (o : Fin 64) : EReal :=
  (∑ k : Fin 64, x (ix3 b n k) * Wt (ix2 k o)) + bias (ix1 o)

/-! ## One channel's normalization, two ways -/

/-- Row `r` of block `nb` among the 16384 fine points of a batch. -/
def rowIn (nb : Fin 4) (r : Fin 4096) : Fin 16384 := ⟨nb.val * 4096 + r.val, by omega⟩

/-- A block's mean. -/
def bmean (y : Fin 4 → Fin 16384 → EReal) (b : Fin 4) (nb : Fin 4) : EReal :=
  Ideal.div (∑ r : Fin 4096, y b (rowIn nb r)) c4096

/-- A block's variance about its own mean. -/
def bvar (y : Fin 4 → Fin 16384 → EReal) (b : Fin 4) (nb : Fin 4) : EReal :=
  Ideal.div (∑ r : Fin 4096, (y b (rowIn nb r) - bmean y b nb) * (y b (rowIn nb r) - bmean y b nb)) c4096

/-- The mean of 16 per-block values `f b nb`. -/
def pool (f : Fin 4 → Fin 4 → EReal) : EReal := Ideal.div (∑ b : Fin 4, ∑ nb : Fin 4, f b nb) c16

/-- The pooled variance of blocks with means `μ` and variances `v`: the mean of the variances plus the variance of the
    means about their mean. -/
def poolVar (μ v : Fin 4 → Fin 4 → EReal) : EReal :=
  pool v + pool (fun b nb => (μ b nb - pool μ) * (μ b nb - pool μ))

/-- Scale and shift from pooled block statistics. -/
def scaleOf (μ v : Fin 4 → Fin 4 → EReal) (γ : EReal) : EReal := γ * Ideal.rsqrt (poolVar μ v + epsC)
def shiftOf (μ v : Fin 4 → Fin 4 → EReal) (γ β : EReal) : EReal := β - pool μ * scaleOf μ v γ

/-- The blockwise way. -/
def chanK (y : Fin 4 → Fin 16384 → EReal) (γ β : EReal) (b : Fin 4) (n : Fin 16384) : EReal :=
  max (y b n * scaleOf (bmean y) (bvar y) γ + shiftOf (bmean y) (bvar y) γ β) 0

/-- The mean and the variance over all points at once. -/
def meanR (y : Fin 4 → Fin 16384 → EReal) : EReal := Ideal.div (∑ b : Fin 4, ∑ n : Fin 16384, y b n) c65536
def varR (y : Fin 4 → Fin 16384 → EReal) : EReal :=
  Ideal.div (∑ b : Fin 4, ∑ n : Fin 16384, (y b n - meanR y) * (y b n - meanR y)) c65536

/-- The direct way. -/
def chanR (y : Fin 4 → Fin 16384 → EReal) (γ β : EReal) (b : Fin 4) (n : Fin 16384) : EReal :=
  max (((y b n - meanR y) * Ideal.rsqrt (varR y + epsC)) * γ + β) 0

/-! ## The result array -/

/-- Coordinates, then the skip branch's 64 channels, then the projected branch's, each channel normalized by `chan`. -/
def outC (chan : (Fin 4 → Fin 16384 → EReal) → EReal → EReal → Fin 4 → Fin 16384 → EReal)
    (coords : A3 4 16384 3) (ys yp : Fin 4 → Fin 16384 → Fin 64 → EReal) (γs βs γp βp : A1 64)
    (b : Fin 4) (n : Fin 16384) (j : Fin 131) : EReal :=
  if h : j.val < 3 then coords (ix3 b n ⟨j.val, h⟩)
  else if h2 : j.val < 67 then
    chan (fun b' n' => ys b' n' ⟨j.val - 3, by omega⟩) (γs (ix1 ⟨j.val - 3, by omega⟩)) (βs (ix1 ⟨j.val - 3, by omega⟩)) b n
  else
    chan (fun b' n' => yp b' n' ⟨j.val - 67, by omega⟩) (γp (ix1 ⟨j.val - 67, by omega⟩)) (βp (ix1 ⟨j.val - 67, by omega⟩)) b n

/-- The reference's result: both branches normalized the direct way. -/
def refOut (feats : A3 4 4096 64) (coords : A3 4 16384 3) (skipf : A3 4 16384 64) (idx : W3 4 16384 8)
    (Wp : A2 64 64) (bp γp βp : A1 64) (Ws : A2 64 64) (bs γs βs : A1 64) : A3 4 16384 131 := fun i =>
  outC chanR coords (linC skipf Ws bs) (linC (interA feats idx) Wp bp) γs βs γp βp (i 0) (i 1) (i 2)

/-! ## The two launches and the host operations between them, stage by stage -/

/-- First launch, first result: the two projections side by side, the skip branch in columns 0 … 63. -/
def Y0 (xs : A3 4 16384 64) (Wst : A2 64 64) (bs : A1 64) (xi : A3 4 16384 64) (Wpt : A2 64 64) (bp : A1 64) :
    A3 4 16384 128 := fun i =>
  if h : (i 2).val < 64 then linT xs Wst bs (i 0) (i 1) ⟨(i 2).val, h⟩
  else linT xi Wpt bp (i 0) (i 1) ⟨(i 2).val - 64, by have h3 : (i 2).val < 128 := (i 2).isLt; omega⟩

/-- First launch, second result: per block, row 0 the skip branch's channel means, row 1 the projected branch's. -/
def M0 (xs : A3 4 16384 64) (Wst : A2 64 64) (bs : A1 64) (xi : A3 4 16384 64) (Wpt : A2 64 64) (bp : A1 64) :
    A4 4 4 2 64 := fun i =>
  if (i 2).val = 0 then bmean (fun b n => linT xs Wst bs b n (i 3)) (i 0) (i 1)
  else bmean (fun b n => linT xi Wpt bp b n (i 3)) (i 0) (i 1)

/-- First launch, third result: the same for the block variances. -/
def Vr0 (xs : A3 4 16384 64) (Wst : A2 64 64) (bs : A1 64) (xi : A3 4 16384 64) (Wpt : A2 64 64) (bp : A1 64) :
    A4 4 4 2 64 := fun i =>
  if (i 2).val = 0 then bvar (fun b n => linT xs Wst bs b n (i 3)) (i 0) (i 1)
  else bvar (fun b n => linT xi Wpt bp b n (i 3)) (i 0) (i 1)

/-- Between the launches: row `s` of the block statistics pooled into a scale and a shift per channel. -/
def scaleH (M V : A4 4 4 2 64) (γ : A1 64) (s : Fin 2) : A1 64 := fun i =>
  scaleOf (fun b nb => M (ix4 b nb s (i 0))) (fun b nb => V (ix4 b nb s (i 0))) (γ i)
def shiftH (M V : A4 4 4 2 64) (γ β : A1 64) (s : Fin 2) : A1 64 := fun i =>
  shiftOf (fun b nb => M (ix4 b nb s (i 0))) (fun b nb => V (ix4 b nb s (i 0))) (γ i) (β i)

/-- Second launch: coordinates, then each of the 128 columns of `Y` scaled, shifted and clipped at zero, the first 64
    with the skip branch's scale and shift, the last 64 with the projected branch's. -/
def Out1 (Y : A3 4 16384 128) (coords : A3 4 16384 3) (ss shs sp shp : A1 64) : A3 4 16384 131 := fun i =>
  if h : (i 2).val < 3 then coords (ix3 (i 0) (i 1) ⟨(i 2).val, h⟩)
  else if h2 : (i 2).val < 67 then
    max (Y (ix3 (i 0) (i 1) ⟨(i 2).val - 3, by omega⟩) * ss (ix1 ⟨(i 2).val - 3, by omega⟩) + shs (ix1 ⟨(i 2).val - 3, by omega⟩)) 0
  else
    max (Y (ix3 (i 0) (i 1) ⟨(i 2).val - 3, by have h3 : (i 2).val < 131 := (i 2).isLt; omega⟩) * sp (ix1 ⟨(i 2).val - 67, by have h3 : (i 2).val < 131 := (i 2).isLt; omega⟩)
      + shp (ix1 ⟨(i 2).val - 67, by have h3 : (i 2).val < 131 := (i 2).isLt; omega⟩)) 0

/-- The kernel's result, stage by stage, from the thirteen arguments (the coarse coordinates are not read). -/
def kernelOut (feats : A3 4 4096 64) (coords : A3 4 16384 3) (skipf : A3 4 16384 64) (idx : W3 4 16384 8)
    (Wp : A2 64 64) (bp γp βp : A1 64) (Ws : A2 64 64) (bs γs βs : A1 64) : A3 4 16384 131 :=
  let Wpt : A2 64 64 := fun i => Wp (ix2 (i 1) (i 0))
  let Wst : A2 64 64 := fun i => Ws (ix2 (i 1) (i 0))
  let xi := interA feats idx
  let Y := Y0 skipf Wst bs xi Wpt bp
  let M := M0 skipf Wst bs xi Wpt bp
  let V := Vr0 skipf Wst bs xi Wpt bp
  Out1 Y coords (scaleH M V γs 0) (shiftH M V γs βs 0) (scaleH M V γp 1) (shiftH M V γp βp 1)

end Cert.Unpool

end
-- ==== Proof.Region0.lean ====
/-
  The first launch's first result read as a whole array: after all 16 grid points have written back their blocks it is
  one function of the arrays the launch was entered with — the two projections side by side.
-/
import proofs.«430761_j15504831939266_3_alg».proof.Proof.Gen.KernelIdeal.Frame
import proofs.«430761_j15504831939266_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Cert.Unpool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The matrix product's dimension numbers, axis by axis -/

private theorem mmL0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl

private theorem mmL1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q

private theorem mmR0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q

private theorem mmR1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- A [4096,64] by [64,64] product into the zero accumulator, at row `r` and column `o`: the sum over the
    contracted coordinate. -/
private theorem mm_apply (A : FVec Ideal S4096x64 .f32) (B : FVec Ideal S64x64 .f32) (r : Fin 4096) (o : Fin 64) :
    matmul dot_S4096x64_S64x64_S4096x64_1_0_0_1_n_n none A B (constant S4096x64 .f32 0x00000000#32) (ix2 r o)
      = ∑ k : Fin 64, A (ix2 r k) * B (ix2 k o) := by
  simp only [matmul]
  rw [Ideal.matmul_constant_zero_apply,
    ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r o)
      ((contrEquiv1 dot_S4096x64_S64x64_S4096x64_1_0_0_1_n_n 64 rfl rfl).symm k) = ix2 r k :=
    funext fun a => Fin.ext (by
      match a with
      | ⟨0, _⟩ => exact mmL0 _ _
      | ⟨1, _⟩ => exact (mmL1 _ _).trans hk)
  have er : dot_S4096x64_S64x64_S4096x64_1_0_0_1_n_n.rhsIdx (ix2 r o)
      ((contrEquiv1 dot_S4096x64_S64x64_S4096x64_1_0_0_1_n_n 64 rfl rfl).symm k) = ix2 k o :=
    funext fun a => Fin.ext (by
      match a with
      | ⟨0, _⟩ => exact (mmR0 _ _).trans hk
      | ⟨1, _⟩ => exact mmR1 _ _)
  rw [el, er]

/-! ## The body's values at an index -/

/-- The first projection of a block: row `r`, column `o`. -/
private theorem pay6_apply (x0 : Vec Ideal S1x4096x64 .f32) (x2 : Vec Ideal S64x64 .f32) (x3 : Vec Ideal S64 .f32)
    (r : Fin 4096) (o : Fin 64) :
    k0_pay6 (F := Ideal) x0 x2 x3 (ix2 r o)
      = (∑ k : Fin 64, x0 (ix3 (0 : Fin 1) r k) * x2 (ix2 k o)) + x3 (ix1 o) := by
  unfold k0_pay6
  refine (addf_apply _ _ (ix2 r o)).trans ?_
  refine congrArg₂ (· + ·) ?_ ?_
  · refine (mm_apply _ _ r o).trans ?_
    refine Finset.sum_congr rfl fun k _ => ?_
    exact congrArg₂ (· * ·) (shapeCast_1ab_ab_apply x0 _ r k) (congrFun (shapeCast_self x2 _) (ix2 k o))
  · exact (broadcastTo_1b_ab_apply _ _ r o).trans (shapeCast_a_1a_apply x3 _ (0 : Fin 1) o)

/-- The second projection of a block: the same operations on the other three operands. -/
private theorem pay7_apply (x1 : Vec Ideal S1x4096x64 .f32) (x4 : Vec Ideal S64x64 .f32) (x5 : Vec Ideal S64 .f32)
    (r : Fin 4096) (o : Fin 64) :
    k0_pay7 (F := Ideal) x1 x4 x5 (ix2 r o)
      = (∑ k : Fin 64, x1 (ix3 (0 : Fin 1) r k) * x4 (ix2 k o)) + x5 (ix1 o) := by
  unfold k0_pay7
  refine (addf_apply _ _ (ix2 r o)).trans ?_
  refine congrArg₂ (· + ·) ?_ ?_
  · refine (mm_apply _ _ r o).trans ?_
    refine Finset.sum_congr rfl fun k _ => ?_
    exact congrArg₂ (· * ·) (shapeCast_1ab_ab_apply x1 _ r k) (congrFun (shapeCast_self x4 _) (ix2 k o))
  · exact (broadcastTo_1b_ab_apply _ _ r o).trans (shapeCast_a_1a_apply x5 _ (0 : Fin 1) o)

/-- The stored block, in its first 64 columns: the second projection. -/
private theorem pay1_apply_lo (v13 v17 : FVec Ideal S4096x64 .f32) (u : Fin 1) (r : Fin 4096) (o : Fin 128)
    (h : o.val < 64) : k0_pay1 (F := Ideal) v13 v17 (ix3 u r o) = v17 (ix2 r ⟨o.val, h⟩) := by
  unfold k0_pay1
  refine (shapeCast_ab_1ab_apply _ _ u r o).trans ?_
  refine concatenate_pair_apply_left (1 : Fin 2) v17 v13 _ (ix2 r o) rfl (ix2 r ⟨o.val, h⟩) fun b => ?_
  match b with
  | ⟨0, _⟩ => rfl
  | ⟨1, _⟩ => rfl

/-- The stored block, in its last 64 columns: the first projection, 64 columns to the left. -/
private theorem pay1_apply_hi (v13 v17 : FVec Ideal S4096x64 .f32) (u : Fin 1) (r : Fin 4096) (o : Fin 128)
    (h : 64 ≤ o.val) :
    k0_pay1 (F := Ideal) v13 v17 (ix3 u r o) = v13 (ix2 r ⟨o.val - 64, by have := o.isLt; omega⟩) := by
  unfold k0_pay1
  refine (shapeCast_ab_1ab_apply _ _ u r o).trans ?_
  refine concatenate_pair_apply_right (1 : Fin 2) v17 v13 _ (ix2 r o) rfl rfl
    (ix2 r ⟨o.val - 64, by have := o.isLt; omega⟩) (fun b hb => ?_) ?_
  · match b with
    | ⟨0, _⟩ => rfl
    | ⟨1, _⟩ => exact absurd rfl hb
  · show o.val - 64 + 64 = o.val
    omega

/-- What the body stores, at row `r` and column `o` of its block, from what the six input blocks hold. -/
private theorem stored_apply (x0 x1 : Vec Ideal S1x4096x64 .f32) (x2 x4 : Vec Ideal S64x64 .f32)
    (x3 x5 : Vec Ideal S64 .f32) (u : Fin 1) (r : Fin 4096) (o : Fin 128) :
    k0_pay1 (F := Ideal) (k0_pay6 x0 x2 x3) (k0_pay7 x1 x4 x5) (ix3 u r o)
      = if h : o.val < 64 then
          (∑ k : Fin 64, x1 (ix3 (0 : Fin 1) r k) * x4 (ix2 k ⟨o.val, h⟩)) + x5 (ix1 ⟨o.val, h⟩)
        else
          (∑ k : Fin 64, x0 (ix3 (0 : Fin 1) r k) * x2 (ix2 k ⟨o.val - 64, by have := o.isLt; omega⟩))
            + x3 (ix1 ⟨o.val - 64, by have := o.isLt; omega⟩) := by
  split
  · next h => exact (pay1_apply_lo _ _ u r o h).trans (pay7_apply x1 x4 x5 r ⟨o.val, h⟩)
  · next h => exact (pay1_apply_hi _ _ u r o (by omega)).trans (pay6_apply x0 x2 x3 r _)

/-- The stored block is the block of the two projections side by side, when the input blocks are the blocks of the
    arrays: rows `nb * 4096 …` of batch `b` for the two point arrays, the whole of the matrices and the biases. -/
private theorem stored_eq_Y0 (x0 x1 : Vec Ideal S1x4096x64 .f32) (x2 x4 : Vec Ideal S64x64 .f32)
    (x3 x5 : Vec Ideal S64 .f32) (xs xi : A3 4 16384 64) (Wst Wpt : A2 64 64) (bs bp : A1 64) (b nb : Fin 4)
    (h0 : ∀ (r : Fin 4096) (k : Fin 64), x0 (ix3 (0 : Fin 1) r k) = xi (ix3 b (rowIn nb r) k))
    (h1 : ∀ (r : Fin 4096) (k : Fin 64), x1 (ix3 (0 : Fin 1) r k) = xs (ix3 b (rowIn nb r) k))
    (h2 : x2 = Wpt) (h3 : x3 = bp) (h4 : x4 = Wst) (h5 : x5 = bs)
    (u : Fin 1) (r : Fin 4096) (o : Fin 128) :
    k0_pay1 (F := Ideal) (k0_pay6 x0 x2 x3) (k0_pay7 x1 x4 x5) (ix3 u r o)
      = Y0 xs Wst bs xi Wpt bp (ix3 b (rowIn nb r) o) := by
  rw [stored_apply]
  subst h2 h3 h4 h5
  show _ = if h : o.val < 64 then linT xs x4 x5 b (rowIn nb r) ⟨o.val, h⟩
    else linT xi x2 x3 b (rowIn nb r) ⟨o.val - 64, by have := o.isLt; omega⟩
  unfold linT
  split
  · next h => simp only [h1]
  · next h => simp only [h0]

/-! ## The index maps over the grid -/

private theorem hz3 : (![0, 0, 0] : Fin 3 → Nat) = fun _ => 0 := funext fun a => by fin_cases a <;> rfl
private theorem hz2 : (![0, 0] : Fin 2 → Nat) = fun _ => 0 := funext fun a => by fin_cases a <;> rfl
private theorem hz1 : (![0] : Fin 1 → Nat) = fun _ => 0 := funext fun a => by fin_cases a <;> rfl

/-- The printed index maps, decided over the 16 grid points: the two point arrays' blocks move with the result's, at
    (batch, row block, 0); the matrices' and the biases' stay at zero. -/
private theorem idx_facts : ∀ t : Fin cfg0.N,
    win0_6.index t (0 : Fin 3) < 4 ∧ win0_6.index t (1 : Fin 3) < 4 ∧ win0_6.index t (2 : Fin 3) = 0
    ∧ win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = win0_6.index t (1 : Fin 3)
    ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- Every (batch, row block) is some grid point's. -/
private theorem idx_onto : ∀ (q0 q1 : Fin 4), ∃ t : Fin cfg0.N, win0_6.index t = ![q0.val, q1.val, 0] :=
  (by decide +kernel : ∀ (q0 q1 : Fin 4), ∃ t : Fin grid0.N, win0_6.index t = ![q0.val, q1.val, 0])

/-! ## The input blocks, read off the arrays -/

/-- The neighbour-maximum array's block at point `t`: rows `nb * 4096 …` of batch `b`. -/
private theorem iblk_0_apply (c : Dev nD) (t : Fin cfg0.N) (b nb : Fin 4)
    (hb : win0_6.index t (0 : Fin 3) = b.val) (hnb : win0_6.index t (1 : Fin 3) = nb.val) (r : Fin 4096) (k : Fin 64) :
    (iblk0 V c 0 t : Vec Ideal S1x4096x64 .f32) (ix3 (0 : Fin 1) r k)
      = (V c main_v78 : A3 4 16384 64) (ix3 b (rowIn nb r) k) := by
  obtain ⟨-, -, -, e0, e1, e2, -⟩ := idx_facts t
  unfold iblk0; rw [View.read_apply]
  show V c main_v78 _ = V c main_v78 _
  congr 1; funext a; apply Fin.ext
  match a with
  | ⟨0, _⟩ => show win0_0.index t (0 : Fin 3) * 1 + 1 * 0 = b.val; omega
  | ⟨1, _⟩ => show win0_0.index t (1 : Fin 3) * 4096 + 1 * r.val = nb.val * 4096 + r.val; omega
  | ⟨2, _⟩ => show win0_0.index t (2 : Fin 3) * 64 + 1 * k.val = k.val; omega

/-- The fine points' own features' block at point `t`: the same rows. -/
private theorem iblk_1_apply (c : Dev nD) (t : Fin cfg0.N) (b nb : Fin 4)
    (hb : win0_6.index t (0 : Fin 3) = b.val) (hnb : win0_6.index t (1 : Fin 3) = nb.val) (r : Fin 4096) (k : Fin 64) :
    (iblk0 V c 1 t : Vec Ideal S1x4096x64 .f32) (ix3 (0 : Fin 1) r k)
      = (V c main_arg3 : A3 4 16384 64) (ix3 b (rowIn nb r) k) := by
  obtain ⟨-, -, -, -, -, -, e0, e1, e2, -⟩ := idx_facts t
  unfold iblk0; rw [View.read_apply]
  show V c main_arg3 _ = V c main_arg3 _
  congr 1; funext a; apply Fin.ext
  match a with
  | ⟨0, _⟩ => show win0_1.index t (0 : Fin 3) * 1 + 1 * 0 = b.val; omega
  | ⟨1, _⟩ => show win0_1.index t (1 : Fin 3) * 4096 + 1 * r.val = nb.val * 4096 + r.val; omega
  | ⟨2, _⟩ => show win0_1.index t (2 : Fin 3) * 64 + 1 * k.val = k.val; omega

/-- The two matrices' and the two biases' blocks are the whole arrays. -/
private theorem iblk_2_eq (c : Dev nD) (t : Fin cfg0.N) :
    (iblk0 V c 2 t : Vec Ideal S64x64 .f32) = (V c main_v79 : A2 64 64) := by
  obtain ⟨-, -, -, -, -, -, -, -, -, e0, e1, -⟩ := idx_facts t
  funext y
  unfold iblk0; rw [View.read_apply]
  show V c main_v79 _ = V c main_v79 _
  congr 1; funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

private theorem iblk_3_eq (c : Dev nD) (t : Fin cfg0.N) :
    (iblk0 V c 3 t : Vec Ideal S64 .f32) = (V c main_arg6 : A1 64) := by
  obtain ⟨-, -, -, -, -, -, -, -, -, -, -, e0, -⟩ := idx_facts t
  funext y
  unfold iblk0; rw [View.read_apply]
  show V c main_arg6 _ = V c main_arg6 _
  congr 1; funext a; apply Fin.ext
  match a with
  | ⟨0, _⟩ => show win0_3.index t (0 : Fin 1) * 64 + 1 * (y 0).val = (y 0).val; omega

private theorem iblk_4_eq (c : Dev nD) (t : Fin cfg0.N) :
    (iblk0 V c 4 t : Vec Ideal S64x64 .f32) = (V c main_v80 : A2 64 64) := by
  obtain ⟨-, -, -, -, -, -, -, -, -, -, -, -, e0, e1, -⟩ := idx_facts t
  funext y
  unfold iblk0; rw [View.read_apply]
  show V c main_v80 _ = V c main_v80 _
  congr 1; funext a; apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

private theorem iblk_5_eq (c : Dev nD) (t : Fin cfg0.N) :
    (iblk0 V c 5 t : Vec Ideal S64 .f32) = (V c main_arg10 : A1 64) := by
  obtain ⟨-, -, -, -, -, -, -, -, -, -, -, -, -, -, e0⟩ := idx_facts t
  funext y
  unfold iblk0; rw [View.read_apply]
  show V c main_arg10 _ = V c main_arg10 _
  congr 1; funext a; apply Fin.ext
  match a with
  | ⟨0, _⟩ => show win0_5.index t (0 : Fin 1) * 64 + 1 * (y 0).val = (y 0).val; omega

/-! ## From the blocks to the array -/

/-- What point `t` writes back is its block of the two projections of the region-entry arrays side by side. -/
private theorem flushed_eq (c : Dev nD) (t : Fin cfg0.N) :
    (dat0 V c).flushed 6 t = ((cfg0.win 6).blk t).view.read (Elt Ideal)
      (Y0 (V c main_arg3) (V c main_v80) (V c main_arg10) (V c main_v78) (V c main_v79) (V c main_arg6)) := by
  show (cfg0.win 6).cut (grid0.coords t) ((dat0 V c).after 6 t) = _
  rw [after0_6]
  unfold out0_6
  rw [View.canon_unit_zero hz3]
  simp only [View.ld_unit_zero (S := S1x4096x64) hz3, View.ld_unit_zero (S := S64x64) hz2,
    View.ld_unit_zero (S := S64) hz1]
  obtain ⟨f0, f1, f2, -⟩ := idx_facts t
  funext j
  obtain ⟨u, r, o, rfl⟩ : ∃ (u : Fin 1) (r : Fin 4096) (o : Fin 128), j = ix3 u r o := ⟨j 0, j 1, j 2, eq_ix3 j⟩
  have he : ((cfg0.win 6).blk t).view.emb (ix3 u r o)
      = ix3 (⟨win0_6.index t (0 : Fin 3), f0⟩ : Fin 4) (rowIn ⟨win0_6.index t (1 : Fin 3), f1⟩ r) o := by
    funext a; apply Fin.ext
    match a with
    | ⟨0, _⟩ => show win0_6.index t (0 : Fin 3) * 1 + 1 * u.val = win0_6.index t (0 : Fin 3); omega
    | ⟨1, _⟩ => show win0_6.index t (1 : Fin 3) * 4096 + 1 * r.val = win0_6.index t (1 : Fin 3) * 4096 + r.val; omega
    | ⟨2, _⟩ => show win0_6.index t (2 : Fin 3) * 128 + 1 * o.val = o.val; omega
  rw [View.read_apply, he]
  exact stored_eq_Y0 (iblk0 V c 0 t) (iblk0 V c 1 t) (iblk0 V c 2 t) (iblk0 V c 4 t) (iblk0 V c 3 t) (iblk0 V c 5 t)
    (V c main_arg3) (V c main_v78) (V c main_v80) (V c main_v79) (V c main_arg10) (V c main_arg6)
    ⟨win0_6.index t (0 : Fin 3), f0⟩ ⟨win0_6.index t (1 : Fin 3), f1⟩
    (iblk_0_apply V c t _ _ rfl rfl) (iblk_1_apply V c t _ _ rfl rfl)
    (iblk_2_eq V c t) (iblk_3_eq V c t) (iblk_4_eq V c t) (iblk_5_eq V c t) u r o

/-- An index of the result array is in point `t`'s block iff each coordinate is in the block's range on its axis. -/
private theorem mem_blk (t : Fin cfg0.N) (i : S4x16384x128.Idx) :
    i ∈ ((cfg0.win 6).blk t).view.set ↔ ∀ a : Fin 3, win0_6.index t a * S1x4096x128.size a ≤ (i a).val
      ∧ (i a).val < win0_6.index t a * S1x4096x128.size a + S1x4096x128.size a := by
  show i ∈ ((View.whole main_v81_0).slice (win0_6.rect t)).set ↔ _
  rw [View.set_slice_whole, Rect.mem_set_unit]
  exact Iff.rfl

/-- Every index of the result array lies in the block of the point of its batch and its row block. -/
private theorem covered (i : S4x16384x128.Idx) :
    ∃ t : Fin cfg0.N, (cfg0.win 6).flush t = true ∧ i ∈ ((cfg0.win 6).blk t).view.set := by
  have hi0 : (i 0).val < 4 := (i 0).isLt
  have hi1 : (i 1).val < 16384 := (i 1).isLt
  have hi2 : (i 2).val < 128 := (i 2).isLt
  obtain ⟨t, ht⟩ := idx_onto ⟨(i 0).val, hi0⟩ ⟨(i 1).val / 4096, by omega⟩
  have q0 : win0_6.index t (0 : Fin 3) = (i 0).val := congrFun ht 0
  have q1 : win0_6.index t (1 : Fin 3) = (i 1).val / 4096 := congrFun ht 1
  have q2 : win0_6.index t (2 : Fin 3) = 0 := congrFun ht 2
  refine ⟨t, flush0_6 t, ?_⟩
  rw [mem_blk]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 4096 ≤ (i 1).val ∧ (i 1).val < win0_6.index t (1 : Fin 3) * 4096 + 4096
    omega
  | ⟨2, _⟩ =>
    show win0_6.index t (2 : Fin 3) * 128 ≤ (i 2).val ∧ (i 2).val < win0_6.index t (2 : Fin 3) * 128 + 128
    omega

/-- The first result array: the skip branch's projection in columns 0 … 63, the neighbour-maximum branch's in 64 … 127. -/
theorem final0_6 (c : Dev nD) :
    (dat0 (F := Ideal) V c).arrAt 6 cfg0.N
      = Y0 (V c main_arg3) (V c main_v80) (V c main_arg10) (V c main_v78) (V c main_v79) (V c main_arg6) :=
  (dat0 V c).arrAt_eq_of_cover 6 _ (fun t _ => flushed_eq V c t) covered

end Cert.KernelIdeal.Region0

end
-- ==== Proof.Region0StatsAux.lean ====
/-
  One grid point of the first launch, as mathematics. The body projects each of its two blocks of 4096 rows by a 64 x 64
  matrix with a bias, takes per channel the mean over the rows and the mean squared deviation from that mean, and stores
  the two branches' means as the two rows of one [1,1,2,64] block and the variances as the two rows of another. Here: the
  projection, the mean and the variance of a block read at an index; the two-row blocks read back from their two stores;
  a block's statistics identified with the whole array's block statistics when the block's rows are the array's rows; the
  two result arrays at an index given by coordinates; and the windows' index maps decided over the 16 grid points.
-/
import proofs.«430761_j15504831939266_3_alg».proof.Proof.Gen.KernelIdeal.Frame
import proofs.«430761_j15504831939266_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0Stats

open Cert.KernelIdeal Cert.KernelIdeal.Gen Cert.Unpool
open Idealize.ShloMosaic Idealize.ShloMosaic.TcCoe Idealize.ShloMosaic.ValueIdx Idealize.SL.Sem
open Idealize.ShloMosaic.Pipeline (Dat Cfg Window)

/-! ## One block's projection, read at a row and a channel -/

/-- Row `r`, channel `o` of a block `x` of 4096 rows times the matrix `W` (read `W[k, o]`) plus the bias. -/
def projBlk (x : S1x4096x64.Idx → EReal) (W : S64x64.Idx → EReal) (bv : S64.Idx → EReal) (r : Fin 4096) (o : Fin 64) : EReal :=
  (∑ k : Fin 64, x (ix3 (0 : Fin 1) r k) * W (ix2 k o)) + bv (ix1 o)

/-- The block's channel mean. -/
def meanBlk (x : S1x4096x64.Idx → EReal) (W : S64x64.Idx → EReal) (bv : S64.Idx → EReal) (o : Fin 64) : EReal :=
  Ideal.div (∑ r : Fin 4096, projBlk x W bv r o) c4096

/-- The block's channel variance about its own mean. -/
def varBlk (x : S1x4096x64.Idx → EReal) (W : S64x64.Idx → EReal) (bv : S64.Idx → EReal) (o : Fin 64) : EReal :=
  Ideal.div (∑ r : Fin 4096, (projBlk x W bv r o - meanBlk x W bv o) * (projBlk x W bv r o - meanBlk x W bv o)) c4096

theorem lhs_proj_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_proj_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs_proj_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs_proj_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The matrix product into the zero splat, at row `r` and channel `o`: the sum over the 64 input channels. -/
theorem matmul_proj_apply (A : FVec Ideal S4096x64 .f32) (B : FVec Ideal S64x64 .f32) (r : Fin 4096) (o : Fin 64) :
    matmul dot_S4096x64_S64x64_S4096x64_1_0_0_1_n_n none A B (constant (F := Ideal) S4096x64 .f32 0x00000000#32) (ix2 r o)
      = ∑ k : Fin 64, A (ix2 r k) * B (ix2 k o) := by
  simp only [matmul]
  rw [Ideal.matmul_constant_zero_apply, ← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 r o) ((ValueIdx.contrEquiv1 dot_S4096x64_S64x64_S4096x64_1_0_0_1_n_n 64 rfl rfl).symm k) = ix2 r k := funext fun a => Fin.ext (by
    match a with
    | ⟨0, _⟩ => exact lhs_proj_0 _ _
    | ⟨1, _⟩ => exact (lhs_proj_1 _ _).trans hk)
  have er : dot_S4096x64_S64x64_S4096x64_1_0_0_1_n_n.rhsIdx (ix2 r o) ((ValueIdx.contrEquiv1 dot_S4096x64_S64x64_S4096x64_1_0_0_1_n_n 64 rfl rfl).symm k) = ix2 k o := funext fun a => Fin.ext (by
    match a with
    | ⟨0, _⟩ => exact (rhs_proj_0 _ _).trans hk
    | ⟨1, _⟩ => exact rhs_proj_1 _ _)
  rw [el, er]

/-- The projection payload at row `r` and channel `o`. -/
theorem pay6_apply (x : Vec Ideal S1x4096x64 .f32) (W : Vec Ideal S64x64 .f32) (bv : Vec Ideal S64 .f32) (r : Fin 4096) (o : Fin 64) :
    k0_pay6 (F := Ideal) x W bv (ix2 r o) = projBlk x W bv r o := by
  unfold k0_pay6 projBlk
  refine (addf_apply _ _ (ix2 r o)).trans ?_
  refine congrArg₂ (· + ·) ?_ ?_
  · refine (matmul_proj_apply _ _ r o).trans ?_
    refine Finset.sum_congr rfl fun k _ => ?_
    rw [shapeCast_1ab_ab_apply, shapeCast_self]
  · exact (broadcastTo_1b_ab_apply _ _ r o).trans (shapeCast_a_1a_apply _ _ (0 : Fin 1) o)

/-- The second branch's projection payload is the same function. -/
theorem pay7_apply (x : Vec Ideal S1x4096x64 .f32) (W : Vec Ideal S64x64 .f32) (bv : Vec Ideal S64 .f32) (r : Fin 4096) (o : Fin 64) :
    k0_pay7 (F := Ideal) x W bv (ix2 r o) = projBlk x W bv r o := pay6_apply x W bv r o

/-! ## The two statistics payloads, read at a channel -/

/-- A channel vector cast to [1, 1, 1, 64] reads, at `(u0, u1, u2, o)`, the vector at `o`. -/
theorem shapeCast_a_111a_apply {α : Type} (x : S64.Idx → α) (h : S64.ShapeCasts S1x1x1x64)
    (u0 u1 u2 : Fin 1) (o : Fin 64) : shapeCast S1x1x1x64 x h (ix4 u0 u1 u2 o) = x (ix1 o) :=
  shapeCast_apply x h _ _ (by
    have h0 : u0.val = 0 := by omega
    have h1 : u1.val = 0 := by omega
    have h2 : u2.val = 0 := by omega
    rw [Shape.rowMajor_val_four, Shape.rowMajor_val_one]
    show o.val = ((u0.val * 1 + u1.val) * 1 + u2.val) * 64 + o.val
    omega)

/-- The sum over the 4096 rows of a [4096, 64] value, at channel `o`. -/
theorem rowsum_apply (src : FVec Ideal S4096x64 .f32) (hφ : FKind.Formats .f32)
    (hacc : (0x00000000#32 : BitVec 32) = FKind.add.neutral .f32 hφ) (o : Fin 64) :
    multiReduction .add [0] S64 src 0x00000000#32 reduces_S4096x64_S64 hφ hacc (ix1 o) = ∑ r : Fin 4096, src (ix2 r o) := by
  refine (Ideal.multiReduction_add_single src 0x00000000#32 reduces_S4096x64_S64 hφ hacc (ix1 o)).trans ?_
  refine Finset.sum_congr rfl fun r _ => congrArg src ?_
  funext a
  apply Fin.ext
  match a with
  | ⟨0, _⟩ => rfl
  | ⟨1, _⟩ => rfl

/-- The mean payload at channel `o`. -/
theorem pay8_apply (x : Vec Ideal S1x4096x64 .f32) (W : Vec Ideal S64x64 .f32) (bv : Vec Ideal S64 .f32) (o : Fin 64) :
    k0_pay8 (F := Ideal) x W bv (ix1 o) = meanBlk x W bv o := by
  unfold k0_pay8 meanBlk
  refine (divf_apply _ _ (ix1 o)).trans ?_
  refine congrArg₂ Ideal.div ?_ rfl
  refine (rowsum_apply _ _ _ o).trans ?_
  exact Finset.sum_congr rfl fun r _ => pay6_apply x W bv r o

theorem pay9_apply (x : Vec Ideal S1x4096x64 .f32) (W : Vec Ideal S64x64 .f32) (bv : Vec Ideal S64 .f32) (o : Fin 64) :
    k0_pay9 (F := Ideal) x W bv (ix1 o) = meanBlk x W bv o := pay8_apply x W bv o

/-- The variance payload at channel `o`. -/
theorem pay10_apply (x : Vec Ideal S1x4096x64 .f32) (W : Vec Ideal S64x64 .f32) (bv : Vec Ideal S64 .f32) (o : Fin 64) :
    k0_pay10 (F := Ideal) x W bv (ix1 o) = varBlk x W bv o := by
  unfold k0_pay10 varBlk
  refine (divf_apply _ _ (ix1 o)).trans ?_
  refine congrArg₂ Ideal.div ?_ rfl
  refine (rowsum_apply _ _ _ o).trans ?_
  refine Finset.sum_congr rfl fun r _ => ?_
  refine (mulf_apply _ _ (ix2 r o)).trans ?_
  have e : (subf (k0_pay6 (F := Ideal) x W bv) (broadcastTo S4096x64 (shapeCast S1x64 (k0_pay8 (F := Ideal) x W bv) shapeCasts_S64_S1x64) broadcasts_S1x64_S4096x64)) (ix2 r o)
      = projBlk x W bv r o - meanBlk x W bv o := by
    refine (subf_apply _ _ (ix2 r o)).trans ?_
    refine congrArg₂ (· - ·) (pay6_apply x W bv r o) ?_
    exact ((broadcastTo_1b_ab_apply _ _ r o).trans (shapeCast_a_1a_apply _ _ (0 : Fin 1) o)).trans (pay8_apply x W bv o)
  exact congrArg₂ (· * ·) e e

/-- The stored rows: the means' and the variances', each a channel vector under three unit axes. -/
theorem pay3_pay8_apply (x : Vec Ideal S1x4096x64 .f32) (W : Vec Ideal S64x64 .f32) (bv : Vec Ideal S64 .f32) (u0 u1 u2 : Fin 1) (o : Fin 64) :
    k0_pay3 (F := Ideal) (k0_pay8 (F := Ideal) x W bv) (ix4 u0 u1 u2 o) = meanBlk x W bv o := by
  unfold k0_pay3
  exact (shapeCast_a_111a_apply _ _ u0 u1 u2 o).trans (pay8_apply x W bv o)

theorem pay2_pay9_apply (x : Vec Ideal S1x4096x64 .f32) (W : Vec Ideal S64x64 .f32) (bv : Vec Ideal S64 .f32) (u0 u1 u2 : Fin 1) (o : Fin 64) :
    k0_pay2 (F := Ideal) (k0_pay9 (F := Ideal) x W bv) (ix4 u0 u1 u2 o) = meanBlk x W bv o := by
  unfold k0_pay2
  exact (shapeCast_a_111a_apply _ _ u0 u1 u2 o).trans (pay9_apply x W bv o)

theorem pay5_pay10_apply (x : Vec Ideal S1x4096x64 .f32) (W : Vec Ideal S64x64 .f32) (bv : Vec Ideal S64 .f32) (u0 u1 u2 : Fin 1) (o : Fin 64) :
    k0_pay5 (F := Ideal) (k0_pay10 (F := Ideal) x W bv) (ix4 u0 u1 u2 o) = varBlk x W bv o := by
  unfold k0_pay5
  exact (shapeCast_a_111a_apply _ _ u0 u1 u2 o).trans (pay10_apply x W bv o)

/-- The skip branch divides its sum of squared deviations by 4096 at the store: the same value. -/
theorem pay4_pay11_apply (x : Vec Ideal S1x4096x64 .f32) (W : Vec Ideal S64x64 .f32) (bv : Vec Ideal S64 .f32) (u0 u1 u2 : Fin 1) (o : Fin 64) :
    k0_pay4 (F := Ideal) (k0_pay11 (F := Ideal) x W bv) (Scalar.ofBits .f32 0x45800000#32) (ix4 u0 u1 u2 o) = varBlk x W bv o :=
  pay5_pay10_apply x W bv u0 u1 u2 o

/-! ## The two stores of a statistics block, read back -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Row 0's rectangle places `(u0, u1, u2, o)` at `(u0, u1, 0, o)`. -/
theorem emb_row0 (u0 u1 u2 : Fin 1) (o : Fin 64) : r0_4.emb (ix4 u0 u1 u2 o : S1x1x1x64.Idx) = ix4 u0 u1 (0 : Fin 2) o := by
  funext a
  apply Fin.ext
  rw [Rect.emb_apply]
  match a with
  | ⟨0, _⟩ => show 0 + 1 * u0.val = u0.val; omega
  | ⟨1, _⟩ => show 0 + 1 * u1.val = u1.val; omega
  | ⟨2, _⟩ => show 0 + 1 * u2.val = 0; omega
  | ⟨3, _⟩ => show 0 + 1 * o.val = o.val; omega

/-- Row 1's rectangle places `(u0, u1, u2, o)` at `(u0, u1, 1, o)`. -/
theorem emb_row1 (u0 u1 u2 : Fin 1) (o : Fin 64) : r0_5.emb (ix4 u0 u1 u2 o : S1x1x1x64.Idx) = ix4 u0 u1 (1 : Fin 2) o := by
  funext a
  apply Fin.ext
  rw [Rect.emb_apply]
  match a with
  | ⟨0, _⟩ => show 0 + 1 * u0.val = u0.val; omega
  | ⟨1, _⟩ => show 0 + 1 * u1.val = u1.val; omega
  | ⟨2, _⟩ => show 1 + 1 * u2.val = 1; omega
  | ⟨3, _⟩ => show 0 + 1 * o.val = o.val; omega

/-- Row 0 is outside row 1's rectangle. -/
theorem row0_not_mem_row1 (u0 u1 : Fin 1) (o : Fin 64) : (ix4 u0 u1 (0 : Fin 2) o : S1x1x2x64.Idx) ∉ r0_5.set := by
  rw [Rect.mem_set_unit]
  intro h
  have h2 : (1 : Nat) ≤ 0 := (h (2 : Fin 4)).1
  omega

/-- Two stores, row 1 last, read back at `(u0, u1, s, o)`: row 0's payload at `s = 0`, row 1's otherwise. -/
theorem canon_rows_apply (p1 p0 : Vec Ideal S1x1x1x64 .f32) (u0 u1 : Fin 1) (s : Fin 2) (o : Fin 64) :
    View.canon ([⟨r0_5, p1⟩, ⟨r0_4, p0⟩] : List (View.Piece (Elt Ideal) S1x1x2x64 .f32)) (ix4 u0 u1 s o)
      = if s.val = 0 then p0 (ix4 u0 u1 (0 : Fin 1) o) else p1 (ix4 u0 u1 (0 : Fin 1) o) := by
  by_cases hs : s.val = 0
  · rw [if_pos hs]
    obtain rfl : s = 0 := Fin.ext hs
    refine (View.canon_cons_of_not_mem (⟨r0_5, p1⟩ : View.Piece (Elt Ideal) S1x1x2x64 .f32)
      ([⟨r0_4, p0⟩] : List (View.Piece (Elt Ideal) S1x1x2x64 .f32)) (row0_not_mem_row1 u0 u1 o)).trans ?_
    refine (congrArg (View.canon ([⟨r0_4, p0⟩] : List (View.Piece (Elt Ideal) S1x1x2x64 .f32))) (emb_row0 u0 u1 0 o).symm).trans ?_
    exact View.canon_cons_emb r0_4 p0 [] (ix4 u0 u1 (0 : Fin 1) o)
  · rw [if_neg hs]
    obtain rfl : s = 1 := Fin.ext (by omega)
    refine (congrArg (View.canon ([⟨r0_5, p1⟩, ⟨r0_4, p0⟩] : List (View.Piece (Elt Ideal) S1x1x2x64 .f32))) (emb_row1 u0 u1 0 o).symm).trans ?_
    exact View.canon_cons_emb r0_5 p1 ([⟨r0_4, p0⟩] : List (View.Piece (Elt Ideal) S1x1x2x64 .f32)) (ix4 u0 u1 (0 : Fin 1) o)

/-- The means' block after the body, at `(u0, u1, s, o)`. -/
theorem out7_apply (x0 x1 : Vec Ideal S1x4096x64 .f32) (x2 : Vec Ideal S64x64 .f32) (x3 : Vec Ideal S64 .f32) (x4 : Vec Ideal S64x64 .f32) (x5 : Vec Ideal S64 .f32)
    (u0 u1 : Fin 1) (s : Fin 2) (o : Fin 64) :
    out0_7 (F := Ideal) x0 x1 x2 x3 x4 x5 (ix4 u0 u1 s o) = if s.val = 0 then meanBlk x1 x4 x5 o else meanBlk x0 x2 x3 o := by
  unfold out0_7
  simp only [View.ld_unit_zero (S := S1x4096x64) hz3, View.ld_unit_zero (S := S64x64) hz2, View.ld_unit_zero (S := S64) hz1]
  refine (canon_rows_apply _ _ u0 u1 s o).trans ?_
  rw [pay2_pay9_apply, pay3_pay8_apply]

/-- The variances' block after the body, at `(u0, u1, s, o)`. -/
theorem out8_apply (x0 x1 : Vec Ideal S1x4096x64 .f32) (x2 : Vec Ideal S64x64 .f32) (x3 : Vec Ideal S64 .f32) (x4 : Vec Ideal S64x64 .f32) (x5 : Vec Ideal S64 .f32)
    (u0 u1 : Fin 1) (s : Fin 2) (o : Fin 64) :
    out0_8 (F := Ideal) x0 x1 x2 x3 x4 x5 (ix4 u0 u1 s o) = if s.val = 0 then varBlk x1 x4 x5 o else varBlk x0 x2 x3 o := by
  unfold out0_8
  simp only [View.ld_unit_zero (S := S1x4096x64) hz3, View.ld_unit_zero (S := S64x64) hz2, View.ld_unit_zero (S := S64) hz1]
  refine (canon_rows_apply _ _ u0 u1 s o).trans ?_
  rw [pay4_pay11_apply, pay5_pay10_apply]

/-! ## Block statistics against the whole arrays' -/

/-- A block whose rows are rows `rowIn nb r` of batch `b` of an array projects as the array does there. -/
theorem projBlk_eq_linT (x : S1x4096x64.Idx → EReal) (W : S64x64.Idx → EReal) (bv : S64.Idx → EReal)
    (X : A3 4 16384 64) (W' : A2 64 64) (bv' : A1 64) (b nb : Fin 4)
    (hx : ∀ (r : Fin 4096) (k : Fin 64), x (ix3 (0 : Fin 1) r k) = X (ix3 b (rowIn nb r) k)) (hW : W = W') (hbv : bv = bv')
    (r : Fin 4096) (o : Fin 64) : projBlk x W bv r o = linT X W' bv' b (rowIn nb r) o := by
  subst hW hbv
  unfold projBlk linT
  exact congrArg₂ (· + ·) (Finset.sum_congr rfl fun k _ => by rw [hx r k]) rfl

/-- So its channel mean is the array's block mean. -/
theorem meanBlk_eq_bmean (x : S1x4096x64.Idx → EReal) (W : S64x64.Idx → EReal) (bv : S64.Idx → EReal)
    (X : A3 4 16384 64) (W' : A2 64 64) (bv' : A1 64) (b nb : Fin 4)
    (hx : ∀ (r : Fin 4096) (k : Fin 64), x (ix3 (0 : Fin 1) r k) = X (ix3 b (rowIn nb r) k)) (hW : W = W') (hbv : bv = bv')
    (o : Fin 64) : meanBlk x W bv o = bmean (fun b' n => linT X W' bv' b' n o) b nb := by
  unfold meanBlk bmean
  exact congrArg₂ Ideal.div (Finset.sum_congr rfl fun r _ => projBlk_eq_linT x W bv X W' bv' b nb hx hW hbv r o) rfl

/-- And its channel variance the array's block variance. -/
theorem varBlk_eq_bvar (x : S1x4096x64.Idx → EReal) (W : S64x64.Idx → EReal) (bv : S64.Idx → EReal)
    (X : A3 4 16384 64) (W' : A2 64 64) (bv' : A1 64) (b nb : Fin 4)
    (hx : ∀ (r : Fin 4096) (k : Fin 64), x (ix3 (0 : Fin 1) r k) = X (ix3 b (rowIn nb r) k)) (hW : W = W') (hbv : bv = bv')
    (o : Fin 64) : varBlk x W bv o = bvar (fun b' n => linT X W' bv' b' n o) b nb := by
  have hm := meanBlk_eq_bmean x W bv X W' bv' b nb hx hW hbv o
  unfold varBlk bvar
  refine congrArg₂ Ideal.div (Finset.sum_congr rfl fun r _ => ?_) rfl
  have hp := projBlk_eq_linT x W bv X W' bv' b nb hx hW hbv r o
  show (projBlk x W bv r o - meanBlk x W bv o) * (projBlk x W bv r o - meanBlk x W bv o)
    = (linT X W' bv' b (rowIn nb r) o - bmean (fun b' n => linT X W' bv' b' n o) b nb)
      * (linT X W' bv' b (rowIn nb r) o - bmean (fun b' n => linT X W' bv' b' n o) b nb)
  rw [hp, hm]

/-- The means' array at an index given by its coordinates. -/
theorem M0_apply (xs : A3 4 16384 64) (Wst : A2 64 64) (bs : A1 64) (xi : A3 4 16384 64) (Wpt : A2 64 64) (bp : A1 64)
    (i : S4x4x2x64.Idx) (b nb : Fin 4) (s : Fin 2) (o : Fin 64)
    (h0 : (i 0).val = b.val) (h1 : (i 1).val = nb.val) (h2 : (i 2).val = s.val) (h3 : (i 3).val = o.val) :
    M0 xs Wst bs xi Wpt bp i
      = if s.val = 0 then bmean (fun b' n => linT xs Wst bs b' n o) b nb else bmean (fun b' n => linT xi Wpt bp b' n o) b nb := by
  obtain rfl : i = ix4 b nb s o := funext fun a => Fin.ext (by
    match a with
    | ⟨0, _⟩ => exact h0
    | ⟨1, _⟩ => exact h1
    | ⟨2, _⟩ => exact h2
    | ⟨3, _⟩ => exact h3)
  rfl

/-- The variances' array at an index given by its coordinates. -/
theorem Vr0_apply (xs : A3 4 16384 64) (Wst : A2 64 64) (bs : A1 64) (xi : A3 4 16384 64) (Wpt : A2 64 64) (bp : A1 64)
    (i : S4x4x2x64.Idx) (b nb : Fin 4) (s : Fin 2) (o : Fin 64)
    (h0 : (i 0).val = b.val) (h1 : (i 1).val = nb.val) (h2 : (i 2).val = s.val) (h3 : (i 3).val = o.val) :
    Vr0 xs Wst bs xi Wpt bp i
      = if s.val = 0 then bvar (fun b' n => linT xs Wst bs b' n o) b nb else bvar (fun b' n => linT xi Wpt bp b' n o) b nb := by
  obtain rfl : i = ix4 b nb s o := funext fun a => Fin.ext (by
    match a with
    | ⟨0, _⟩ => exact h0
    | ⟨1, _⟩ => exact h1
    | ⟨2, _⟩ => exact h2
    | ⟨3, _⟩ => exact h3)
  rfl

/-! ## A point's blocks as parts of the region-entry arrays -/

/-- The index maps over the 16 points: the two feature windows move with the statistics windows' first two block
    indices, the matrices' and biases' stay at zero, the statistics windows' last two are zero, and both statistics
    windows have one map. -/
theorem idx_facts : ∀ t : Fin cfg0.N,
    win0_0.index t (0 : Fin 3) = win0_7.index t (0 : Fin 4) ∧ win0_0.index t (1 : Fin 3) = win0_7.index t (1 : Fin 4)
    ∧ win0_0.index t (2 : Fin 3) = 0
    ∧ win0_1.index t (0 : Fin 3) = win0_7.index t (0 : Fin 4) ∧ win0_1.index t (1 : Fin 3) = win0_7.index t (1 : Fin 4)
    ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_7.index t (0 : Fin 4) < 4 ∧ win0_7.index t (1 : Fin 4) < 4
    ∧ win0_7.index t (2 : Fin 4) = 0 ∧ win0_7.index t (3 : Fin 4) = 0
    ∧ win0_8.index t (0 : Fin 4) = win0_7.index t (0 : Fin 4) ∧ win0_8.index t (1 : Fin 4) = win0_7.index t (1 : Fin 4)
    ∧ win0_8.index t (2 : Fin 4) = 0 ∧ win0_8.index t (3 : Fin 4) = 0 :=
  (by decide +kernel : ∀ t : Fin grid0.N, _)

/-- Every pair of block indices is some point's. -/
theorem idx_onto : ∀ (q0 q1 : Fin 4), ∃ t : Fin cfg0.N,
    win0_7.index t (0 : Fin 4) = q0.val ∧ win0_7.index t (1 : Fin 4) = q1.val :=
  (by decide +kernel : ∀ (q0 q1 : Fin 4), ∃ t : Fin grid0.N,
    win0_7.index t (0 : Fin 4) = q0.val ∧ win0_7.index t (1 : Fin 4) = q1.val)

end Cert.KernelIdeal.Region0Stats

end
-- ==== Proof.Region0Stats.lean ====
/-
  The first launch's two statistics results read as whole arrays: after all 16 grid points have written back their
  blocks, the per-block channel means and the per-block channel variances about those means, each one function of the
  arrays the launch was entered with.
-/
import proofs.«430761_j15504831939266_3_alg».proof.Proof.Gen.KernelIdeal.Frame
import proofs.«430761_j15504831939266_3_alg».proof.Proof.Spec
import proofs.«430761_j15504831939266_3_alg».proof.Proof.Region0StatsAux
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0Stats

open Cert.KernelIdeal Cert.KernelIdeal.Gen Cert.Unpool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row `r` of the projected branch's feature block at point `t` is row `rowIn nb r` of batch `b` of the array, `(b, nb)`
    being the point's first two block indices. -/
theorem iblk_0_apply (c : Dev nD) (t : Fin cfg0.N) (r : Fin 4096) (k : Fin 64) (b nb : Fin 4)
    (hb : b.val = win0_7.index t (0 : Fin 4)) (hnb : nb.val = win0_7.index t (1 : Fin 4)) :
    (iblk0 V c 0 t : S1x4096x64.Idx → EReal) (ix3 (0 : Fin 1) r k) = (V c main_v78 : A3 4 16384 64) (ix3 b (rowIn nb r) k) := by
  obtain ⟨e0, e1, e2, -⟩ := idx_facts t
  unfold iblk0
  rw [View.read_apply]
  show V c main_v78 _ = V c main_v78 _
  congr 1
  funext a
  apply Fin.ext
  match a with
  | ⟨0, _⟩ => show win0_0.index t (0 : Fin 3) * 1 + 1 * 0 = b.val; omega
  | ⟨1, _⟩ => show win0_0.index t (1 : Fin 3) * 4096 + 1 * r.val = nb.val * 4096 + r.val; omega
  | ⟨2, _⟩ => show win0_0.index t (2 : Fin 3) * 64 + 1 * k.val = k.val; omega

/-- The same for the skip branch's feature block. -/
theorem iblk_1_apply (c : Dev nD) (t : Fin cfg0.N) (r : Fin 4096) (k : Fin 64) (b nb : Fin 4)
    (hb : b.val = win0_7.index t (0 : Fin 4)) (hnb : nb.val = win0_7.index t (1 : Fin 4)) :
    (iblk0 V c 1 t : S1x4096x64.Idx → EReal) (ix3 (0 : Fin 1) r k) = (V c main_arg3 : A3 4 16384 64) (ix3 b (rowIn nb r) k) := by
  obtain ⟨-, -, -, e0, e1, e2, -⟩ := idx_facts t
  unfold iblk0
  rw [View.read_apply]
  show V c main_arg3 _ = V c main_arg3 _
  congr 1
  funext a
  apply Fin.ext
  match a with
  | ⟨0, _⟩ => show win0_1.index t (0 : Fin 3) * 1 + 1 * 0 = b.val; omega
  | ⟨1, _⟩ => show win0_1.index t (1 : Fin 3) * 4096 + 1 * r.val = nb.val * 4096 + r.val; omega
  | ⟨2, _⟩ => show win0_1.index t (2 : Fin 3) * 64 + 1 * k.val = k.val; omega

/-- The matrices' and the biases' blocks are their whole arrays at every point. -/
theorem iblk_2_eq (c : Dev nD) (t : Fin cfg0.N) : (iblk0 V c 2 t : S64x64.Idx → EReal) = (V c main_v79 : A2 64 64) := by
  obtain ⟨-, -, -, -, -, -, e0, e1, -⟩ := idx_facts t
  funext j
  unfold iblk0
  rw [View.read_apply]
  show V c main_v79 _ = V c main_v79 j
  congr 1
  funext a
  apply Fin.ext
  match a with
  | ⟨0, _⟩ => show win0_2.index t (0 : Fin 2) * 64 + 1 * (j 0).val = (j 0).val; omega
  | ⟨1, _⟩ => show win0_2.index t (1 : Fin 2) * 64 + 1 * (j 1).val = (j 1).val; omega

theorem iblk_3_eq (c : Dev nD) (t : Fin cfg0.N) : (iblk0 V c 3 t : S64.Idx → EReal) = (V c main_arg6 : A1 64) := by
  obtain ⟨-, -, -, -, -, -, -, -, e0, -⟩ := idx_facts t
  funext j
  unfold iblk0
  rw [View.read_apply]
  show V c main_arg6 _ = V c main_arg6 j
  congr 1
  funext a
  apply Fin.ext
  match a with
  | ⟨0, _⟩ => show win0_3.index t (0 : Fin 1) * 64 + 1 * (j 0).val = (j 0).val; omega

theorem iblk_4_eq (c : Dev nD) (t : Fin cfg0.N) : (iblk0 V c 4 t : S64x64.Idx → EReal) = (V c main_v80 : A2 64 64) := by
  obtain ⟨-, -, -, -, -, -, -, -, -, e0, e1, -⟩ := idx_facts t
  funext j
  unfold iblk0
  rw [View.read_apply]
  show V c main_v80 _ = V c main_v80 j
  congr 1
  funext a
  apply Fin.ext
  match a with
  | ⟨0, _⟩ => show win0_4.index t (0 : Fin 2) * 64 + 1 * (j 0).val = (j 0).val; omega
  | ⟨1, _⟩ => show win0_4.index t (1 : Fin 2) * 64 + 1 * (j 1).val = (j 1).val; omega

theorem iblk_5_eq (c : Dev nD) (t : Fin cfg0.N) : (iblk0 V c 5 t : S64.Idx → EReal) = (V c main_arg10 : A1 64) := by
  obtain ⟨-, -, -, -, -, -, -, -, -, -, -, e0, -⟩ := idx_facts t
  funext j
  unfold iblk0
  rw [View.read_apply]
  show V c main_arg10 _ = V c main_arg10 j
  congr 1
  funext a
  apply Fin.ext
  match a with
  | ⟨0, _⟩ => show win0_5.index t (0 : Fin 1) * 64 + 1 * (j 0).val = (j 0).val; omega

/-! ## What a point writes back, and the arrays after all 16 points -/

/-- Point `t` writes back block `t` of the means' array. -/
theorem flushed7_eq (c : Dev nD) (t : Fin cfg0.N) :
    (dat0 (F := Ideal) V c).flushed 7 t = ((cfg0.win 7).blk t).view.read (Elt Ideal) (M0 (V c main_arg3) (V c main_v80) (V c main_arg10) (V c main_v78) (V c main_v79) (V c main_arg6)) := by
  show (cfg0.win 7).cut (grid0.coords t) ((dat0 (F := Ideal) V c).after 7 t) = _
  rw [after0_7]
  obtain ⟨-, -, -, -, -, -, -, -, -, -, -, -, l0, l1, z2, z3, -⟩ := idx_facts t
  funext j
  obtain ⟨u0, u1, s, o, rfl⟩ : ∃ (u0 u1 : Fin 1) (s : Fin 2) (o : Fin 64), j = ix4 u0 u1 s o := ⟨j 0, j 1, j 2, j 3, eq_ix4 j⟩
  rw [View.read_apply]
  show out0_7 (F := Ideal) (iblk0 V c 0 t) (iblk0 V c 1 t) (iblk0 V c 2 t) (iblk0 V c 3 t) (iblk0 V c 4 t) (iblk0 V c 5 t) (ix4 u0 u1 s o)
    = M0 (V c main_arg3) (V c main_v80) (V c main_arg10) (V c main_v78) (V c main_v79) (V c main_arg6) (((cfg0.win 7).blk t).view.emb (ix4 u0 u1 s o))
  refine (out7_apply (iblk0 V c 0 t) (iblk0 V c 1 t) (iblk0 V c 2 t) (iblk0 V c 3 t) (iblk0 V c 4 t) (iblk0 V c 5 t) u0 u1 s o).trans ?_
  obtain ⟨b, hb⟩ : ∃ b : Fin 4, b.val = win0_7.index t (0 : Fin 4) := ⟨⟨_, l0⟩, rfl⟩
  obtain ⟨nb, hnb⟩ : ∃ nb : Fin 4, nb.val = win0_7.index t (1 : Fin 4) := ⟨⟨_, l1⟩, rfl⟩
  refine Eq.trans ?_ (M0_apply (V c main_arg3) (V c main_v80) (V c main_arg10) (V c main_v78) (V c main_v79) (V c main_arg6) (((cfg0.win 7).blk t).view.emb (ix4 u0 u1 s o)) b nb s o
    (by show win0_7.index t (0 : Fin 4) * 1 + 1 * u0.val = b.val; omega)
    (by show win0_7.index t (1 : Fin 4) * 1 + 1 * u1.val = nb.val; omega)
    (by show win0_7.index t (2 : Fin 4) * 2 + 1 * s.val = s.val; omega)
    (by show win0_7.index t (3 : Fin 4) * 64 + 1 * o.val = o.val; omega)).symm
  by_cases hs : s.val = 0
  · rw [if_pos hs, if_pos hs]
    exact meanBlk_eq_bmean (iblk0 V c 1 t) (iblk0 V c 4 t) (iblk0 V c 5 t) (V c main_arg3) (V c main_v80) (V c main_arg10) b nb
      (fun r k => iblk_1_apply V c t r k b nb hb hnb) (iblk_4_eq V c t) (iblk_5_eq V c t) o
  · rw [if_neg hs, if_neg hs]
    exact meanBlk_eq_bmean (iblk0 V c 0 t) (iblk0 V c 2 t) (iblk0 V c 3 t) (V c main_v78) (V c main_v79) (V c main_arg6) b nb
      (fun r k => iblk_0_apply V c t r k b nb hb hnb) (iblk_2_eq V c t) (iblk_3_eq V c t) o

/-- Point `t` writes back block `t` of the variances' array. -/
theorem flushed8_eq (c : Dev nD) (t : Fin cfg0.N) :
    (dat0 (F := Ideal) V c).flushed 8 t = ((cfg0.win 8).blk t).view.read (Elt Ideal) (Vr0 (V c main_arg3) (V c main_v80) (V c main_arg10) (V c main_v78) (V c main_v79) (V c main_arg6)) := by
  show (cfg0.win 8).cut (grid0.coords t) ((dat0 (F := Ideal) V c).after 8 t) = _
  rw [after0_8]
  obtain ⟨-, -, -, -, -, -, -, -, -, -, -, -, l0, l1, -, -, g0, g1, z2, z3⟩ := idx_facts t
  funext j
  obtain ⟨u0, u1, s, o, rfl⟩ : ∃ (u0 u1 : Fin 1) (s : Fin 2) (o : Fin 64), j = ix4 u0 u1 s o := ⟨j 0, j 1, j 2, j 3, eq_ix4 j⟩
  rw [View.read_apply]
  show out0_8 (F := Ideal) (iblk0 V c 0 t) (iblk0 V c 1 t) (iblk0 V c 2 t) (iblk0 V c 3 t) (iblk0 V c 4 t) (iblk0 V c 5 t) (ix4 u0 u1 s o)
    = Vr0 (V c main_arg3) (V c main_v80) (V c main_arg10) (V c main_v78) (V c main_v79) (V c main_arg6) (((cfg0.win 8).blk t).view.emb (ix4 u0 u1 s o))
  refine (out8_apply (iblk0 V c 0 t) (iblk0 V c 1 t) (iblk0 V c 2 t) (iblk0 V c 3 t) (iblk0 V c 4 t) (iblk0 V c 5 t) u0 u1 s o).trans ?_
  obtain ⟨b, hb⟩ : ∃ b : Fin 4, b.val = win0_7.index t (0 : Fin 4) := ⟨⟨_, l0⟩, rfl⟩
  obtain ⟨nb, hnb⟩ : ∃ nb : Fin 4, nb.val = win0_7.index t (1 : Fin 4) := ⟨⟨_, l1⟩, rfl⟩
  refine Eq.trans ?_ (Vr0_apply (V c main_arg3) (V c main_v80) (V c main_arg10) (V c main_v78) (V c main_v79) (V c main_arg6) (((cfg0.win 8).blk t).view.emb (ix4 u0 u1 s o)) b nb s o
    (by show win0_8.index t (0 : Fin 4) * 1 + 1 * u0.val = b.val; omega)
    (by show win0_8.index t (1 : Fin 4) * 1 + 1 * u1.val = nb.val; omega)
    (by show win0_8.index t (2 : Fin 4) * 2 + 1 * s.val = s.val; omega)
    (by show win0_8.index t (3 : Fin 4) * 64 + 1 * o.val = o.val; omega)).symm
  by_cases hs : s.val = 0
  · rw [if_pos hs, if_pos hs]
    exact varBlk_eq_bvar (iblk0 V c 1 t) (iblk0 V c 4 t) (iblk0 V c 5 t) (V c main_arg3) (V c main_v80) (V c main_arg10) b nb
      (fun r k => iblk_1_apply V c t r k b nb hb hnb) (iblk_4_eq V c t) (iblk_5_eq V c t) o
  · rw [if_neg hs, if_neg hs]
    exact varBlk_eq_bvar (iblk0 V c 0 t) (iblk0 V c 2 t) (iblk0 V c 3 t) (V c main_v78) (V c main_v79) (V c main_arg6) b nb
      (fun r k => iblk_0_apply V c t r k b nb hb hnb) (iblk_2_eq V c t) (iblk_3_eq V c t) o

/-- An index of the means' array is in point `t`'s block iff each coordinate is in the block's range on its axis. -/
theorem mem_blk7 (t : Fin cfg0.N) (i : S4x4x2x64.Idx) :
    i ∈ ((cfg0.win 7).blk t).view.set
      ↔ ∀ a : Fin 4, win0_7.index t a * S1x1x2x64.size a ≤ (i a).val ∧ (i a).val < win0_7.index t a * S1x1x2x64.size a + S1x1x2x64.size a := by
  show i ∈ ((View.whole main_v81_1).slice (win0_7.rect t)).set ↔ _
  rw [View.set_slice_whole, Rect.mem_set_unit]
  exact Iff.rfl

/-- The same for the variances' array. -/
theorem mem_blk8 (t : Fin cfg0.N) (i : S4x4x2x64.Idx) :
    i ∈ ((cfg0.win 8).blk t).view.set
      ↔ ∀ a : Fin 4, win0_8.index t a * S1x1x2x64.size a ≤ (i a).val ∧ (i a).val < win0_8.index t a * S1x1x2x64.size a + S1x1x2x64.size a := by
  show i ∈ ((View.whole main_v81_2).slice (win0_8.rect t)).set ↔ _
  rw [View.set_slice_whole, Rect.mem_set_unit]
  exact Iff.rfl

/-- Every index `(b, nb, s, o)` of the means' array lies in the block of the point whose block indices are `(b, nb)`. -/
theorem cover7 (i : S4x4x2x64.Idx) : ∃ t : Fin cfg0.N, (cfg0.win 7).flush t = true ∧ i ∈ ((cfg0.win 7).blk t).view.set := by
  have h0 : (i 0).val < 4 := (i 0).isLt
  have h1 : (i 1).val < 4 := (i 1).isLt
  have h2 : (i 2).val < 2 := (i 2).isLt
  have h3 : (i 3).val < 64 := (i 3).isLt
  obtain ⟨t, q0, q1⟩ := idx_onto ⟨(i 0).val, h0⟩ ⟨(i 1).val, h1⟩
  obtain ⟨-, -, -, -, -, -, -, -, -, -, -, -, -, -, z2, z3, -⟩ := idx_facts t
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; rw [q0]; show (i 0).val * 1 ≤ (i 0).val ∧ (i 0).val < (i 0).val * 1 + 1; omega
  | ⟨1, _⟩ => show win0_7.index t (1 : Fin 4) * 1 ≤ (i 1).val ∧ (i 1).val < win0_7.index t (1 : Fin 4) * 1 + 1; rw [q1]; show (i 1).val * 1 ≤ (i 1).val ∧ (i 1).val < (i 1).val * 1 + 1; omega
  | ⟨2, _⟩ => show win0_7.index t (2 : Fin 4) * 2 ≤ (i 2).val ∧ (i 2).val < win0_7.index t (2 : Fin 4) * 2 + 2; omega
  | ⟨3, _⟩ => show win0_7.index t (3 : Fin 4) * 64 ≤ (i 3).val ∧ (i 3).val < win0_7.index t (3 : Fin 4) * 64 + 64; omega

/-- The same for the variances' array. -/
theorem cover8 (i : S4x4x2x64.Idx) : ∃ t : Fin cfg0.N, (cfg0.win 8).flush t = true ∧ i ∈ ((cfg0.win 8).blk t).view.set := by
  have h0 : (i 0).val < 4 := (i 0).isLt
  have h1 : (i 1).val < 4 := (i 1).isLt
  have h2 : (i 2).val < 2 := (i 2).isLt
  have h3 : (i 3).val < 64 := (i 3).isLt
  obtain ⟨t, q0, q1⟩ := idx_onto ⟨(i 0).val, h0⟩ ⟨(i 1).val, h1⟩
  obtain ⟨-, -, -, -, -, -, -, -, -, -, -, -, -, -, -, -, g0, g1, z2, z3⟩ := idx_facts t
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; rw [g0, q0]; show (i 0).val * 1 ≤ (i 0).val ∧ (i 0).val < (i 0).val * 1 + 1; omega
  | ⟨1, _⟩ => show win0_8.index t (1 : Fin 4) * 1 ≤ (i 1).val ∧ (i 1).val < win0_8.index t (1 : Fin 4) * 1 + 1; rw [g1, q1]; show (i 1).val * 1 ≤ (i 1).val ∧ (i 1).val < (i 1).val * 1 + 1; omega
  | ⟨2, _⟩ => show win0_8.index t (2 : Fin 4) * 2 ≤ (i 2).val ∧ (i 2).val < win0_8.index t (2 : Fin 4) * 2 + 2; omega
  | ⟨3, _⟩ => show win0_8.index t (3 : Fin 4) * 64 ≤ (i 3).val ∧ (i 3).val < win0_8.index t (3 : Fin 4) * 64 + 64; omega

/-- The second result array: per block, the two branches' channel means. -/
theorem final0_7 (c : Dev nD) :
    (dat0 (F := Ideal) V c).arrAt 7 cfg0.N
      = M0 (V c main_arg3) (V c main_v80) (V c main_arg10) (V c main_v78) (V c main_v79) (V c main_arg6) :=
  (dat0 (F := Ideal) V c).arrAt_eq_of_cover 7
    (M0 (V c main_arg3) (V c main_v80) (V c main_arg10) (V c main_v78) (V c main_v79) (V c main_arg6))
    (fun t _ => flushed7_eq V c t) cover7

/-- The third result array: per block, the two branches' channel variances about the block means. -/
theorem final0_8 (c : Dev nD) :
    (dat0 (F := Ideal) V c).arrAt 8 cfg0.N
      = Vr0 (V c main_arg3) (V c main_v80) (V c main_arg10) (V c main_v78) (V c main_v79) (V c main_arg6) :=
  (dat0 (F := Ideal) V c).arrAt_eq_of_cover 8
    (Vr0 (V c main_arg3) (V c main_v80) (V c main_arg10) (V c main_v78) (V c main_v79) (V c main_arg6))
    (fun t _ => flushed8_eq V c t) cover8

end Cert.KernelIdeal.Region0Stats

end
-- ==== Proof.Region1.lean ====
/-
  The second launch read as a whole array: after all 16 grid points have written back their blocks, its result is one
  function of the arrays the launch was entered with — the coordinates, then every column of the projections scaled,
  shifted and clipped at zero.
-/
import proofs.«430761_j15504831939266_3_alg».proof.Proof.Gen.KernelIdeal.Frame
import proofs.«430761_j15504831939266_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Cert.Unpool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The payload at a row and a column -/

/-- The f32 zero the clip compares with is the extended real `0`. -/
private theorem zero_f32 : (FloatOps.ofBits (F := Ideal) FTy.f32 0x00000000#32) = (0 : EReal) := Ideal.ofBits_zero_f32

/-- Columns `o …` of a block of the projections, read at a row and a column. -/
private theorem cols_apply (v0 : Vec Ideal S1x4096x128 .f32) (o : Nat) (h : S4096x128.Slices ![0, o] S4096x64)
    (r : Fin 4096) (c : Fin 64) (k : Fin 128) (hk : k.val = o + c.val) :
    extractStridedSlice S4096x64 ![0, o] (shapeCast S4096x128 v0 shapeCasts_S1x4096x128_S4096x128) h (ix2 r c)
      = v0 (ix3 (0 : Fin 1) r k) :=
  (slice2_axis1_apply o _ h r c k hk).trans (shapeCast_1ab_ab_apply _ _ r k)

/-- A per-channel vector spread over the rows, read at a row and a column. -/
private theorem row_apply (v : Vec Ideal S64 .f32) (r : Fin 4096) (c : Fin 64) :
    broadcastTo S4096x64 (shapeCast S1x64 (shapeCast S64 v shapeCasts_S64_S64) shapeCasts_S64_S1x64)
      broadcasts_S1x64_S4096x64 (ix2 r c) = v (ix1 c) := by
  rw [broadcastTo_1b_ab_apply, shapeCast_a_1a_apply, shapeCast_self]

/-- One branch of the payload: 64 columns scaled, shifted and clipped at zero. -/
private theorem branch_apply (v0 : Vec Ideal S1x4096x128 .f32) (o : Nat) (h : S4096x128.Slices ![0, o] S4096x64)
    (s sh : Vec Ideal S64 .f32) (r : Fin 4096) (c : Fin 64) (k : Fin 128) (hk : k.val = o + c.val) :
    maximumf
        (addf
          (mulf (extractStridedSlice S4096x64 ![0, o] (shapeCast S4096x128 v0 shapeCasts_S1x4096x128_S4096x128) h)
            (broadcastTo S4096x64 (shapeCast S1x64 (shapeCast S64 s shapeCasts_S64_S64) shapeCasts_S64_S1x64)
              broadcasts_S1x64_S4096x64))
          (broadcastTo S4096x64 (shapeCast S1x64 (shapeCast S64 sh shapeCasts_S64_S64) shapeCasts_S64_S1x64)
            broadcasts_S1x64_S4096x64))
        (broadcast S4096x64 (FloatOps.ofBits (F := Ideal) FTy.f32 0x00000000#32)) (ix2 r c)
      = max (v0 (ix3 (0 : Fin 1) r k) * s (ix1 c) + sh (ix1 c)) 0 := by
  rw [maximumf_apply, addf_apply, mulf_apply, broadcast_apply, cols_apply v0 o h r c k hk, row_apply, row_apply, zero_f32]

/-- The block the body stores: the coordinates in columns 0 … 2, then the first 64 columns of the projections scaled by
    the first pair of vectors, then the last 64 by the second pair. -/
theorem pay1_apply (v0 : Vec Ideal S1x4096x128 .f32) (v4 v9 v16 v21 : Vec Ideal S64 .f32) (v28 : Vec Ideal S1x4096x3 .f32)
    (u : Fin 1) (r : Fin 4096) (j : Fin 131) :
    k1_pay1 (F := Ideal) v0 v4 v9 v16 v21 v28 (ix3 u r j) =
      if h : j.val < 3 then v28 (ix3 (0 : Fin 1) r ⟨j.val, h⟩)
      else if h2 : j.val < 67 then
        max (v0 (ix3 (0 : Fin 1) r ⟨j.val - 3, by omega⟩) * v4 (ix1 ⟨j.val - 3, by omega⟩) + v9 (ix1 ⟨j.val - 3, by omega⟩)) 0
      else
        max (v0 (ix3 (0 : Fin 1) r ⟨j.val - 3, by omega⟩) * v16 (ix1 ⟨j.val - 67, by omega⟩) + v21 (ix1 ⟨j.val - 67, by omega⟩)) 0 := by
  have hj : j.val < 131 := j.isLt
  unfold k1_pay1
  rw [shapeCast_ab_1ab_apply]
  split
  · next h =>
    refine (concatenate_apply_piece (1 : Fin 2) _ _ (ix2 r j) 0 ?_ S4096x3 (shapeCast S4096x3 v28 shapeCasts_S1x4096x3_S4096x3) ?_ rfl 0 rfl
      (ix2 r ⟨j.val, h⟩) (fun b hb => ?_) (Nat.zero_add _)).trans
      (shapeCast_1ab_ab_apply v28 shapeCasts_S1x4096x3_S4096x3 r ⟨j.val, h⟩)
    · exact (by decide : 0 < 3)
    · rfl
    · match b with
      | ⟨0, _⟩ => rfl
      | ⟨1, _⟩ => exact absurd rfl hb
  · next h =>
    split
    · next h2 =>
      refine (concatenate_apply_piece (1 : Fin 2) _ _ (ix2 r j) 1 ?_ S4096x64 _ ?_ rfl 3 rfl
        (ix2 r ⟨j.val - 3, by omega⟩) (fun b hb => ?_) (by show 3 + (j.val - 3) = j.val; omega)).trans
        (branch_apply v0 0 slices_S4096x128_o0_0_S4096x64 v4 v9 r _ _ (by show j.val - 3 = 0 + (j.val - 3); omega))
      · exact (by decide : 1 < 3)
      · rfl
      · match b with
        | ⟨0, _⟩ => rfl
        | ⟨1, _⟩ => exact absurd rfl hb
    · next h2 =>
      refine (concatenate_apply_piece (1 : Fin 2) _ _ (ix2 r j) 2 ?_ S4096x64 _ ?_ rfl 67 rfl
        (ix2 r ⟨j.val - 67, by omega⟩) (fun b hb => ?_) (by show 67 + (j.val - 67) = j.val; omega)).trans
        (branch_apply v0 64 slices_S4096x128_o0_64_S4096x64 v16 v21 r _ _ (by show j.val - 3 = 64 + (j.val - 67); omega))
      · exact (by decide : 2 < 3)
      · rfl
      · match b with
        | ⟨0, _⟩ => rfl
        | ⟨1, _⟩ => exact absurd rfl hb

/-! ## The blocks the body reads and writes, as parts of the arrays -/

theorem hz3 : (![0, 0, 0] : Fin 3 → Nat) = fun _ => 0 := funext fun a => by fin_cases a <;> rfl
theorem hz1 : (![0] : Fin 1 → Nat) = fun _ => 0 := funext fun a => by fin_cases a <;> rfl

/-- The printed index maps over the 16 points: the projections', the coordinates' and the result's blocks move together,
    at (batch, block of 4096 rows, 0); the four per-channel vectors stay whole. -/
theorem pts : ∀ t : Fin cfg1.N, ∃ b nb : Fin 4,
    win1_0.index t = ![b.val, nb.val, 0] ∧ win1_1.index t = ![b.val, nb.val, 0] ∧ win1_6.index t = ![b.val, nb.val, 0]
    ∧ win1_2.index t = ![0] ∧ win1_3.index t = ![0] ∧ win1_4.index t = ![0] ∧ win1_5.index t = ![0] :=
  (by decide +kernel : ∀ t : Fin grid1.N, _)

/-- Every (batch, block of rows) is some point's. -/
theorem onto : ∀ b nb : Fin 4, ∃ t : Fin cfg1.N, win1_6.index t = ![b.val, nb.val, 0] :=
  (by decide +kernel : ∀ b nb : Fin 4, ∃ t : Fin grid1.N, win1_6.index t = ![b.val, nb.val, 0])

/-- The projections' block at a point holds rows `nb * 4096 …` of batch `b`. -/
theorem blkY (c : Dev nD) (t : Fin cfg1.N) (b nb : Fin 4) (e : win1_0.index t = ![b.val, nb.val, 0])
    (r : Fin 4096) (k : Fin 128) :
    (iblk1 V c 0 t : Vec Ideal S1x4096x128 .f32) (ix3 (0 : Fin 1) r k)
      = (V c main_v81_0 : A3 4 16384 128) (ix3 b (rowIn nb r) k) := by
  have q0 : win1_0.index t (0 : Fin 3) = b.val := congrFun e 0
  have q1 : win1_0.index t (1 : Fin 3) = nb.val := congrFun e 1
  have q2 : win1_0.index t (2 : Fin 3) = 0 := congrFun e 2
  unfold iblk1
  rw [View.read_apply]
  show V c main_v81_0 _ = V c main_v81_0 _
  congr 1
  funext a
  apply Fin.ext
  match a with
  | ⟨0, _⟩ => show win1_0.index t (0 : Fin 3) * 1 + 1 * 0 = b.val; omega
  | ⟨1, _⟩ => show win1_0.index t (1 : Fin 3) * 4096 + 1 * r.val = nb.val * 4096 + r.val; omega
  | ⟨2, _⟩ => show win1_0.index t (2 : Fin 3) * 128 + 1 * k.val = k.val; omega

/-- The coordinates' block at a point holds the same rows of the same batch. -/
theorem blkC (c : Dev nD) (t : Fin cfg1.N) (b nb : Fin 4) (e : win1_1.index t = ![b.val, nb.val, 0])
    (r : Fin 4096) (k : Fin 3) :
    (iblk1 V c 1 t : Vec Ideal S1x4096x3 .f32) (ix3 (0 : Fin 1) r k)
      = (V c main_arg2 : A3 4 16384 3) (ix3 b (rowIn nb r) k) := by
  have q0 : win1_1.index t (0 : Fin 3) = b.val := congrFun e 0
  have q1 : win1_1.index t (1 : Fin 3) = nb.val := congrFun e 1
  have q2 : win1_1.index t (2 : Fin 3) = 0 := congrFun e 2
  unfold iblk1
  rw [View.read_apply]
  show V c main_arg2 _ = V c main_arg2 _
  congr 1
  funext a
  apply Fin.ext
  match a with
  | ⟨0, _⟩ => show win1_1.index t (0 : Fin 3) * 1 + 1 * 0 = b.val; omega
  | ⟨1, _⟩ => show win1_1.index t (1 : Fin 3) * 4096 + 1 * r.val = nb.val * 4096 + r.val; omega
  | ⟨2, _⟩ => show win1_1.index t (2 : Fin 3) * 3 + 1 * k.val = k.val; omega

/-- The skip branch's scale is read whole at every point. -/
theorem blkSs (c : Dev nD) (t : Fin cfg1.N) (e : win1_2.index t = ![0]) (k : Fin 64) :
    (iblk1 V c 2 t : Vec Ideal S64 .f32) (ix1 k) = (V c main_v115 : A1 64) (ix1 k) := by
  have q0 : win1_2.index t (0 : Fin 1) = 0 := congrFun e 0
  unfold iblk1
  rw [View.read_apply]
  show V c main_v115 _ = V c main_v115 _
  congr 1
  funext a
  apply Fin.ext
  match a with
  | ⟨0, _⟩ => show win1_2.index t (0 : Fin 1) * 64 + 1 * k.val = k.val; omega

/-- The skip branch's shift is read whole at every point. -/
theorem blkShs (c : Dev nD) (t : Fin cfg1.N) (e : win1_3.index t = ![0]) (k : Fin 64) :
    (iblk1 V c 3 t : Vec Ideal S64 .f32) (ix1 k) = (V c main_v117 : A1 64) (ix1 k) := by
  have q0 : win1_3.index t (0 : Fin 1) = 0 := congrFun e 0
  unfold iblk1
  rw [View.read_apply]
  show V c main_v117 _ = V c main_v117 _
  congr 1
  funext a
  apply Fin.ext
  match a with
  | ⟨0, _⟩ => show win1_3.index t (0 : Fin 1) * 64 + 1 * k.val = k.val; omega

/-- The projected branch's scale is read whole at every point. -/
theorem blkSp (c : Dev nD) (t : Fin cfg1.N) (e : win1_4.index t = ![0]) (k : Fin 64) :
    (iblk1 V c 4 t : Vec Ideal S64 .f32) (ix1 k) = (V c main_v109 : A1 64) (ix1 k) := by
  have q0 : win1_4.index t (0 : Fin 1) = 0 := congrFun e 0
  unfold iblk1
  rw [View.read_apply]
  show V c main_v109 _ = V c main_v109 _
  congr 1
  funext a
  apply Fin.ext
  match a with
  | ⟨0, _⟩ => show win1_4.index t (0 : Fin 1) * 64 + 1 * k.val = k.val; omega

/-- The projected branch's shift is read whole at every point. -/
theorem blkShp (c : Dev nD) (t : Fin cfg1.N) (e : win1_5.index t = ![0]) (k : Fin 64) :
    (iblk1 V c 5 t : Vec Ideal S64 .f32) (ix1 k) = (V c main_v111 : A1 64) (ix1 k) := by
  have q0 : win1_5.index t (0 : Fin 1) = 0 := congrFun e 0
  unfold iblk1
  rw [View.read_apply]
  show V c main_v111 _ = V c main_v111 _
  congr 1
  funext a
  apply Fin.ext
  match a with
  | ⟨0, _⟩ => show win1_5.index t (0 : Fin 1) * 64 + 1 * k.val = k.val; omega

/-- Where the result's block at a point lies in the result array. -/
theorem embOut (t : Fin cfg1.N) (b nb : Fin 4) (e : win1_6.index t = ![b.val, nb.val, 0])
    (u : Fin 1) (r : Fin 4096) (j : Fin 131) :
    (((cfg1.win 6).blk t).view.emb (ix3 u r j) : S4x16384x131.Idx) = ix3 b (rowIn nb r) j := by
  have q0 : win1_6.index t (0 : Fin 3) = b.val := congrFun e 0
  have q1 : win1_6.index t (1 : Fin 3) = nb.val := congrFun e 1
  have q2 : win1_6.index t (2 : Fin 3) = 0 := congrFun e 2
  have hu : u.val = 0 := by omega
  funext a
  apply Fin.ext
  match a with
  | ⟨0, _⟩ => show win1_6.index t (0 : Fin 3) * 1 + 1 * u.val = b.val; omega
  | ⟨1, _⟩ => show win1_6.index t (1 : Fin 3) * 4096 + 1 * r.val = nb.val * 4096 + r.val; omega
  | ⟨2, _⟩ => show win1_6.index t (2 : Fin 3) * 131 + 1 * j.val = j.val; omega

/-- The specified result at a batch, a row and a column. -/
theorem Out1_apply (Y : A3 4 16384 128) (coords : A3 4 16384 3) (ss shs sp shp : A1 64)
    (b : Fin 4) (n : Fin 16384) (j : Fin 131) :
    Out1 Y coords ss shs sp shp (ix3 b n j) =
      if h : j.val < 3 then coords (ix3 b n ⟨j.val, h⟩)
      else if h2 : j.val < 67 then
        max (Y (ix3 b n ⟨j.val - 3, by omega⟩) * ss (ix1 ⟨j.val - 3, by omega⟩) + shs (ix1 ⟨j.val - 3, by omega⟩)) 0
      else
        max (Y (ix3 b n ⟨j.val - 3, by have := j.isLt; omega⟩) * sp (ix1 ⟨j.val - 67, by have := j.isLt; omega⟩)
          + shp (ix1 ⟨j.val - 67, by have := j.isLt; omega⟩)) 0 := rfl

/-! ## What a point writes back -/

/-- Point `t` writes back block `t` of the specified result of the arrays the launch was entered with. -/
theorem flushed1 (c : Dev nD) (t : Fin cfg1.N) :
    (dat1 (F := Ideal) V c).flushed 6 t = ((cfg1.win 6).blk t).view.read (Elt Ideal)
      (Out1 (V c main_v81_0) (V c main_arg2) (V c main_v115) (V c main_v117) (V c main_v109) (V c main_v111)) := by
  show (cfg1.win 6).cut (grid1.coords t) ((dat1 V c).after 6 t) = _
  rw [after1_6]
  unfold out1_6
  rw [View.canon_unit_zero hz3]
  simp only [View.ld_unit_zero (S := S1x4096x128) hz3, View.ld_unit_zero (S := S1x4096x3) hz3, View.ld_unit_zero (S := S64) hz1]
  obtain ⟨b, nb, e0, e1, e6, e2, e3, e4, e5⟩ := pts t
  funext y
  obtain ⟨u, r, j, rfl⟩ : ∃ (u : Fin 1) (r : Fin 4096) (j : Fin 131), y = ix3 u r j := ⟨y 0, y 1, y 2, eq_ix3 y⟩
  rw [View.read_apply]
  show k1_pay1 (F := Ideal) (iblk1 V c 0 t) (iblk1 V c 2 t) (iblk1 V c 3 t) (iblk1 V c 4 t) (iblk1 V c 5 t) (iblk1 V c 1 t) (ix3 u r j)
    = Out1 (V c main_v81_0) (V c main_arg2) (V c main_v115) (V c main_v117) (V c main_v109) (V c main_v111)
        (((cfg1.win 6).blk t).view.emb (ix3 u r j))
  rw [embOut t b nb e6 u r j, pay1_apply, Out1_apply]
  simp only [blkC V c t b nb e1, blkY V c t b nb e0, blkSs V c t e2, blkShs V c t e3, blkSp V c t e4, blkShp V c t e5]

/-! ## The whole array -/

/-- The result array of the second launch. -/
theorem final1 (c : Dev nD) :
    (dat1 (F := Ideal) V c).arrAt 6 cfg1.N
      = Out1 (V c main_v81_0) (V c main_arg2) (V c main_v115) (V c main_v117) (V c main_v109) (V c main_v111) :=
  (dat1 (F := Ideal) V c).arrAt_eq_of_cover 6 _ (fun t _ => flushed1 V c t) fun i => by
    -- the point that covers row `n` of batch `b` is the one at (b, n / 4096)
    obtain ⟨b, n, j, rfl⟩ : ∃ (b : Fin 4) (n : Fin 16384) (j : Fin 131), i = ix3 b n j := ⟨i 0, i 1, i 2, eq_ix3 i⟩
    have hn : n.val < 16384 := n.isLt
    obtain ⟨t, ht⟩ := onto b ⟨n.val / 4096, by omega⟩
    have q0 : win1_6.index t (0 : Fin 3) = b.val := congrFun ht 0
    have q1 : win1_6.index t (1 : Fin 3) = n.val / 4096 := congrFun ht 1
    have q2 : win1_6.index t (2 : Fin 3) = 0 := congrFun ht 2
    refine ⟨t, flush1_6 t, ?_⟩
    show ix3 b n j ∈ ((View.whole main_v118).slice (win1_6.rect t)).set
    rw [View.set_slice_whole, Rect.mem_set_unit]
    intro a
    match a with
    | ⟨0, _⟩ => show win1_6.index t (0 : Fin 3) * 1 ≤ b.val ∧ b.val < win1_6.index t (0 : Fin 3) * 1 + 1; omega
    | ⟨1, _⟩ => show win1_6.index t (1 : Fin 3) * 4096 ≤ n.val ∧ n.val < win1_6.index t (1 : Fin 3) * 4096 + 4096; omega
    | ⟨2, _⟩ =>
      have hj : j.val < 131 := j.isLt
      show win1_6.index t (2 : Fin 3) * 131 ≤ j.val ∧ j.val < win1_6.index t (2 : Fin 3) * 131 + 131; omega

end Cert.KernelIdeal.Region1

end
-- ==== Proof.LibGatherRows3.lean ====
/-
  Two host operations read at an index, as a take along axis 1 of a rank-3 array lowers to them.

  A gather whose operand [B, S, H] is batched over its first axis with start indices [B, N, 1], collapsing the second
  axis and keeping the third whole, reads at (b, n, h) the operand's row that the index word at (b, n, 0) names, the
  word read signed and clamped into [0, S - 1]. And a reduction by "and" over a trailing axis of extent one, started
  from the bit 1, reads at (b, n) the operand's single entry there. Both are stated over variable extents.
-/
import Idealize.ShloMosaic.Lib.ValueIdx
import Idealize.ShloMosaic.PureOps.Reduce

namespace Cert.LibGatherRows3
open Idealize.ShloMosaic Idealize.ShloMosaic.ValueIdx

/-- The dimension numbers of a take along axis 1 of an operand `[B, S, H]` at start indices `[B, N, 1]`, batched over
    axis 0: offset axis 2, collapsed axis 1, operand batching axis 0, start-index batching axis 0, start index map
    `[1]`, index vector axis 2, slice sizes `[1, 1, H]`. -/
abbrev rows3Dims (B S H N : Nat)
    (wf : GatherDims.WF ⟨3, ![B, S, H]⟩ ⟨3, ![B, N, 1]⟩ ⟨3, ![B, N, H]⟩ [2] [1] [0] [1] [0] 2 ![1, 1, H]) :
    GatherDims ⟨3, ![B, S, H]⟩ ⟨3, ![B, N, 1]⟩ ⟨3, ![B, N, H]⟩ where
  offsetDims := [2]
  collapsedSliceDims := [1]
  operandBatchingDims := [0]
  startIndicesBatchingDims := [0]
  startIndexMap := [1]
  indexVectorDim := 2
  sliceSizes := ![1, 1, H]
  wf := wf

/-- THE GATHER READ AT `(b, n, h)`: the operand at batch `b`, column `h`, and the row the start index
    `idx[b, n, 0]` names, read signed and clamped into `[0, S - 1]`. -/
theorem gather_rows3_apply {α : Type} {B S H N w : Nat} (hS : 0 < S)
    (wf : GatherDims.WF ⟨3, ![B, S, H]⟩ ⟨3, ![B, N, 1]⟩ ⟨3, ![B, N, H]⟩ [2] [1] [0] [1] [0] 2 ![1, 1, H])
    (x : (⟨3, ![B, S, H]⟩ : Shape).Idx → α) (idx : IVec ⟨3, ![B, N, 1]⟩ w) (b : Fin B) (n : Fin N) (h : Fin H) :
    Host.gather (rows3Dims B S H N wf) x idx (ix3 b n h)
      = x (ix3 b ⟨min (idx (ix3 b n (0 : Fin 1))).toInt.toNat (S - 1), by omega⟩ h) := by
  unfold Host.gather
  congr 1
  funext a
  refine Fin.ext ?_
  match a with
  | ⟨0, _⟩ =>
    show (rows3Dims B S H N wf).start (ix3 b n h) idx 0 + (rows3Dims B S H N wf).batchCoord (ix3 b n h) 0
      + (rows3Dims B S H N wf).offCoord (ix3 b n h) 0 = _
    rw [GatherDims.start_batching _ _ _ _ (List.mem_singleton.mpr rfl),
      GatherDims.offCoord_eq_zero _ _ _ (fun hm => ((GatherDims.mem_sKept _ _).mp hm).2 (List.mem_singleton.mpr rfl))]
    simp only [Nat.zero_add, Nat.add_zero]
    unfold GatherDims.batchCoord
    rw [dif_pos (show (0 : Fin 3) ∈ (rows3Dims B S H N wf).operandBatchingDims from List.mem_singleton.mpr rfl)]
    rfl
  | ⟨1, _⟩ =>
    show (rows3Dims B S H N wf).start (ix3 b n h) idx 1 + (rows3Dims B S H N wf).batchCoord (ix3 b n h) 1
      + (rows3Dims B S H N wf).offCoord (ix3 b n h) 1 = _
    rw [GatherDims.batchCoord_eq_zero _ _ _
        (fun hm => absurd (List.mem_singleton.mp hm) (show (1 : Fin 3) ≠ 0 by decide)),
      GatherDims.offCoord_eq_zero _ _ _ (fun hm => ((GatherDims.mem_sKept _ _).mp hm).1 (List.mem_singleton.mpr rfl))]
    simp only [Nat.add_zero]
    unfold GatherDims.start
    rw [dif_pos (show (1 : Fin 3) ∈ (rows3Dims B S H N wf).startIndexMap from List.mem_singleton.mpr rfl)]
    have hsi : (rows3Dims B S H N wf).siIdx (ix3 b n h) ⟨List.idxOf (1 : Fin 3) (rows3Dims B S H N wf).startIndexMap,
        List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi]
    rfl
  | ⟨2, _⟩ =>
    show (rows3Dims B S H N wf).start (ix3 b n h) idx 2 + (rows3Dims B S H N wf).batchCoord (ix3 b n h) 2
      + (rows3Dims B S H N wf).offCoord (ix3 b n h) 2 = _
    rw [GatherDims.batchCoord_eq_zero _ _ _
        (fun hm => absurd (List.mem_singleton.mp hm) (show (2 : Fin 3) ≠ 0 by decide))]
    unfold GatherDims.start
    rw [dif_neg (show (2 : Fin 3) ∉ (rows3Dims B S H N wf).startIndexMap from
      fun hm => absurd (List.mem_singleton.mp hm) (show (2 : Fin 3) ≠ 1 by decide))]
    simp only [Nat.zero_add, Nat.add_zero]
    unfold GatherDims.offCoord
    rw [dif_pos (show (2 : Fin 3) ∈ (rows3Dims B S H N wf).sKept from (GatherDims.mem_sKept _ _).mpr
      ⟨fun hm => absurd (List.mem_singleton.mp hm) (show (2 : Fin 3) ≠ 1 by decide),
        fun hm => absurd (List.mem_singleton.mp hm) (show (2 : Fin 3) ≠ 0 by decide)⟩)]
    rfl

/-- An and-reduction over a trailing axis of extent one, from the initial bit 1, read at `(b, n)`: the operand's one
    entry there. -/
theorem reduce_andi_unit3_apply {B N : Nat} (x : IVec ⟨3, ![B, N, 1]⟩ 1) (init : IVec ⟨0, ![]⟩ 1)
    (hinit : init (fun a => a.elim0) = 1#1)
    (hr : (⟨3, ![B, N, 1]⟩ : Shape).ReducesTo [2] ⟨2, ![B, N]⟩) (hpos : 0 < (⟨0, ![]⟩ : Shape).numel)
    (b : Fin B) (n : Fin N) :
    Host.reduce IntOp.andi x init hr hpos (ix2 b n) = x (ix3 b n (0 : Fin 1)) := by
  rw [Host.reduce_eq_fold]
  -- the operand indices that drop to (b, n): the one index (b, n, 0)
  have hset : (Finset.univ.filter fun i => hr.drop i = ix2 b n) = {ix3 b n (0 : Fin 1)} := by
    ext i
    rw [Finset.mem_filter, Finset.mem_singleton]
    constructor
    · rintro ⟨-, hd⟩
      have h0 : (i 0).val = b.val := congrArg (fun j : (⟨2, ![B, N]⟩ : Shape).Idx => (j 0).val) hd
      have h1 : (i 1).val = n.val := congrArg (fun j : (⟨2, ![B, N]⟩ : Shape).Idx => (j 1).val) hd
      funext c
      refine Fin.ext ?_
      match c with
      | ⟨0, _⟩ => exact h0
      | ⟨1, _⟩ => exact h1
      | ⟨2, _⟩ => exact Nat.lt_one_iff.mp (i 2).isLt
    · rintro rfl
      refine ⟨Finset.mem_univ _, ?_⟩
      funext c
      refine Fin.ext ?_
      match c with
      | ⟨0, _⟩ => rfl
      | ⟨1, _⟩ => rfl
  rw [hset, Finset.fold_singleton]
  have hfirst : Shape.Idx.first hpos = fun a => a.elim0 := funext fun a => a.elim0
  rw [hfirst, hinit]
  generalize x (ix3 b n (0 : Fin 1)) = v
  revert v
  decide

end Cert.LibGatherRows3
-- ==== Proof.Host0.lean ====
/-
  The host operations before the first launch, read at the buffers the launch takes: the neighbour maximum (eight takes
  of table rows and a running maximum), the two transposed weight matrices, and the arguments no operation writes.
-/
import proofs.«430761_j15504831939266_3_alg».proof.Proof.Gen.KernelIdeal.Launch
import proofs.«430761_j15504831939266_3_alg».proof.Proof.Spec
import proofs.«430761_j15504831939266_3_alg».proof.Proof.LibGatherRows3
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host0

open Cert.KernelIdeal Cert.KernelIdeal.Gen Cert.Unpool
open Idealize.ShloMosaic Idealize.ShloMosaic.TcCoe Idealize.ShloMosaic.ValueIdx Idealize.SL.Sem Idealize.ShloMosaic.StableHlo

variable (W : Valuation τ sig (Elt Ideal))

/-! ## One neighbour's take, read at an index -/

/-- A word read signed and clamped into 0 … 4095: the table row it names. -/
private def clampRow (w : BitVec 32) : Fin 4096 := ⟨min w.toInt.toNat (4096 - 1), by omega⟩

/-- The take of table rows at (b, n, c): the table's row that the index word at (b, n, 0) names. -/
private theorem gather_at (feats : A3 4 4096 64) (iv : IVec S4x16384x1 32) (b : Fin 4) (n : Fin 16384) (c : Fin 64) :
    Host.gather gather_S4x4096x64_S4x16384x1_S4x16384x64_2_1_0_0_1_2_1164 feats iv (ix3 b n c)
      = feats (ix3 b (clampRow (iv (ix3 b n (0 : Fin 1)))) c) :=
  Cert.LibGatherRows3.gather_rows3_apply (B := 4) (S := 4096) (H := 64) (N := 16384) (by decide)
    gather_S4x4096x64_S4x16384x1_S4x16384x64_2_1_0_0_1_2_1164_wf feats iv b n c

/-- A [4, 16384] array of words given a trailing unit axis reads, at (b, n, 0), its entry at (b, n). -/
private theorem bcast_at (v : IVec S4x16384 32) (b : Fin 4) (n : Fin 16384) (z : Fin 1) :
    broadcastInDim S4x16384x1 ![0, 1] bcast_S4x16384_S4x16384x1_0_1 v (ix3 b n z) = v (ix2 b n) :=
  broadcastInDim_apply _ _ v _ _ (fun a => match a with | ⟨0, _⟩ => rfl | ⟨1, _⟩ => rfl)

/-- Column o of the index words, its unit axis dropped, reads at (b, n) the word at (b, n, o). -/
private theorem word_at (idx : W3 4 16384 8) (o : Nat) (ho : o < 8) (h : S4x16384x8.Slices ![0, 0, o] S4x16384x1)
    (b : Fin 4) (n : Fin 16384) :
    shapeCast S4x16384 (extractStridedSlice S4x16384x1 ![0, 0, o] idx h) shapeCasts_S4x16384x1_S4x16384 (ix2 b n)
      = idx (ix3 b n ⟨o, ho⟩) := by
  refine (shapeCast_apply _ _ (ix2 b n) (ix3 b n (0 : Fin 1)) ?_).trans ?_
  · rw [Shape.rowMajor_val_three, Shape.rowMajor_val_two]
    show (b.val * 16384 + n.val) * 1 + 0 = b.val * 16384 + n.val
    omega
  · exact extractStridedSlice_apply _ _ _ _ _ (fun a => match a with
      | ⟨0, _⟩ => (Nat.zero_add _).symm
      | ⟨1, _⟩ => (Nat.zero_add _).symm
      | ⟨2, _⟩ => rfl)

/-- The normalization of a whole array of index words: a negative word has 4096 added once. -/
private def normV (w : IVec S4x16384 32) : IVec S4x16384 32 :=
  select (cmpi .slt w (broadcastInDim S4x16384 ![] bcast_S_S4x16384 (constantI S_ 32 0#32)))
    (addi w (broadcastInDim S4x16384 ![] bcast_S_S4x16384 (constantI S_ 32 4096#32))) w

/-- Read at an index it is the word's normalization. -/
private theorem normV_at (w : IVec S4x16384 32) (i : S4x16384.Idx) : normV w i = normWord (w i) := rfl

/-- Neighbour o's rows: column o of the index words, normalized, given back its unit axis, and the table's rows
    taken at it. -/
private def nbrT (feats : A3 4 4096 64) (idx : W3 4 16384 8) (o : Nat) (h : S4x16384x8.Slices ![0, 0, o] S4x16384x1) :
    A3 4 16384 64 :=
  Host.gather gather_S4x4096x64_S4x16384x1_S4x16384x64_2_1_0_0_1_2_1164 feats
    (broadcastInDim S4x16384x1 ![0, 1] bcast_S4x16384_S4x16384x1_0_1
      (normV (shapeCast S4x16384 (extractStridedSlice S4x16384x1 ![0, 0, o] idx h) shapeCasts_S4x16384x1_S4x16384)))

/-- Neighbour o's rows at (b, n, c): feature c of the table row the word at (b, n, o) names. -/
private theorem nbrT_at (feats : A3 4 4096 64) (idx : W3 4 16384 8) (o : Nat) (ho : o < 8)
    (h : S4x16384x8.Slices ![0, 0, o] S4x16384x1) (b : Fin 4) (n : Fin 16384) (c : Fin 64) :
    nbrT feats idx o h (ix3 b n c) = gath feats idx b n ⟨o, ho⟩ c := by
  unfold nbrT
  rw [gather_at, bcast_at, normV_at, word_at idx o ho h b n]
  rfl

/-- The maximum of two arrays, entry by entry. -/
private def maxA (x y : A3 4 16384 64) : A3 4 16384 64 :=
  maximumf (F := Ideal) (s := S4x16384x64) (φ := .f32) x y

/-- At an index it is the maximum of the two entries. -/
private theorem maxA_at (x y : A3 4 16384 64) (i : S4x16384x64.Idx) : maxA x y i = max (x i) (y i) := rfl

/-- The running maximum over the eight neighbours' rows, left to right. -/
private def nbrMax (feats : A3 4 4096 64) (idx : W3 4 16384 8) : A3 4 16384 64 :=
  maxA (maxA (maxA (maxA (maxA (maxA (maxA (nbrT feats idx 0 slices_S4x16384x8_S4x16384x1_0_0_0)
      (nbrT feats idx 1 slices_S4x16384x8_S4x16384x1_0_0_1))
      (nbrT feats idx 2 slices_S4x16384x8_S4x16384x1_0_0_2))
      (nbrT feats idx 3 slices_S4x16384x8_S4x16384x1_0_0_3))
      (nbrT feats idx 4 slices_S4x16384x8_S4x16384x1_0_0_4))
      (nbrT feats idx 5 slices_S4x16384x8_S4x16384x1_0_0_5))
      (nbrT feats idx 6 slices_S4x16384x8_S4x16384x1_0_0_6))
      (nbrT feats idx 7 slices_S4x16384x8_S4x16384x1_0_0_7)

/-- Index by index it is the neighbour maximum. -/
private theorem nbrMax_eq (feats : A3 4 4096 64) (idx : W3 4 16384 8) : nbrMax feats idx = interA feats idx := by
  funext i
  obtain ⟨b, n, c, rfl⟩ : ∃ b n c, i = ix3 b n c := ⟨i 0, i 1, i 2, eq_ix3 i⟩
  unfold nbrMax
  rw [maxA_at, maxA_at, maxA_at, maxA_at, maxA_at, maxA_at, maxA_at,
    nbrT_at feats idx 0 (by decide), nbrT_at feats idx 1 (by decide), nbrT_at feats idx 2 (by decide),
    nbrT_at feats idx 3 (by decide), nbrT_at feats idx 4 (by decide), nbrT_at feats idx 5 (by decide),
    nbrT_at feats idx 6 (by decide), nbrT_at feats idx 7 (by decide)]
  rfl

/-! ## The stretch read at the buffers the launch takes -/

set_option maxRecDepth 16384 in
set_option maxHeartbeats 4000000 in
/-- The neighbour maximum the first launch takes as its first operand. -/
theorem host0_v78 :
    StableHlo.after (hostOps0 (F := Ideal)) W (Proc.devRef .tc main_v78)
      = interA (W (Proc.devRef .tc main_arg1)) (W (Proc.devRef .tc main_arg4)) := by
  have e : StableHlo.after (hostOps0 (F := Ideal)) W (Proc.devRef .tc main_v78)
      = nbrMax (W (Proc.devRef .tc main_arg1)) (W (Proc.devRef .tc main_arg4)) := by
    show StableHlo.after hostOps0 W (Proc.devRef .tc main_v78) = _
    dsimp only [hostOps0]
    after_results_simp
    rfl
  exact e.trans (nbrMax_eq _ _)

set_option maxRecDepth 16384 in
set_option maxHeartbeats 4000000 in
/-- The projected branch's weight matrix, transposed. -/
theorem host0_v79 :
    StableHlo.after (hostOps0 (F := Ideal)) W (Proc.devRef .tc main_v79)
      = (fun i => W (Proc.devRef .tc main_arg5) (ix2 (i 1) (i 0)) : A2 64 64) := by
  show StableHlo.after hostOps0 W (Proc.devRef .tc main_v79) = _
  dsimp only [hostOps0]
  after_results_simp
  funext i
  obtain ⟨a, b, rfl⟩ : ∃ a b, i = ix2 a b := ⟨i 0, i 1, eq_ix2 i⟩
  exact transpose_ix2_apply _ _ a b

set_option maxRecDepth 16384 in
set_option maxHeartbeats 4000000 in
/-- The skip branch's weight matrix, transposed. -/
theorem host0_v80 :
    StableHlo.after (hostOps0 (F := Ideal)) W (Proc.devRef .tc main_v80)
      = (fun i => W (Proc.devRef .tc main_arg9) (ix2 (i 1) (i 0)) : A2 64 64) := by
  show StableHlo.after hostOps0 W (Proc.devRef .tc main_v80) = _
  dsimp only [hostOps0]
  after_results_simp
  funext i
  obtain ⟨a, b, rfl⟩ : ∃ a b, i = ix2 a b := ⟨i 0, i 1, eq_ix2 i⟩
  exact transpose_ix2_apply _ _ a b

/-- Closes "this reference keeps its contents over the stretch": no operation of the stretch writes it. -/
local macro "kept_over_stretch" : tactic => `(tactic| (
  refine StableHlo.after_of_forall_not_mem _ _ (List.forall_iff_forall_mem.mp ?_)
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

set_option maxRecDepth 16384 in
set_option maxHeartbeats 1000000 in
/-- No operation of the stretch writes an argument. -/
theorem host0_arg2 : StableHlo.after (hostOps0 (F := Ideal)) W (Proc.devRef .tc main_arg2) = W (Proc.devRef .tc main_arg2) := by
  kept_over_stretch
set_option maxRecDepth 16384 in
set_option maxHeartbeats 1000000 in
theorem host0_arg3 : StableHlo.after (hostOps0 (F := Ideal)) W (Proc.devRef .tc main_arg3) = W (Proc.devRef .tc main_arg3) := by
  kept_over_stretch
set_option maxRecDepth 16384 in
set_option maxHeartbeats 1000000 in
theorem host0_arg6 : StableHlo.after (hostOps0 (F := Ideal)) W (Proc.devRef .tc main_arg6) = W (Proc.devRef .tc main_arg6) := by
  kept_over_stretch
set_option maxRecDepth 16384 in
set_option maxHeartbeats 1000000 in
theorem host0_arg7 : StableHlo.after (hostOps0 (F := Ideal)) W (Proc.devRef .tc main_arg7) = W (Proc.devRef .tc main_arg7) := by
  kept_over_stretch
set_option maxRecDepth 16384 in
set_option maxHeartbeats 1000000 in
theorem host0_arg8 : StableHlo.after (hostOps0 (F := Ideal)) W (Proc.devRef .tc main_arg8) = W (Proc.devRef .tc main_arg8) := by
  kept_over_stretch
set_option maxRecDepth 16384 in
set_option maxHeartbeats 1000000 in
theorem host0_arg10 : StableHlo.after (hostOps0 (F := Ideal)) W (Proc.devRef .tc main_arg10) = W (Proc.devRef .tc main_arg10) := by
  kept_over_stretch
set_option maxRecDepth 16384 in
set_option maxHeartbeats 1000000 in
theorem host0_arg11 : StableHlo.after (hostOps0 (F := Ideal)) W (Proc.devRef .tc main_arg11) = W (Proc.devRef .tc main_arg11) := by
  kept_over_stretch
set_option maxRecDepth 16384 in
set_option maxHeartbeats 1000000 in
theorem host0_arg12 : StableHlo.after (hostOps0 (F := Ideal)) W (Proc.devRef .tc main_arg12) = W (Proc.devRef .tc main_arg12) := by
  kept_over_stretch

end Cert.KernelIdeal.Host0

end
-- ==== Proof.Host1.lean ====
/-
  The host operations between the two launches, read at the buffers the second launch takes: the block statistics
  pooled over the 16 blocks into each branch's per-channel scale and shift, and the buffers no operation writes.
-/
import proofs.«430761_j15504831939266_3_alg».proof.Proof.Gen.KernelIdeal.Launch
import proofs.«430761_j15504831939266_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Host1

open Cert.KernelIdeal Cert.KernelIdeal.Gen Cert.Unpool
open Idealize.ShloMosaic Idealize.ShloMosaic.TcCoe Idealize.ShloMosaic.ValueIdx Idealize.SL.Sem Idealize.ShloMosaic.StableHlo

variable (W : Valuation τ sig (Elt Ideal))

open scoped BigOperators

/-! ## Reading the stages at an index -/

/-- A sum over 16 blocks is the double sum over the block's two coordinates `(b, nb)`, block `4 b + nb`. -/
private theorem sum16 {M : Type} [AddCommMonoid M] (f : Fin 16 → M) :
    ∑ g : Fin 16, f g = ∑ b : Fin 4, ∑ nb : Fin 4, f ⟨4 * b.val + nb.val, by omega⟩ := by
  rw [← Equiv.sum_comp (finProdFinEquiv (m := 4) (n := 4)) f, Fintype.sum_prod_type]
  refine Finset.sum_congr rfl fun b _ => Finset.sum_congr rfl fun nb _ => congrArg f (Fin.ext ?_)
  show nb.val + 4 * b.val = 4 * b.val + nb.val
  omega

/-- The block means or variances as 16 blocks. -/
private def blocks (X : FVec Ideal S4x4x2x64 .f32) : FVec Ideal S16x2x64 .f32 :=
  fun i => shapeCast S16x2x64 X Facts₀.shapeCasts_S4x4x2x64_S16x2x64 i

/-- Block `4 b + nb` of the 16 is block `(b, nb)`. -/
private theorem blocks_apply (X : FVec Ideal S4x4x2x64 .f32) (b nb : Fin 4) (s : Fin 2) (o : Fin 64) :
    blocks X (ix3 (⟨4 * b.val + nb.val, by omega⟩ : Fin 16) s o) = X (ix4 b nb s o) :=
  shapeCast_apply X _ _ _ (by
    rw [Shape.rowMajor_val_four, Shape.rowMajor_val_three]
    show ((b.val * 4 + nb.val) * 2 + s.val) * 64 + o.val = ((4 * b.val + nb.val) * 2 + s.val) * 64 + o.val
    omega)

/-- The sum over the 16 blocks from the zero word, divided by the splat of the word of 16. -/
private def avg16 (x : FVec Ideal S16x2x64 .f32) : FVec Ideal S2x64 .f32 :=
  Host.divf (Host.reduceAdd x (constant S_ .f32 0x00000000#32) Facts₀.reducesTo_S16x2x64_S2x64_d0 Facts₀.h_S_)
    (broadcastInDim S2x64 ![] Facts₀.bcast_S_S2x64 (constant S_ .f32 0x41800000#32))

/-- It is the mean of the 16 values. -/
private theorem avg16_apply (x : FVec Ideal S16x2x64 .f32) (s : Fin 2) (o : Fin 64) :
    avg16 x (ix2 s o) = Unpool.pool (fun b nb => x (ix3 (⟨4 * b.val + nb.val, by omega⟩ : Fin 16) s o)) := by
  have h : S16x2x64.Reduces [0] S2x64 := by decide
  have e : ∀ k : Fin 16, h.lift (ix2 s o) k = ix3 k s o := fun k => by
    funext a; match a with | ⟨0, _⟩ => rfl | ⟨1, _⟩ => rfl | ⟨2, _⟩ => rfl
  unfold avg16 Unpool.pool
  rw [hostDivf_apply, broadcastInDim_scalar_apply, constant_apply, hostReduceAdd_apply,
    Ideal.hostReduceAdd_single _ h, constant_apply, Ideal.ofBits_zero_f32, zero_add, c16]
  refine congrArg (fun z => Ideal.div z _) ?_
  show ∑ k : Fin 16, x (h.lift (ix2 s o) k) = _
  simp only [e]
  exact sum16 (fun g => x (ix3 g s o))

/-- A [2,64] array repeated over the 16 blocks. -/
private def over16 (y : FVec Ideal S2x64 .f32) : FVec Ideal S16x2x64 .f32 :=
  broadcastInDim S16x2x64 ![0, 1, 2] Facts₀.bcast_S1x2x64_S16x2x64_0_1_2
    (broadcastInDim S1x2x64 ![1, 2] Facts₀.bcast_S2x64_S1x2x64_1_2 y)

/-- Every block of it reads the array's own entry. -/
private theorem over16_apply (y : FVec Ideal S2x64 .f32) (g : Fin 16) (s : Fin 2) (o : Fin 64) :
    over16 y (ix3 g s o) = y (ix2 s o) :=
  (broadcastInDim_apply _ _ _ (ix3 g s o) (ix3 (0 : Fin 1) s o) (fun a => by
      match a with | ⟨0, _⟩ => rfl | ⟨1, _⟩ => rfl | ⟨2, _⟩ => rfl)).trans
    (broadcastInDim_apply _ _ y (ix3 (0 : Fin 1) s o) (ix2 s o) (fun a => by
      match a with | ⟨0, _⟩ => rfl | ⟨1, _⟩ => rfl))

/-- The pooled mean buffer. -/
private def meanB (M : FVec Ideal S4x4x2x64 .f32) : FVec Ideal S2x64 .f32 := avg16 (blocks M)

/-- The pooled variance buffer: the mean of the block variances plus the mean of the squared deviations of the block
    means from the pooled mean. -/
private def varB (M V : FVec Ideal S4x4x2x64 .f32) : FVec Ideal S2x64 .f32 :=
  addf (avg16 (blocks V))
    (avg16 (mulf (subf (blocks M) (over16 (meanB M))) (subf (blocks M) (over16 (meanB M)))))

/-- The pooled mean at `(s, o)`. -/
private theorem meanB_apply (M : FVec Ideal S4x4x2x64 .f32) (s : Fin 2) (o : Fin 64) :
    meanB M (ix2 s o) = Unpool.pool (fun b nb => M (ix4 b nb s o)) := by
  unfold meanB
  rw [avg16_apply]
  simp only [blocks_apply]

/-- The pooled variance at `(s, o)`. -/
private theorem varB_apply (M V : FVec Ideal S4x4x2x64 .f32) (s : Fin 2) (o : Fin 64) :
    varB M V (ix2 s o) = poolVar (fun b nb => M (ix4 b nb s o)) (fun b nb => V (ix4 b nb s o)) := by
  unfold varB poolVar
  rw [addf_apply, avg16_apply, avg16_apply]
  simp only [mulf_apply, subf_apply, blocks_apply, over16_apply, meanB_apply]

/-- Rows 0 and 1 of a [2,64] array, sliced out and flattened. -/
private def row0 (y : FVec Ideal S2x64 .f32) : FVec Ideal S64 .f32 :=
  fun i => shapeCast S64 (extractStridedSlice S1x64 ![0, 0] y Facts₀.slices_S2x64_S1x64_0_0) Facts₀.shapeCasts_S1x64_S64 i
private def row1 (y : FVec Ideal S2x64 .f32) : FVec Ideal S64 .f32 :=
  fun i => shapeCast S64 (extractStridedSlice S1x64 ![1, 0] y Facts₀.slices_S2x64_S1x64_1_0) Facts₀.shapeCasts_S1x64_S64 i

private theorem row0_apply (y : FVec Ideal S2x64 .f32) (o : Fin 64) : row0 y (ix1 o) = y (ix2 (0 : Fin 2) o) :=
  (shapeCast_1a_a_apply _ _ o).trans (slice2_axis0_apply 0 y _ (0 : Fin 1) o (0 : Fin 2) rfl)
private theorem row1_apply (y : FVec Ideal S2x64 .f32) (o : Fin 64) : row1 y (ix1 o) = y (ix2 (1 : Fin 2) o) :=
  (shapeCast_1a_a_apply _ _ o).trans (slice2_axis0_apply 1 y _ (0 : Fin 1) o (1 : Fin 2) rfl)

/-- The splat of the epsilon word. -/
private def epsB : FVec Ideal S64 .f32 := broadcastInDim S64 ![] Facts₀.bcast_S_S64 (constant S_ .f32 0x3727C5AC#32)

private theorem epsB_apply (o : Fin 64) : epsB (ix1 o) = epsC := by
  unfold epsB
  rw [broadcastInDim_scalar_apply, constant_apply, epsC]

/-- Scale and shift as the program computes them from a variance row and a mean row. -/
private def scaleP (γ var : FVec Ideal S64 .f32) : FVec Ideal S64 .f32 := mulf γ (Host.rsqrt (addf var epsB))
private def shiftP (β mean scale : FVec Ideal S64 .f32) : FVec Ideal S64 .f32 := subf β (mulf mean scale)

private theorem hostRsqrt_apply (x : FVec Ideal S64 .f32) (i : S64.Idx) : Host.rsqrt x i = Ideal.rsqrt (x i) := rfl

private theorem scaleP0_eq (M V : FVec Ideal S4x4x2x64 .f32) (γ : FVec Ideal S64 .f32) :
    scaleP γ (row0 (varB M V)) = scaleH M V γ 0 := by
  funext i
  obtain ⟨o, rfl⟩ : ∃ o, i = ix1 o := ⟨i 0, eq_ix1 i⟩
  unfold scaleP scaleH scaleOf
  rw [mulf_apply, hostRsqrt_apply, addf_apply, row0_apply, varB_apply, epsB_apply]

private theorem scaleP1_eq (M V : FVec Ideal S4x4x2x64 .f32) (γ : FVec Ideal S64 .f32) :
    scaleP γ (row1 (varB M V)) = scaleH M V γ 1 := by
  funext i
  obtain ⟨o, rfl⟩ : ∃ o, i = ix1 o := ⟨i 0, eq_ix1 i⟩
  unfold scaleP scaleH scaleOf
  rw [mulf_apply, hostRsqrt_apply, addf_apply, row1_apply, varB_apply, epsB_apply]

private theorem shiftP0_eq (M V : FVec Ideal S4x4x2x64 .f32) (γ β : FVec Ideal S64 .f32) :
    shiftP β (row0 (meanB M)) (scaleP γ (row0 (varB M V))) = shiftH M V γ β 0 := by
  rw [scaleP0_eq]
  funext i
  obtain ⟨o, rfl⟩ : ∃ o, i = ix1 o := ⟨i 0, eq_ix1 i⟩
  unfold shiftP shiftH shiftOf
  rw [subf_apply, mulf_apply, row0_apply, meanB_apply]
  rfl

private theorem shiftP1_eq (M V : FVec Ideal S4x4x2x64 .f32) (γ β : FVec Ideal S64 .f32) :
    shiftP β (row1 (meanB M)) (scaleP γ (row1 (varB M V))) = shiftH M V γ β 1 := by
  rw [scaleP1_eq]
  funext i
  obtain ⟨o, rfl⟩ : ∃ o, i = ix1 o := ⟨i 0, eq_ix1 i⟩
  unfold shiftP shiftH shiftOf
  rw [subf_apply, mulf_apply, row1_apply, meanB_apply]
  rfl

/-! ## The four results -/

/-- The skip branch's scale: row 0 of the block statistics pooled, with the skip branch's gamma. -/
theorem host1_v115 :
    StableHlo.after (hostOps1 (F := Ideal)) W (Proc.devRef .tc main_v115)
      = scaleH (W (Proc.devRef .tc main_v81_1)) (W (Proc.devRef .tc main_v81_2)) (W (Proc.devRef .tc main_arg11)) 0 := by
  show StableHlo.after hostOps1 W (Proc.devRef .tc main_v115) = _
  dsimp only [hostOps1]
  after_results_simp
  exact scaleP0_eq (W (Proc.devRef .tc main_v81_1)) (W (Proc.devRef .tc main_v81_2)) (W (Proc.devRef .tc main_arg11))

/-- The skip branch's shift. -/
theorem host1_v117 :
    StableHlo.after (hostOps1 (F := Ideal)) W (Proc.devRef .tc main_v117)
      = shiftH (W (Proc.devRef .tc main_v81_1)) (W (Proc.devRef .tc main_v81_2)) (W (Proc.devRef .tc main_arg11))
          (W (Proc.devRef .tc main_arg12)) 0 := by
  show StableHlo.after hostOps1 W (Proc.devRef .tc main_v117) = _
  dsimp only [hostOps1]
  after_results_simp
  exact shiftP0_eq (W (Proc.devRef .tc main_v81_1)) (W (Proc.devRef .tc main_v81_2)) (W (Proc.devRef .tc main_arg11))
    (W (Proc.devRef .tc main_arg12))

/-- The projected branch's scale: row 1 of the block statistics pooled, with the projected branch's gamma. -/
theorem host1_v109 :
    StableHlo.after (hostOps1 (F := Ideal)) W (Proc.devRef .tc main_v109)
      = scaleH (W (Proc.devRef .tc main_v81_1)) (W (Proc.devRef .tc main_v81_2)) (W (Proc.devRef .tc main_arg7)) 1 := by
  show StableHlo.after hostOps1 W (Proc.devRef .tc main_v109) = _
  dsimp only [hostOps1]
  after_results_simp
  exact scaleP1_eq (W (Proc.devRef .tc main_v81_1)) (W (Proc.devRef .tc main_v81_2)) (W (Proc.devRef .tc main_arg7))

/-- The projected branch's shift. -/
theorem host1_v111 :
    StableHlo.after (hostOps1 (F := Ideal)) W (Proc.devRef .tc main_v111)
      = shiftH (W (Proc.devRef .tc main_v81_1)) (W (Proc.devRef .tc main_v81_2)) (W (Proc.devRef .tc main_arg7))
          (W (Proc.devRef .tc main_arg8)) 1 := by
  show StableHlo.after hostOps1 W (Proc.devRef .tc main_v111) = _
  dsimp only [hostOps1]
  after_results_simp
  exact shiftP1_eq (W (Proc.devRef .tc main_v81_1)) (W (Proc.devRef .tc main_v81_2)) (W (Proc.devRef .tc main_arg7))
    (W (Proc.devRef .tc main_arg8))

/-- No operation of the stretch writes the projections or the coordinates. -/
theorem host1_v81_0 : StableHlo.after (hostOps1 (F := Ideal)) W (Proc.devRef .tc main_v81_0) = W (Proc.devRef .tc main_v81_0) :=
  StableHlo.after_of_forall_not_mem (b := Proc.devRef .tc main_v81_0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem host1_arg2 : StableHlo.after (hostOps1 (F := Ideal)) W (Proc.devRef .tc main_arg2) = W (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.KernelIdeal.Host1

end
-- ==== Proof.KernelValue.lean ====
/-
  The kernel's result as one function of its arguments.

  The last boundary's contents at the result buffer are what the second launch leaves there; its operands are what
  the host operations between the launches make of the first launch's three results and of the arguments; the first
  launch's operands are what the host operations before it make of the arguments. Chained, the result is the
  stage-by-stage function `kernelOut` of the thirteen argument arrays as launched.
-/
import proofs.«430761_j15504831939266_3_alg».proof.Proof.KernelRun
import proofs.«430761_j15504831939266_3_alg».proof.Proof.Region0
import proofs.«430761_j15504831939266_3_alg».proof.Proof.Region0Stats
import proofs.«430761_j15504831939266_3_alg».proof.Proof.Region1
import proofs.«430761_j15504831939266_3_alg».proof.Proof.Host0
import proofs.«430761_j15504831939266_3_alg».proof.Proof.Host1
import proofs.«430761_j15504831939266_3_alg».proof.Proof.Spec

noncomputable section

namespace Cert.KernelIdeal.KValue

open Cert.KernelIdeal Cert.KernelIdeal.Gen Cert.Unpool
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The first launch's operands -/

theorem V1_arg3 (c : Dev nD) : V1 m ρ c main_arg3 = m ((c : Thread nD τ).loc main_arg3) := Host0.host0_arg3 (W0 m ρ c)
theorem V1_arg6 (c : Dev nD) : V1 m ρ c main_arg6 = m ((c : Thread nD τ).loc main_arg6) := Host0.host0_arg6 (W0 m ρ c)
theorem V1_arg10 (c : Dev nD) : V1 m ρ c main_arg10 = m ((c : Thread nD τ).loc main_arg10) := Host0.host0_arg10 (W0 m ρ c)
theorem V1_v78 (c : Dev nD) :
    V1 m ρ c main_v78 = interA (m ((c : Thread nD τ).loc main_arg1)) (m ((c : Thread nD τ).loc main_arg4)) :=
  Host0.host0_v78 (W0 m ρ c)
theorem V1_v79 (c : Dev nD) :
    V1 m ρ c main_v79 = (fun i => m ((c : Thread nD τ).loc main_arg5) (ix2 (i 1) (i 0)) : A2 64 64) :=
  Host0.host0_v79 (W0 m ρ c)
theorem V1_v80 (c : Dev nD) :
    V1 m ρ c main_v80 = (fun i => m ((c : Thread nD τ).loc main_arg9) (ix2 (i 1) (i 0)) : A2 64 64) :=
  Host0.host0_v80 (W0 m ρ c)

/-! ## The first launch's results, and the arguments, at the first launch's exit -/

/-- The three results at the exit are the launch's three whole-array functions of its operands. -/
theorem W2_v81_0 (c : Dev nD) :
    W2 m ρ c (Proc.devRef .tc main_v81_0)
      = Y0 (V1 m ρ c main_arg3) (V1 m ρ c main_v80) (V1 m ρ c main_arg10) (V1 m ρ c main_v78) (V1 m ρ c main_v79) (V1 m ρ c main_arg6) :=
  (W2_arr m ρ c 6).trans (Region0.final0_6 (V1 m ρ) c)
theorem W2_v81_1 (c : Dev nD) :
    W2 m ρ c (Proc.devRef .tc main_v81_1)
      = M0 (V1 m ρ c main_arg3) (V1 m ρ c main_v80) (V1 m ρ c main_arg10) (V1 m ρ c main_v78) (V1 m ρ c main_v79) (V1 m ρ c main_arg6) :=
  (W2_arr m ρ c 7).trans (Region0Stats.final0_7 (V1 m ρ) c)
theorem W2_v81_2 (c : Dev nD) :
    W2 m ρ c (Proc.devRef .tc main_v81_2)
      = Vr0 (V1 m ρ c main_arg3) (V1 m ρ c main_v80) (V1 m ρ c main_arg10) (V1 m ρ c main_v78) (V1 m ρ c main_v79) (V1 m ρ c main_arg6) :=
  (W2_arr m ρ c 8).trans (Region0Stats.final0_8 (V1 m ρ) c)

/-- An argument the first launch does not take as an operand is at the exit what it was at launch. -/
theorem W2_arg2 (c : Dev nD) : W2 m ρ c (Proc.devRef .tc main_arg2) = m ((c : Thread nD τ).loc main_arg2) :=
  (W2_of_ne m ρ c main_arg2 (by decide)).trans (Host0.host0_arg2 (W0 m ρ c))
theorem W2_arg7 (c : Dev nD) : W2 m ρ c (Proc.devRef .tc main_arg7) = m ((c : Thread nD τ).loc main_arg7) :=
  (W2_of_ne m ρ c main_arg7 (by decide)).trans (Host0.host0_arg7 (W0 m ρ c))
theorem W2_arg8 (c : Dev nD) : W2 m ρ c (Proc.devRef .tc main_arg8) = m ((c : Thread nD τ).loc main_arg8) :=
  (W2_of_ne m ρ c main_arg8 (by decide)).trans (Host0.host0_arg8 (W0 m ρ c))
theorem W2_arg11 (c : Dev nD) : W2 m ρ c (Proc.devRef .tc main_arg11) = m ((c : Thread nD τ).loc main_arg11) :=
  (W2_of_ne m ρ c main_arg11 (by decide)).trans (Host0.host0_arg11 (W0 m ρ c))
theorem W2_arg12 (c : Dev nD) : W2 m ρ c (Proc.devRef .tc main_arg12) = m ((c : Thread nD τ).loc main_arg12) :=
  (W2_of_ne m ρ c main_arg12 (by decide)).trans (Host0.host0_arg12 (W0 m ρ c))

/-! ## The second launch's operands -/

theorem V3_v81_0 (c : Dev nD) : V3 m ρ c main_v81_0 = W2 m ρ c (Proc.devRef .tc main_v81_0) := Host1.host1_v81_0 (W2 m ρ c)
theorem V3_arg2 (c : Dev nD) : V3 m ρ c main_arg2 = m ((c : Thread nD τ).loc main_arg2) :=
  (Host1.host1_arg2 (W2 m ρ c)).trans (W2_arg2 m ρ c)
theorem V3_v115 (c : Dev nD) :
    V3 m ρ c main_v115 = scaleH (W2 m ρ c (Proc.devRef .tc main_v81_1)) (W2 m ρ c (Proc.devRef .tc main_v81_2))
      (W2 m ρ c (Proc.devRef .tc main_arg11)) 0 := Host1.host1_v115 (W2 m ρ c)
theorem V3_v117 (c : Dev nD) :
    V3 m ρ c main_v117 = shiftH (W2 m ρ c (Proc.devRef .tc main_v81_1)) (W2 m ρ c (Proc.devRef .tc main_v81_2))
      (W2 m ρ c (Proc.devRef .tc main_arg11)) (W2 m ρ c (Proc.devRef .tc main_arg12)) 0 := Host1.host1_v117 (W2 m ρ c)
theorem V3_v109 (c : Dev nD) :
    V3 m ρ c main_v109 = scaleH (W2 m ρ c (Proc.devRef .tc main_v81_1)) (W2 m ρ c (Proc.devRef .tc main_v81_2))
      (W2 m ρ c (Proc.devRef .tc main_arg7)) 1 := Host1.host1_v109 (W2 m ρ c)
theorem V3_v111 (c : Dev nD) :
    V3 m ρ c main_v111 = shiftH (W2 m ρ c (Proc.devRef .tc main_v81_1)) (W2 m ρ c (Proc.devRef .tc main_v81_2))
      (W2 m ρ c (Proc.devRef .tc main_arg7)) (W2 m ρ c (Proc.devRef .tc main_arg8)) 1 := Host1.host1_v111 (W2 m ρ c)

/-! ## The result -/

/-- The result buffer at the last boundary is the stage-by-stage function of the arguments as launched. -/
theorem W4_v118 (c : Dev nD) :
    W4 m ρ c (Proc.devRef .tc main_v118)
      = kernelOut (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) := by
  refine ((W4_arr m ρ c 6).trans (Region1.final1 (V3 m ρ) c)).trans ?_
  rw [V3_v81_0, V3_arg2, V3_v115, V3_v117, V3_v109, V3_v111, W2_v81_0, W2_v81_1, W2_v81_2, W2_arg7, W2_arg8, W2_arg11, W2_arg12,
    V1_arg3, V1_arg6, V1_arg10, V1_v78, V1_v79, V1_v80]
  rfl

end Cert.KernelIdeal.KValue

end
-- ==== Proof.Consts.lean ====
/-
  The float constants of the two programs as the extended reals their words denote: the three divisors 4096, 16 and
  65536, the variance's epsilon (a positive real), and the two infinities.
-/
import proofs.«430761_j15504831939266_3_alg».proof.Proof.Spec

noncomputable section

namespace Cert.Unpool

open Idealize.ShloMosaic

/-- The first divisor is the real number 4096. -/
theorem c4096_eq : c4096 = ((4096 : ℝ) : EReal) := by
  simp [c4096, Ideal.ofBits, Ideal.ieee, -EReal.coe_mul]; norm_num

/-- The second divisor is the real number 16. -/
theorem c16_eq : c16 = ((16 : ℝ) : EReal) := by
  simp [c16, Ideal.ofBits, Ideal.ieee, -EReal.coe_mul]; norm_num

/-- The third divisor is the real number 65536. -/
theorem c65536_eq : c65536 = ((65536 : ℝ) : EReal) := by
  simp [c65536, Ideal.ofBits, Ideal.ieee, -EReal.coe_mul]; norm_num

/-- The variance's epsilon is a positive real number. -/
theorem epsC_eq : ∃ e : ℝ, 0 < e ∧ epsC = ((e : ℝ) : EReal) := by
  refine ⟨(10995116 : ℝ) * (2 : ℝ) ^ (-40 : ℤ), by positivity, ?_⟩
  simp [epsC, Ideal.ofBits, Ideal.ieee, -EReal.coe_mul]

/-- The word 0x7F800000 denotes plus infinity. -/
theorem ofBits_pinf : Ideal.ofBits .f32 0x7F800000#32 = (⊤ : EReal) := by
  simp [Ideal.ofBits, Ideal.ieee]

/-- The word 0xFF800000 denotes minus infinity. -/
theorem ofBits_ninf : Ideal.ofBits .f32 0xFF800000#32 = (⊥ : EReal) := by
  simp [Ideal.ofBits, Ideal.ieee]

end Cert.Unpool

end
-- ==== Proof.LibGatherRows4.lean ====
/-
  A host operation read at an index, as a take along axis 1 of a rank-3 array at a rank-3 array of index words lowers
  to it.

  A gather whose operand [B, S, H] is batched over its first axis with start indices [B, N, K, 1], collapsing the second
  axis and keeping the third whole, reads at (b, n, k, h) the operand's row that the index word at (b, n, k, 0) names,
  the word read signed and clamped into [0, S - 1]. Stated over variable extents.
-/
import Idealize.ShloMosaic.Lib.ValueIdx
import Idealize.ShloMosaic.PureOps.Reduce

namespace Cert.LibGatherRows4
open Idealize.ShloMosaic Idealize.ShloMosaic.ValueIdx

/-- The dimension numbers of a take along axis 1 of an operand `[B, S, H]` at start indices `[B, N, K, 1]`, batched
    over axis 0: offset axis 3, collapsed axis 1, operand batching axis 0, start-index batching axis 0, start index map
    `[1]`, index vector axis 3, slice sizes `[1, 1, H]`. -/
abbrev rows4Dims (B S H N K : Nat)
    (wf : GatherDims.WF ⟨3, ![B, S, H]⟩ ⟨4, ![B, N, K, 1]⟩ ⟨4, ![B, N, K, H]⟩ [3] [1] [0] [1] [0] 3 ![1, 1, H]) :
    GatherDims ⟨3, ![B, S, H]⟩ ⟨4, ![B, N, K, 1]⟩ ⟨4, ![B, N, K, H]⟩ where
  offsetDims := [3]
  collapsedSliceDims := [1]
  operandBatchingDims := [0]
  startIndicesBatchingDims := [0]
  startIndexMap := [1]
  indexVectorDim := 3
  sliceSizes := ![1, 1, H]
  wf := wf

/-- THE GATHER READ AT `(b, n, k, h)`: the operand at batch `b`, column `h`, and the row the start index
    `idx[b, n, k, 0]` names, read signed and clamped into `[0, S - 1]`. -/
theorem gather_rows4_apply {α : Type} {B S H N K w : Nat} (hS : 0 < S)
    (wf : GatherDims.WF ⟨3, ![B, S, H]⟩ ⟨4, ![B, N, K, 1]⟩ ⟨4, ![B, N, K, H]⟩ [3] [1] [0] [1] [0] 3 ![1, 1, H])
    (x : (⟨3, ![B, S, H]⟩ : Shape).Idx → α) (idx : IVec ⟨4, ![B, N, K, 1]⟩ w)
    (b : Fin B) (n : Fin N) (k : Fin K) (h : Fin H) :
    Host.gather (rows4Dims B S H N K wf) x idx (ix4 b n k h)
      = x (ix3 b ⟨min (idx (ix4 b n k (0 : Fin 1))).toInt.toNat (S - 1), by omega⟩ h) := by
  unfold Host.gather
  congr 1
  funext a
  refine Fin.ext ?_
  match a with
  | ⟨0, _⟩ =>
    -- the batching axis: the start and the offset are 0, the batching coordinate is the result's first
    show (rows4Dims B S H N K wf).start (ix4 b n k h) idx 0 + (rows4Dims B S H N K wf).batchCoord (ix4 b n k h) 0
      + (rows4Dims B S H N K wf).offCoord (ix4 b n k h) 0 = _
    rw [GatherDims.start_batching _ _ _ _ (List.mem_singleton.mpr rfl),
      GatherDims.offCoord_eq_zero _ _ _ (fun hm => ((GatherDims.mem_sKept _ _).mp hm).2 (List.mem_singleton.mpr rfl))]
    simp only [Nat.zero_add, Nat.add_zero]
    unfold GatherDims.batchCoord
    rw [dif_pos (show (0 : Fin 3) ∈ (rows4Dims B S H N K wf).operandBatchingDims from List.mem_singleton.mpr rfl)]
    rfl
  | ⟨1, _⟩ =>
    -- the collapsed axis: the batching and offset coordinates are 0, the start is the clamped index word
    show (rows4Dims B S H N K wf).start (ix4 b n k h) idx 1 + (rows4Dims B S H N K wf).batchCoord (ix4 b n k h) 1
      + (rows4Dims B S H N K wf).offCoord (ix4 b n k h) 1 = _
    rw [GatherDims.batchCoord_eq_zero _ _ _
        (fun hm => absurd (List.mem_singleton.mp hm) (show (1 : Fin 3) ≠ 0 by decide)),
      GatherDims.offCoord_eq_zero _ _ _ (fun hm => ((GatherDims.mem_sKept _ _).mp hm).1 (List.mem_singleton.mpr rfl))]
    simp only [Nat.add_zero]
    unfold GatherDims.start
    rw [dif_pos (show (1 : Fin 3) ∈ (rows4Dims B S H N K wf).startIndexMap from List.mem_singleton.mpr rfl)]
    have hsi : (rows4Dims B S H N K wf).siIdx (ix4 b n k h)
        ⟨List.idxOf (1 : Fin 3) (rows4Dims B S H N K wf).startIndexMap,
          List.idxOf_lt_length_iff.2 (List.mem_singleton.mpr rfl)⟩ = ix4 b n k (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨2, _⟩ =>
    -- the kept axis: the start and the batching coordinate are 0, the offset coordinate is the result's last
    show (rows4Dims B S H N K wf).start (ix4 b n k h) idx 2 + (rows4Dims B S H N K wf).batchCoord (ix4 b n k h) 2
      + (rows4Dims B S H N K wf).offCoord (ix4 b n k h) 2 = _
    rw [GatherDims.batchCoord_eq_zero _ _ _
        (fun hm => absurd (List.mem_singleton.mp hm) (show (2 : Fin 3) ≠ 0 by decide))]
    unfold GatherDims.start
    rw [dif_neg (show (2 : Fin 3) ∉ (rows4Dims B S H N K wf).startIndexMap from
      fun hm => absurd (List.mem_singleton.mp hm) (show (2 : Fin 3) ≠ 1 by decide))]
    simp only [Nat.zero_add, Nat.add_zero]
    unfold GatherDims.offCoord
    rw [dif_pos (show (2 : Fin 3) ∈ (rows4Dims B S H N K wf).sKept from (GatherDims.mem_sKept _ _).mpr
      ⟨fun hm => absurd (List.mem_singleton.mp hm) (show (2 : Fin 3) ≠ 1 by decide),
        fun hm => absurd (List.mem_singleton.mp hm) (show (2 : Fin 3) ≠ 0 by decide)⟩)]
    rfl

end Cert.LibGatherRows4
-- ==== Proof.RefInter.lean ====
/-
  The reference's neighbour maximum: one take of table rows at all eight neighbours' index words (negative words wrapped
  once, the row read signed and clamped into the table), then the maximum over the neighbour axis started from minus
  infinity, is the left-to-right maximum of the eight neighbours' features.
-/
import proofs.«430761_j15504831939266_3_alg».proof.Proof.RefReadP
import proofs.«430761_j15504831939266_3_alg».proof.Proof.Spec
import proofs.«430761_j15504831939266_3_alg».proof.Proof.Consts
import proofs.«430761_j15504831939266_3_alg».proof.Proof.LibGatherRows3
import proofs.«430761_j15504831939266_3_alg».proof.Proof.LibGatherRows4
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefInter

open Cert.ReferenceIdeal Cert.ReferenceIdeal.Gen Cert.ReferenceIdeal.ReadP Cert.Unpool
open Idealize.ShloMosaic Idealize.ShloMosaic.TcCoe Idealize.ShloMosaic.ValueIdx Idealize.SL.Sem

/-! ## The index words, normalized and given a trailing unit axis -/

/-- The normalized words at (b, n, k, 0): the word at (b, n, k), a negative one with 4096 added once. -/
private theorem word_at (x4 : IVec S4x16384x8 32) (b : Fin 4) (n : Fin 16384) (k : Fin 8) (z : Fin 1) :
    val_main_v5 (F := Ideal) x4 (ix4 b n k z) = normWord (x4 (ix3 b n k)) := by
  have hidx : idx_main_v5 (ix4 b n k z) = ix3 b n k := by
    funext a
    match a with
    | ⟨0, _⟩ => rfl
    | ⟨1, _⟩ => rfl
    | ⟨2, _⟩ => rfl
  rw [val_main_v5_apply, hidx, val_main_v4_apply, val_main_v1_apply, val_main_v3_apply, val_main_v0_apply,
    val_main_v2_apply, val_main_c_apply, val_main_c_0_apply]
  rfl

/-! ## The take of table rows, read at an index -/

/-- A word read signed and clamped into 0 … 4095: the table row it names. -/
private def clampRow (w : BitVec 32) : Fin 4096 := ⟨min w.toInt.toNat (4096 - 1), by omega⟩

/-- The take at (b, n, k, c): the table's row that the index word at (b, n, k, 0) names, at batch b and column c. -/
private theorem gather_at (feats : A3 4 4096 64) (iv : IVec S4x16384x8x1 32) (b : Fin 4) (n : Fin 16384) (k : Fin 8)
    (c : Fin 64) :
    Host.gather gather_S4x4096x64_S4x16384x8x1_S4x16384x8x64_3_1_0_0_1_3_1164 feats iv (ix4 b n k c)
      = feats (ix3 b (clampRow (iv (ix4 b n k (0 : Fin 1)))) c) :=
  Cert.LibGatherRows4.gather_rows4_apply (B := 4) (S := 4096) (H := 64) (N := 16384) (K := 8) (by decide)
    gather_S4x4096x64_S4x16384x8x1_S4x16384x8x64_3_1_0_0_1_3_1164_wf feats iv b n k c

/-- The reference's take at (b, n, k, c) is neighbour k's feature c of fine point (b, n). -/
private theorem take_at (x1 : A3 4 4096 64) (x4 : IVec S4x16384x8 32) (b : Fin 4) (n : Fin 16384) (k : Fin 8)
    (c : Fin 64) :
    val_main_v6 (F := Ideal) x1 x4 (ix4 b n k c) = gath x1 x4 b n k c := by
  unfold val_main_v6
  rw [gather_at, word_at]
  rfl

/-! ## The maximum over the neighbour axis -/

/-- The neighbour axis is the one the reduction drops. -/
private theorem hred : S4x16384x8x64.Reduces [2] S4x16384x64 := by decide

/-- The index over (b, n, c) with neighbour coordinate k is (b, n, k, c). -/
private theorem lift_at (b : Fin 4) (n : Fin 16384) (c : Fin 64) (k : Fin 8) :
    hred.lift (ix3 b n c) k = ix4 b n k c := by
  funext a
  refine Fin.ext ?_
  match a with
  | ⟨0, _⟩ => rfl
  | ⟨1, _⟩ => rfl
  | ⟨2, _⟩ => rfl
  | ⟨3, _⟩ => rfl

/-- The maximum of eight values started from the least element, in any order, is their left-to-right maximum. -/
private theorem fold_max_fin8 (g : Fin 8 → EReal) :
    (Finset.univ : Finset (Fin 8)).fold max (⊥ : EReal) g
      = max (max (max (max (max (max (max (g 0) (g 1)) (g 2)) (g 3)) (g 4)) (g 5)) (g 6)) (g 7) := by
  have hu : (Finset.univ : Finset (Fin 8)) = {0, 1, 2, 3, 4, 5, 6, 7} := by decide
  rw [hu]
  simp only [Finset.fold_insert_idem, Finset.fold_singleton, max_assoc, max_bot_right]

/-- The reduced take, at the ideal values, is the neighbour maximum. -/
theorem ref_inter (x1 : FVec Ideal S4x4096x64 .f32) (x4 : IVec S4x16384x8 32) :
    val_main_v7 (F := Ideal) x1 x4 = interA x1 x4 := by
  funext j
  obtain ⟨b, n, c, rfl⟩ : ∃ b n c, j = ix3 b n c := ⟨j 0, j 1, j 2, eq_ix3 j⟩
  unfold val_main_v7
  rw [Host.reduce_eq_fold_single (FloatOps.maximumf (F := Ideal) (φ := .f32)) _ _
    reducesTo_S4x16384x8x64_S4x16384x64_d2 hred h_S_ (ix3 b n c)]
  have hg : (val_main_v6 (F := Ideal) x1 x4 ∘ hred.lift (ix3 b n c)) = fun k : Fin 8 => gath x1 x4 b n k c := by
    funext k
    exact (congrArg (val_main_v6 (F := Ideal) x1 x4) (lift_at b n c k)).trans (take_at x1 x4 b n k c)
  have hi : val_main_cst (F := Ideal) (Shape.Idx.first h_S_) = (⊥ : EReal) := by
    rw [val_main_cst_apply]
    exact ofBits_ninf
  rw [hg, hi]
  exact fold_max_fin8 _

end Cert.ReferenceIdeal.RefInter

end
-- ==== Proof.RefBranch.lean ====
/-
  The reference's two normalized branches: the projection as a sum over the 64 input channels plus the bias, the mean
  and the biased variance of each output channel as sums over all 4 * 16384 points divided by their number, then
  `(y - mean) * rsqrt (var + eps) * gamma + beta` clipped below at zero — the direct normalization `chanR` of the
  channel `linC`.
-/
import proofs.«430761_j15504831939266_3_alg».proof.Proof.RefReadP
import proofs.«430761_j15504831939266_3_alg».proof.Proof.Spec
import proofs.«430761_j15504831939266_3_alg».proof.Proof.LibGatherRows3
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefBranch

open Cert.ReferenceIdeal Cert.ReferenceIdeal.Gen Cert.ReferenceIdeal.ReadP Cert.Unpool
open Idealize.ShloMosaic Idealize.ShloMosaic.TcCoe Idealize.ShloMosaic.ValueIdx Idealize.SL.Sem

/-- Dropping axes 0 and 1 of a [4, 16384, 64] index leaves its last coordinate. -/
private theorem drop01_iff (h : S4x16384x64.ReducesTo [0, 1] S64) (i : S4x16384x64.Idx) (o : Fin 64) :
    h.drop i = ix1 o ↔ (i 2 : Nat) = o.val := by
  have hv : (h.drop i 0 : Nat) = (i 2 : Nat) := Shape.ReducesTo.drop_apply_val_of_eq h i 0 2
  constructor
  · intro e
    have e0 : h.drop i 0 = o := congrFun e 0
    rw [← hv, e0]
  · intro e
    funext a
    match a with
    | ⟨0, _⟩ => exact Fin.ext (hv.trans e)

/-- A sum over axes 0 and 1 of a [4, 16384, 64] array, at channel `o`: the initial value plus the double sum over the
    batch and the point of the array at that channel. -/
private theorem sum01 (h : S4x16384x64.ReducesTo [0, 1] S64) (x : S4x16384x64.Idx → EReal) (init : EReal) (o : Fin 64) :
    Ideal.hostReduceAdd h x init (ix1 o) = init + ∑ b : Fin 4, ∑ n : Fin 16384, x (ix3 b n o) := by
  unfold Ideal.hostReduceAdd
  refine congrArg (fun s => init + s) ?_
  rw [← Fintype.sum_prod_type' (f := fun (b : Fin 4) (n : Fin 16384) => x (ix3 b n o))]
  refine Finset.sum_nbij' (fun i => ((i 0, i 1) : Fin 4 × Fin 16384)) (fun p => ix3 p.1 p.2 o) ?_ ?_ ?_ ?_ ?_
  · intro i _; exact Finset.mem_univ _
  · intro p _
    rw [Finset.mem_filter]
    exact ⟨Finset.mem_univ _, (drop01_iff h _ o).2 rfl⟩
  · intro i hi
    rw [Finset.mem_filter] at hi
    have e := (drop01_iff h i o).1 hi.2
    funext a
    match a with
    | ⟨0, _⟩ => rfl
    | ⟨1, _⟩ => rfl
    | ⟨2, _⟩ => exact Fin.ext e.symm
  · intro p _; rfl
  · intro i hi
    rw [Finset.mem_filter] at hi
    have e := (drop01_iff h i o).1 hi.2
    refine congrArg x ?_
    funext a
    match a with
    | ⟨0, _⟩ => rfl
    | ⟨1, _⟩ => rfl
    | ⟨2, _⟩ => exact Fin.ext e

private theorem lidx38 (b : Fin 4) (n : Fin 16384) (o k : Fin 64) : lidx_main_v38 (ix3 b n o) k = ix3 b n k := by
  funext a
  match a with
  | ⟨0, _⟩ => rfl
  | ⟨1, _⟩ => rfl
  | ⟨2, _⟩ => rfl

private theorem ridx38 (b : Fin 4) (n : Fin 16384) (o k : Fin 64) : ridx_main_v38 (ix3 b n o) k = ix2 o k := by
  funext a
  match a with
  | ⟨0, _⟩ => rfl
  | ⟨1, _⟩ => rfl

private theorem bidx40 (b : Fin 4) (n : Fin 16384) (o : Fin 64) : idx_main_v39 (idx_main_v40 (ix3 b n o)) = ix1 o := by
  funext a
  match a with
  | ⟨0, _⟩ => rfl

/-- The projection plus the bias is the channel `linC`. -/
private theorem branch_lin (x3 : FVec Ideal S4x16384x64 .f32) (x9 : FVec Ideal S64x64 .f32) (x10 : FVec Ideal S64 .f32)
    (b : Fin 4) (n : Fin 16384) (o : Fin 64) :
    val_main_v41 (F := Ideal) x3 x9 x10 (ix3 b n o) = linC x3 x9 x10 b n o := by
  rw [val_main_v41_apply, val_main_v38_apply, val_main_v40_apply, val_main_v39_apply, bidx40]
  simp only [Ideal.addf_def, lidx38, ridx38]
  rfl

private theorem midx46 (b : Fin 4) (n : Fin 16384) (o : Fin 64) : idx_main_v45 (idx_main_v46 (ix3 b n o)) = ix1 o := by
  funext a
  match a with
  | ⟨0, _⟩ => rfl

private theorem midx53 (b : Fin 4) (n : Fin 16384) (o : Fin 64) : idx_main_v52 (idx_main_v53 (ix3 b n o)) = ix1 o := by
  funext a
  match a with
  | ⟨0, _⟩ => rfl

private theorem ridx59 (b : Fin 4) (n : Fin 16384) (o : Fin 64) : idx_main_v58 (idx_main_v59 (ix3 b n o)) = ix1 o := by
  funext a
  match a with
  | ⟨0, _⟩ => rfl

private theorem gidx62 (b : Fin 4) (n : Fin 16384) (o : Fin 64) : idx_main_v61 (idx_main_v62 (ix3 b n o)) = ix1 o := by
  funext a
  match a with
  | ⟨0, _⟩ => rfl

private theorem bidx65 (b : Fin 4) (n : Fin 16384) (o : Fin 64) : idx_main_v64 (idx_main_v65 (ix3 b n o)) = ix1 o := by
  funext a
  match a with
  | ⟨0, _⟩ => rfl

/-- The channel mean: the sum over all points divided by their number. -/
private theorem branch_mean (x3 : FVec Ideal S4x16384x64 .f32) (x9 : FVec Ideal S64x64 .f32) (x10 : FVec Ideal S64 .f32)
    (o : Fin 64) :
    val_main_v44 (F := Ideal) x3 x9 x10 (ix1 o) = meanR (fun b n => linC x3 x9 x10 b n o) := by
  unfold meanR c65536
  rw [val_main_v44_apply, val_main_v43_apply, val_main_cst_7_apply]
  unfold val_main_v42
  rw [hostReduceAdd_apply, sum01, val_main_cst_6_apply]
  simp only [Ideal.hostDivf_def, Ideal.ofBits_def, Ideal.ofBits_zero_f32, zero_add, branch_lin]

/-- The channel's biased variance: the sum of the squared deviations from the mean divided by the number of points. -/
private theorem branch_var (x3 : FVec Ideal S4x16384x64 .f32) (x9 : FVec Ideal S64x64 .f32) (x10 : FVec Ideal S64 .f32)
    (o : Fin 64) :
    val_main_v51 (F := Ideal) x3 x9 x10 (ix1 o) = varR (fun b n => linC x3 x9 x10 b n o) := by
  unfold varR c65536
  rw [val_main_v51_apply, val_main_v50_apply, val_main_cst_9_apply]
  unfold val_main_v49
  rw [hostReduceAdd_apply, sum01, val_main_cst_8_apply]
  simp only [val_main_v48_apply, val_main_v47_apply, val_main_v46_apply, val_main_v45_apply, midx46, branch_mean, branch_lin,
    Ideal.hostDivf_def, Ideal.ofBits_def, Ideal.ofBits_zero_f32, zero_add, Ideal.mulf_def, Ideal.subf_def]

/-- One normalized branch over an arbitrary array `x3` of 4 * 16384 points by 64 channels: the direct normalization
    `chanR` of the channel `linC`. -/
private theorem branch_core (x3 : FVec Ideal S4x16384x64 .f32) (x9 : FVec Ideal S64x64 .f32) (x10 x11 x12 : FVec Ideal S64 .f32) :
    val_main_v67 (F := Ideal) x3 x9 x10 x11 x12
      = (fun i => chanR (fun b n => linC x3 x9 x10 b n (i 2)) (x11 (ix1 (i 2))) (x12 (ix1 (i 2))) (i 0) (i 1)
          : A3 4 16384 64) := by
  funext i
  obtain ⟨b, n, o, rfl⟩ : ∃ b n o, i = ix3 b n o := ⟨i 0, i 1, i 2, eq_ix3 i⟩
  show val_main_v67 (F := Ideal) x3 x9 x10 x11 x12 (ix3 b n o)
    = chanR (fun b' n' => linC x3 x9 x10 b' n' o) (x11 (ix1 o)) (x12 (ix1 o)) b n
  unfold chanR epsC
  simp only [val_main_v67_apply, val_main_v66_apply, val_main_v65_apply, val_main_v64_apply, val_main_v63_apply,
    val_main_v62_apply, val_main_v61_apply, val_main_v60_apply, val_main_v59_apply, val_main_v58_apply,
    val_main_v57_apply, val_main_v56_apply, val_main_v55_apply, val_main_cst_10_apply, val_main_v54_apply,
    val_main_v53_apply, val_main_v52_apply, val_main_call1_v0_apply, val_main_call1_cst_apply,
    midx53, ridx59, gidx62, bidx65, branch_mean, branch_var, branch_lin,
    Ideal.maximumf_def, Ideal.addf_def, Ideal.mulf_def, Ideal.subf_def, Ideal.hostUnary_rsqrt_def, Ideal.ofBits_def,
    Ideal.ofBits_zero_f32]

/-- The branch over the neighbour maximum. -/
theorem ref_proj (x1 : FVec Ideal S4x4096x64 .f32) (x4 : IVec S4x16384x8 32) (x5 : FVec Ideal S64x64 .f32)
    (x6 x7 x8 : FVec Ideal S64 .f32) :
    val_main_v37 (F := Ideal) x1 x4 x5 x6 x7 x8
      = (fun i => chanR (fun b n => linC (val_main_v7 (F := Ideal) x1 x4) x5 x6 b n (i 2)) (x7 (ix1 (i 2))) (x8 (ix1 (i 2))) (i 0) (i 1)
          : A3 4 16384 64) := by
  -- the same thirty operations as the other branch, stage for stage, with the neighbour maximum as the array
  exact branch_core (val_main_v7 (F := Ideal) x1 x4) x5 x6 x7 x8

/-- The branch over the fine points' own features. -/
theorem ref_skip (x3 : FVec Ideal S4x16384x64 .f32) (x9 : FVec Ideal S64x64 .f32) (x10 x11 x12 : FVec Ideal S64 .f32) :
    val_main_v67 (F := Ideal) x3 x9 x10 x11 x12
      = (fun i => chanR (fun b n => linC x3 x9 x10 b n (i 2)) (x11 (ix1 (i 2))) (x12 (ix1 (i 2))) (i 0) (i 1)
          : A3 4 16384 64) := by
  exact branch_core x3 x9 x10 x11 x12

end Cert.ReferenceIdeal.RefBranch

end
-- ==== Proof.RefValue.lean ====
/-
  The reference's result as one function of its arguments: the host program's stages, read index by index, are the
  direct normalization `refOut` — the neighbour maximum as a left-to-right maximum of the eight takes, each
  projection as a sum over the 64 input channels plus the bias, each channel's mean and variance as sums over all
  4 * 16384 points, and the two concatenations by the column ranges 0 … 2, 3 … 66, 67 … 130.
-/
import proofs.«430761_j15504831939266_3_alg».proof.Proof.RefReadP
import proofs.«430761_j15504831939266_3_alg».proof.Proof.RefInter
import proofs.«430761_j15504831939266_3_alg».proof.Proof.RefBranch
import proofs.«430761_j15504831939266_3_alg».proof.Proof.Spec
import proofs.«430761_j15504831939266_3_alg».proof.Proof.LibGatherRows3
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.ReadP Cert.Unpool
open Idealize.ShloMosaic Idealize.ShloMosaic.TcCoe Idealize.ShloMosaic.ValueIdx Idealize.SL.Sem

/-- The last stage of the reference, at the ideal values, is the direct normalization of its twelve operands. -/
theorem ref_value (x1 : FVec Ideal S4x4096x64 .f32) (x2 : FVec Ideal S4x16384x3 .f32) (x3 : FVec Ideal S4x16384x64 .f32)
    (x4 : IVec S4x16384x8 32) (x5 : FVec Ideal S64x64 .f32) (x6 x7 x8 : FVec Ideal S64 .f32)
    (x9 : FVec Ideal S64x64 .f32) (x10 x11 x12 : FVec Ideal S64 .f32) :
    val_main_v69 (F := Ideal) x1 x2 x3 x4 x5 x6 x7 x8 x9 x10 x11 x12 = refOut x1 x2 x3 x4 x5 x6 x7 x8 x9 x10 x11 x12 := by
  funext i
  obtain ⟨b, n, j, rfl⟩ : ∃ (b : Fin 4) (n : Fin 16384) (j : Fin 131), i = ix3 b n j := ⟨i 0, i 1, i 2, eq_ix3 i⟩
  have hj : j.val < 131 := j.isLt
  show val_main_v69 (F := Ideal) x1 x2 x3 x4 x5 x6 x7 x8 x9 x10 x11 x12 (ix3 b n j)
    = outC chanR x2 (linC x3 x9 x10) (linC (interA x1 x4) x5 x6) x11 x12 x7 x8 b n j
  unfold outC val_main_v69
  by_cases h3 : j.val < 3
  · -- columns 0 … 2: the coordinates
    rw [dif_pos h3]
    exact concatenate_pair_apply_left (t := S4x16384x131) (s₁ := S4x16384x3) (s₂ := S4x16384x128) (2 : Fin 3) x2 _ concatenates_S4x16384x3_S4x16384x128_S4x16384x131_d2 (ix3 b n j) rfl
      (ix3 b n ⟨j.val, h3⟩) (fun a => match a with | ⟨0, _⟩ => rfl | ⟨1, _⟩ => rfl | ⟨2, _⟩ => rfl)
  · rw [dif_neg h3]
    rw [concatenate_pair_apply_right (t := S4x16384x131) (s₁ := S4x16384x3) (s₂ := S4x16384x128) (2 : Fin 3) x2 _ concatenates_S4x16384x3_S4x16384x128_S4x16384x131_d2 (ix3 b n j) rfl rfl
      (ix3 b n (⟨j.val - 3, by omega⟩ : Fin 128))
      (fun a ha => match a, ha with | ⟨0, _⟩, _ => rfl | ⟨1, _⟩, _ => rfl | ⟨2, _⟩, ha => absurd rfl ha)
      (show (j.val - 3) + 3 = j.val by omega)]
    unfold val_main_v68
    by_cases h67 : j.val < 67
    · -- columns 3 … 66: the branch over the fine points' own features
      rw [dif_pos h67]
      rw [concatenate_pair_apply_left (t := S4x16384x128) (s₁ := S4x16384x64) (s₂ := S4x16384x64) (2 : Fin 3) _ _ concatenates_S4x16384x64_S4x16384x64_S4x16384x128_d2
        (ix3 b n (⟨j.val - 3, by omega⟩ : Fin 128)) rfl (ix3 b n (⟨j.val - 3, by omega⟩ : Fin 64))
        (fun a => match a with | ⟨0, _⟩ => rfl | ⟨1, _⟩ => rfl | ⟨2, _⟩ => rfl)]
      rw [RefBranch.ref_skip]
    · -- columns 67 … 130: the branch over the neighbour maximum
      rw [dif_neg h67]
      rw [concatenate_pair_apply_right (t := S4x16384x128) (s₁ := S4x16384x64) (s₂ := S4x16384x64) (2 : Fin 3) _ _ concatenates_S4x16384x64_S4x16384x64_S4x16384x128_d2
        (ix3 b n (⟨j.val - 3, by omega⟩ : Fin 128)) rfl rfl (ix3 b n (⟨j.val - 67, by omega⟩ : Fin 64))
        (fun a ha => match a, ha with | ⟨0, _⟩, _ => rfl | ⟨1, _⟩, _ => rfl | ⟨2, _⟩, ha => absurd rfl ha)
        (show (j.val - 67) + 64 = j.val - 3 by omega)]
      rw [RefBranch.ref_proj, RefInter.ref_inter]

end Cert.ReferenceIdeal.RefValue

end
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.Algebra.lean ====
/-
  The two ways of normalizing a channel agree on finite values, so the stage-by-stage result is the direct one.

  For a channel `y` with real values over 4 batches of 16384 points cut into 16 blocks of 4096: the mean of the block
  means is the mean over all points, and the mean of the block variances plus the variance of the block means is the
  variance over all points (the law of total variance for blocks of equal size). With a real scale
  `γ / sqrt (var + ε)` — the variance is not negative and `ε` is positive — the folded form
  `y * scale + (β - mean * scale)` is `(y - mean) / sqrt (var + ε) * γ + β`.
-/
import proofs.«430761_j15504831939266_3_alg».proof.Proof.Spec
import proofs.«430761_j15504831939266_3_alg».proof.Proof.LibERealSage
import proofs.«430761_j15504831939266_3_alg».proof.Proof.Consts
import Mathlib.Algebra.BigOperators.Fin

noncomputable section

namespace Cert.Unpool

open Idealize.ShloMosaic Idealize.ShloMosaic.ValueIdx Cert.LibERealSage

/-! ## Finite sums -/

/-- The image of a finite sum of reals is the sum of the images. -/
private theorem coe_sum {ι : Type*} (S : Finset ι) (f : ι → ℝ) :
    ((∑ i ∈ S, f i : ℝ) : EReal) = ∑ i ∈ S, ((f i : ℝ) : EReal) := by
  classical
  induction S using Finset.induction_on with
  | empty => simp
  | insert a s ha ih => rw [Finset.sum_insert ha, Finset.sum_insert ha, EReal.coe_add, ih]

/-- The 16384 points of a batch are the 4 blocks of 4096 rows. -/
private def blockEquiv : Fin 4 × Fin 4096 ≃ Fin 16384 where
  toFun p := rowIn p.1 p.2
  invFun n := (⟨n.val / 4096, by omega⟩, ⟨n.val % 4096, by omega⟩)
  left_inv p := by
    rcases p with ⟨⟨a, ha⟩, ⟨r, hr⟩⟩
    refine Prod.ext (Fin.ext ?_) (Fin.ext ?_)
    · show (a * 4096 + r) / 4096 = a
      omega
    · show (a * 4096 + r) % 4096 = r
      omega
  right_inv n := by
    apply Fin.ext
    show n.val / 4096 * 4096 + n.val % 4096 = n.val
    omega

/-- A sum over the points of a batch, block by block. -/
private theorem sum_blocks {M : Type*} [AddCommMonoid M] (f : Fin 16384 → M) :
    ∑ n : Fin 16384, f n = ∑ nb : Fin 4, ∑ r : Fin 4096, f (rowIn nb r) := by
  rw [← Equiv.sum_comp blockEquiv f, Fintype.sum_prod_type]
  rfl

/-! ## The statistics over the reals -/

/-- A block's mean, over the reals. -/
private def bmeanR (y : Fin 4 → Fin 16384 → ℝ) (b nb : Fin 4) : ℝ :=
  (∑ r : Fin 4096, y b (rowIn nb r)) / 4096

/-- A block's variance about its own mean, over the reals. -/
private def bvarR (y : Fin 4 → Fin 16384 → ℝ) (b nb : Fin 4) : ℝ :=
  (∑ r : Fin 4096, (y b (rowIn nb r) - bmeanR y b nb) * (y b (rowIn nb r) - bmeanR y b nb)) / 4096

/-- The mean of 16 per-block values, over the reals. -/
private def poolR (f : Fin 4 → Fin 4 → ℝ) : ℝ := (∑ b : Fin 4, ∑ nb : Fin 4, f b nb) / 16

/-- The mean over all points, over the reals. -/
private def meanRR (y : Fin 4 → Fin 16384 → ℝ) : ℝ := (∑ b : Fin 4, ∑ n : Fin 16384, y b n) / 65536

/-- The variance over all points, over the reals. -/
private def varRR (y : Fin 4 → Fin 16384 → ℝ) : ℝ :=
  (∑ b : Fin 4, ∑ n : Fin 16384, (y b n - meanRR y) * (y b n - meanRR y)) / 65536

/-- The mean of the block means is the mean over all points. -/
private theorem poolR_bmeanR (y : Fin 4 → Fin 16384 → ℝ) : poolR (bmeanR y) = meanRR y := by
  unfold poolR bmeanR meanRR
  simp_rw [sum_blocks, ← Finset.sum_div]
  rw [div_div]
  norm_num

/-- Squared deviations about any `μ` are those about the mean plus the count times the mean's squared deviation. -/
private theorem sum_sq_shift {ι : Type*} [Fintype ι] (f : ι → ℝ) (N : ℝ) (hN : N ≠ 0)
    (hc : (Fintype.card ι : ℝ) = N) (μ : ℝ) :
    ∑ i, (f i - μ) * (f i - μ)
      = ∑ i, (f i - (∑ i, f i) / N) * (f i - (∑ i, f i) / N)
        + N * (((∑ i, f i) / N - μ) * ((∑ i, f i) / N - μ)) := by
  have h0 : ∑ i, (f i - (∑ i, f i) / N) = 0 := by
    rw [Finset.sum_sub_distrib, Finset.sum_const, Finset.card_univ, nsmul_eq_mul, hc,
      mul_div_cancel₀ _ hN, sub_self]
  have hexp : ∀ i, (f i - μ) * (f i - μ)
      = (f i - (∑ i, f i) / N) * (f i - (∑ i, f i) / N)
        + 2 * ((∑ i, f i) / N - μ) * (f i - (∑ i, f i) / N)
        + ((∑ i, f i) / N - μ) * ((∑ i, f i) / N - μ) := by
    intro i; ring
  simp_rw [hexp]
  rw [Finset.sum_add_distrib, Finset.sum_add_distrib, ← Finset.mul_sum, h0, Finset.sum_const,
    Finset.card_univ, nsmul_eq_mul, hc]
  ring

/-- The variance over all points is not negative. -/
private theorem varRR_nonneg (y : Fin 4 → Fin 16384 → ℝ) : 0 ≤ varRR y :=
  div_nonneg (Finset.sum_nonneg fun b _ => Finset.sum_nonneg fun n _ => mul_self_nonneg _) (by norm_num)

/-- The mean of the block variances plus the variance of the block means is the variance over all points. -/
private theorem poolVarR_eq (y : Fin 4 → Fin 16384 → ℝ) :
    poolR (bvarR y)
      + poolR (fun b nb => (bmeanR y b nb - poolR (bmeanR y)) * (bmeanR y b nb - poolR (bmeanR y)))
      = varRR y := by
  rw [poolR_bmeanR]
  have key : ∀ b nb : Fin 4,
      ∑ r : Fin 4096, (y b (rowIn nb r) - meanRR y) * (y b (rowIn nb r) - meanRR y)
        = 4096 * bvarR y b nb + 4096 * ((bmeanR y b nb - meanRR y) * (bmeanR y b nb - meanRR y)) := by
    intro b nb
    rw [sum_sq_shift (fun r : Fin 4096 => y b (rowIn nb r)) 4096 (by norm_num) (by simp) (meanRR y)]
    unfold bvarR bmeanR
    ring
  unfold varRR poolR
  simp_rw [sum_blocks, key, Finset.sum_add_distrib, ← Finset.mul_sum]
  ring

/-! ## The statistics of real arrays are the images of the real statistics -/

private theorem bmean_coe (y : Fin 4 → Fin 16384 → ℝ) (b nb : Fin 4) :
    bmean (fun b n => ((y b n : ℝ) : EReal)) b nb = ((bmeanR y b nb : ℝ) : EReal) := by
  unfold bmean bmeanR
  rw [c4096_eq, Ideal.div_coe (by norm_num), ← coe_sum, ← EReal.coe_mul, mul_one_div]

private theorem bmean_coe' (y : Fin 4 → Fin 16384 → ℝ) :
    bmean (fun b n => ((y b n : ℝ) : EReal)) = fun b nb => ((bmeanR y b nb : ℝ) : EReal) := by
  funext b nb; exact bmean_coe y b nb

private theorem bvar_coe (y : Fin 4 → Fin 16384 → ℝ) (b nb : Fin 4) :
    bvar (fun b n => ((y b n : ℝ) : EReal)) b nb = ((bvarR y b nb : ℝ) : EReal) := by
  unfold bvar bvarR
  rw [bmean_coe, c4096_eq, Ideal.div_coe (by norm_num)]
  simp only [← EReal.coe_sub, ← EReal.coe_mul]
  rw [← coe_sum, ← EReal.coe_mul, mul_one_div]

private theorem bvar_coe' (y : Fin 4 → Fin 16384 → ℝ) :
    bvar (fun b n => ((y b n : ℝ) : EReal)) = fun b nb => ((bvarR y b nb : ℝ) : EReal) := by
  funext b nb; exact bvar_coe y b nb

private theorem pool_coe (f : Fin 4 → Fin 4 → ℝ) :
    pool (fun b nb => ((f b nb : ℝ) : EReal)) = ((poolR f : ℝ) : EReal) := by
  unfold pool poolR
  rw [c16_eq, Ideal.div_coe (by norm_num)]
  simp only [← coe_sum]
  rw [← EReal.coe_mul, mul_one_div]

private theorem poolVar_coe (m v : Fin 4 → Fin 4 → ℝ) :
    poolVar (fun b nb => ((m b nb : ℝ) : EReal)) (fun b nb => ((v b nb : ℝ) : EReal))
      = ((poolR v + poolR (fun b nb => (m b nb - poolR m) * (m b nb - poolR m)) : ℝ) : EReal) := by
  unfold poolVar
  rw [pool_coe v, pool_coe m]
  simp only [← EReal.coe_sub, ← EReal.coe_mul]
  rw [pool_coe (fun b nb => (m b nb - poolR m) * (m b nb - poolR m)), ← EReal.coe_add]

private theorem meanR_coe (y : Fin 4 → Fin 16384 → ℝ) :
    meanR (fun b n => ((y b n : ℝ) : EReal)) = ((meanRR y : ℝ) : EReal) := by
  unfold meanR meanRR
  rw [c65536_eq, Ideal.div_coe (by norm_num)]
  simp only [← coe_sum]
  rw [← EReal.coe_mul, mul_one_div]

private theorem varR_coe (y : Fin 4 → Fin 16384 → ℝ) :
    varR (fun b n => ((y b n : ℝ) : EReal)) = ((varRR y : ℝ) : EReal) := by
  unfold varR varRR
  rw [meanR_coe, c65536_eq, Ideal.div_coe (by norm_num)]
  simp only [← EReal.coe_sub, ← EReal.coe_mul, ← coe_sum]
  rw [mul_one_div]

/-! ## The two ways agree on a real channel -/

/-- With a real scale, the folded form is the direct one. -/
private theorem fold_eq (x μ g c V e : ℝ) (hV : 0 ≤ V) (he : 0 < e) :
    (x : EReal) * ((g : EReal) * Ideal.rsqrt ((V : EReal) + (e : EReal)))
        + ((c : EReal) - (μ : EReal) * ((g : EReal) * Ideal.rsqrt ((V : EReal) + (e : EReal))))
      = (((x : EReal) - (μ : EReal)) * Ideal.rsqrt ((V : EReal) + (e : EReal))) * (g : EReal) + (c : EReal) := by
  have hpos : 0 < V + e := by linarith
  rw [← EReal.coe_add, Ideal.rsqrt_coe, if_neg (not_lt.2 hpos.le), if_neg hpos.ne']
  simp only [← EReal.coe_mul, ← EReal.coe_sub, ← EReal.coe_add]
  congr 1
  ring

/-- The blockwise way and the direct way agree on a real channel with real scale and shift. -/
private theorem chanK_eq_chanR (y : Fin 4 → Fin 16384 → EReal) (γ β : EReal)
    (hy : ∀ b n, IsReal (y b n)) (hγ : IsReal γ) (hβ : IsReal β) (b : Fin 4) (n : Fin 16384) :
    chanK y γ β b n = chanR y γ β b n := by
  choose y' hy' using hy
  obtain ⟨g, rfl⟩ := hγ
  obtain ⟨c, rfl⟩ := hβ
  obtain rfl : y = fun b n => ((y' b n : ℝ) : EReal) := by funext b n; exact hy' b n
  obtain ⟨e, he, hE⟩ := epsC_eq
  unfold chanK chanR shiftOf scaleOf
  beta_reduce
  rw [bmean_coe', bvar_coe', poolVar_coe, pool_coe, meanR_coe, varR_coe, hE, poolVarR_eq, poolR_bmeanR,
    fold_eq _ _ _ _ _ _ (varRR_nonneg y') he]

/-! ## Real arrays stay real -/

private theorem isReal_interC (feats : A3 4 4096 64) (idx : W3 4 16384 8) (hf : ∀ i, IsReal (feats i))
    (b : Fin 4) (n : Fin 16384) (c : Fin 64) : IsReal (interC feats idx b n c) :=
  isReal_max (isReal_max (isReal_max (isReal_max (isReal_max (isReal_max (isReal_max (hf _) (hf _)) (hf _)) (hf _))
    (hf _)) (hf _)) (hf _)) (hf _)

private theorem isReal_linC (x : A3 4 16384 64) (W : A2 64 64) (bias : A1 64) (hx : ∀ i, IsReal (x i))
    (hW : ∀ i, IsReal (W i)) (hb : ∀ i, IsReal (bias i)) (b : Fin 4) (n : Fin 16384) (o : Fin 64) :
    IsReal (linC x W bias b n o) :=
  isReal_add (isReal_sum_univ _ fun k => isReal_mul (hx _) (hW _)) (hb _)

/-! ## The stages at an index -/

/-- The second launch's result at `(b, n, j)`. -/
private theorem Out1_at (Y : A3 4 16384 128) (coords : A3 4 16384 3) (ss shs sp shp : A1 64)
    (b : Fin 4) (n : Fin 16384) (j : Fin 131) :
    Out1 Y coords ss shs sp shp (ix3 b n j)
      = if h : j.val < 3 then coords (ix3 b n ⟨j.val, h⟩)
        else if h2 : j.val < 67 then
          max (Y (ix3 b n ⟨j.val - 3, by omega⟩) * ss (ix1 ⟨j.val - 3, by omega⟩)
            + shs (ix1 ⟨j.val - 3, by omega⟩)) 0
        else
          max (Y (ix3 b n ⟨j.val - 3, by have h3 : j.val < 131 := j.isLt; omega⟩)
              * sp (ix1 ⟨j.val - 67, by have h3 : j.val < 131 := j.isLt; omega⟩)
            + shp (ix1 ⟨j.val - 67, by have h3 : j.val < 131 := j.isLt; omega⟩)) 0 := rfl

/-- A column below 64 of the first launch's first result is the skip branch's. -/
private theorem Y0_lo (xs : A3 4 16384 64) (Wst : A2 64 64) (bs : A1 64) (xi : A3 4 16384 64) (Wpt : A2 64 64)
    (bp : A1 64) (b : Fin 4) (n : Fin 16384) (v : Nat) (h' : v < 128) (hv : v < 64) :
    Y0 xs Wst bs xi Wpt bp (ix3 b n ⟨v, h'⟩) = linT xs Wst bs b n ⟨v, hv⟩ := by
  unfold Y0
  exact dif_pos hv

/-- A column from 64 on of the first launch's first result is the projected branch's. -/
private theorem Y0_hi (xs : A3 4 16384 64) (Wst : A2 64 64) (bs : A1 64) (xi : A3 4 16384 64) (Wpt : A2 64 64)
    (bp : A1 64) (b : Fin 4) (n : Fin 16384) (v : Nat) (h' : v < 128) (c : Fin 64) (hv : v = c.val + 64) :
    Y0 xs Wst bs xi Wpt bp (ix3 b n ⟨v, h'⟩) = linT xi Wpt bp b n c := by
  subst hv
  have hn : ¬ (c.val + 64 < 64) := by omega
  unfold Y0
  exact (dif_neg hn).trans (congrArg (linT xi Wpt bp b n) (Fin.ext (Nat.add_sub_cancel c.val 64)))

/-- On finite inputs the stage-by-stage result is the direct one. -/
theorem kernelOut_eq_refOut (feats : A3 4 4096 64) (coords : A3 4 16384 3) (skipf : A3 4 16384 64) (idx : W3 4 16384 8)
    (Wp : A2 64 64) (bp γp βp : A1 64) (Ws : A2 64 64) (bs γs βs : A1 64)
    (hf : ∀ i, IsReal (feats i)) (hs : ∀ i, IsReal (skipf i))
    (hWp : ∀ i, IsReal (Wp i)) (hbp : ∀ i, IsReal (bp i)) (hγp : ∀ i, IsReal (γp i)) (hβp : ∀ i, IsReal (βp i))
    (hWs : ∀ i, IsReal (Ws i)) (hbs : ∀ i, IsReal (bs i)) (hγs : ∀ i, IsReal (γs i)) (hβs : ∀ i, IsReal (βs i)) :
    kernelOut feats coords skipf idx Wp bp γp βp Ws bs γs βs = refOut feats coords skipf idx Wp bp γp βp Ws bs γs βs := by
  have hxi : ∀ i, IsReal (interA feats idx i) := fun i => isReal_interC feats idx hf (i 0) (i 1) (i 2)
  have hys : ∀ b n c, IsReal (linC skipf Ws bs b n c) := fun b n c => isReal_linC skipf Ws bs hs hWs hbs b n c
  have hyp : ∀ b n c, IsReal (linC (interA feats idx) Wp bp b n c) :=
    fun b n c => isReal_linC (interA feats idx) Wp bp hxi hWp hbp b n c
  funext i
  obtain ⟨b, n, j, rfl⟩ : ∃ b n j, i = ix3 b n j := ⟨i 0, i 1, i 2, eq_ix3 i⟩
  show Out1 _ coords _ _ _ _ (ix3 b n j)
    = outC chanR coords (linC skipf Ws bs) (linC (interA feats idx) Wp bp) γs βs γp βp b n j
  rw [Out1_at]
  unfold outC
  by_cases h : j.val < 3
  · rw [dif_pos h, dif_pos h]
  · rw [dif_neg h, dif_neg h]
    by_cases h2 : j.val < 67
    · rw [dif_pos h2, dif_pos h2, ← chanK_eq_chanR _ _ _ (fun b' n' => hys b' n' _) (hγs _) (hβs _),
        Y0_lo _ _ _ _ _ _ b n (j.val - 3) _ (by omega)]
      rfl
    · have h3 : j.val < 131 := j.isLt
      rw [dif_neg h2, dif_neg h2, ← chanK_eq_chanR _ _ _ (fun b' n' => hyp b' n' _) (hγp _) (hβp _),
        Y0_hi _ _ _ _ _ _ b n (j.val - 3) _ ⟨j.val - 67, by omega⟩ (by show j.val - 3 = j.val - 67 + 64; omega)]
      rfl

end Cert.Unpool

end
-- ==== Proof.Finite.lean ====
/-
  From the precondition to finiteness: when the printed predicate "every float input is finite" evaluates to the bit 1,
  every entry of each float argument the two programs read is a real number.
-/
import proofs.«430761_j15504831939266_3_alg».proof.Pre_finite_inputs
import proofs.«430761_j15504831939266_3_alg».proof.Proof.LibERealSage
import proofs.«430761_j15504831939266_3_alg».proof.Proof.Consts
import Idealize.ShloMosaic.Lib.ReduceAll
import Idealize.ShloMosaic.Lib.ValueIdx
import Idealize.ShloMosaic.PureOps.Ideal

noncomputable section

namespace Cert.Pre_finite_inputs.Finite

open Cert.Pre_finite_inputs Cert.LibERealSage
open Idealize.ShloMosaic Idealize.ShloMosaic.ValueIdx

/-- The rank-0 shape has one index. -/
private instance subsingleton_scalar_idx : Subsingleton S_.Idx := ⟨fun a b => funext fun d => d.elim0⟩

/-- An extended real whose absolute value max x (-x) is strictly below +∞ is a real number. -/
private theorem isReal_of_abs_lt_inf (x : EReal)
    (h : Ideal.cmp .olt (max x (-x)) (Ideal.ofBits .f32 0x7F800000#32) = 1#1) : IsReal x := by
  rw [Cert.Unpool.ofBits_pinf] at h
  have hlt : max x (-x) < ⊤ := by
    by_contra hn
    simp [Ideal.cmp, hn] at h
  induction x using EReal.rec with
  | bot => simp at hlt
  | coe r => exact ⟨r, rfl⟩
  | top => simp at hlt

/-- One "all finite" test: when the reduction by and of the bits |a i| < +∞ over the whole array is 1, every entry of the array is real. -/
private theorem isReal_of_all_finite {s : Shape} {axes : List (Fin s.rank)}
    (hb : S_.BroadcastsInDim s (![] : Fin 0 → Fin s.rank)) (hr : s.ReducesTo axes S_) (h0 : 0 < S_.numel)
    (a : FVec Ideal s .f32) (j : S_.Idx)
    (h : Host.reduce IntOp.andi (cmpf .olt (Host.absf a) (broadcastInDim s ![] hb (constant S_ .f32 0x7F800000#32)))
      (constantI S_ 1 1#1) hr h0 j = 1#1) (i : s.Idx) : IsReal (a i) :=
  isReal_of_abs_lt_inf (a i) (Host.reduce_andi_all _ _ hr h0 j h i)

variable [Cert.Pre_finite_inputs.Facts]

/-- The ten float arguments the programs read (the coarse features, the fine features, both weight matrices, biases,
    gammas and betas) are real everywhere when the predicate holds. -/
theorem real_of_finite_inputs (a0 : FVec Ideal S4x4096x3 .f32) (a1 : FVec Ideal S4x4096x64 .f32) (a2 : FVec Ideal S4x16384x3 .f32)
    (a3 : FVec Ideal S4x16384x64 .f32) (a4 : IVec S4x16384x8 32) (a5 : FVec Ideal S64x64 .f32) (a6 a7 a8 : FVec Ideal S64 .f32)
    (a9 : FVec Ideal S64x64 .f32) (a10 a11 a12 : FVec Ideal S64 .f32)
    (h : Cert.Pre_finite_inputs.fn (F := Ideal) a0 a1 a2 a3 a4 a5 a6 a7 a8 a9 a10 a11 a12 = fun _ => 1#1) :
    (∀ i, IsReal (a1 i)) ∧ (∀ i, IsReal (a3 i)) ∧ (∀ i, IsReal (a5 i)) ∧ (∀ i, IsReal (a6 i)) ∧ (∀ i, IsReal (a7 i))
      ∧ (∀ i, IsReal (a8 i)) ∧ (∀ i, IsReal (a9 i)) ∧ (∀ i, IsReal (a10 i)) ∧ (∀ i, IsReal (a11 i)) ∧ (∀ i, IsReal (a12 i)) := by
  have e := congrFun h ValueIdx.ix0
  dsimp only [fn, fn_part1, fn_part2, fn_part3, andi] at e
  simp only [IntOp.andi_eq_one] at e
  obtain ⟨⟨⟨⟨⟨⟨⟨⟨⟨⟨⟨e0, e1⟩, e2⟩, e3⟩, e5⟩, e6⟩, e7⟩, e8⟩, e9⟩, e10⟩, e11⟩, e12⟩ := e
  exact ⟨isReal_of_all_finite _ _ _ a1 _ e1, isReal_of_all_finite _ _ _ a3 _ e3, isReal_of_all_finite _ _ _ a5 _ e5,
    isReal_of_all_finite _ _ _ a6 _ e6, isReal_of_all_finite _ _ _ a7 _ e7, isReal_of_all_finite _ _ _ a8 _ e8,
    isReal_of_all_finite _ _ _ a9 _ e9, isReal_of_all_finite _ _ _ a10 _ e10, isReal_of_all_finite _ _ _ a11 _ e11,
    isReal_of_all_finite _ _ _ a12 _ e12⟩

end Cert.Pre_finite_inputs.Finite

end
-- ==== Proof.lean ====
/-
  The certificate of the unpooling layer with skip connection: the kernel against its reference over the extended reals.

  The kernel takes the neighbour maximum on the host, then runs two launches over a 4 x 4 grid of blocks of 4096 fine
  points: the first projects both branches and leaves, per block, each channel's mean and variance about that mean; the
  host pools the 16 blocks' statistics into each branch's per-channel scale and shift; the second launch applies
  `y * scale + shift`, clips at zero and lays the coordinates and the two branches side by side. The reference
  normalizes each channel with the mean and variance over all 4 * 16384 points at once.

  Both programs' results are read as whole-array functions of the arguments (`kernelOut`, `refOut`); on finite inputs —
  which the precondition gives — the pooled block statistics are the statistics over all points (the law of total
  variance for blocks of equal size) and the folded scale and shift are the direct normalization, so the two functions
  agree. The three frames are the generated frame certificates and the reference's run; the idealization rewrote no
  operation.
-/
import proofs.«430761_j15504831939266_3_alg».proof.Defs
import proofs.«430761_j15504831939266_3_alg».proof.Proof.Gen.Kernel
import proofs.«430761_j15504831939266_3_alg».proof.Proof.Gen.Kernel.Skeleton
import proofs.«430761_j15504831939266_3_alg».proof.Proof.Gen.Kernel.Launch
import proofs.«430761_j15504831939266_3_alg».proof.Proof.Gen.Kernel.Points
import proofs.«430761_j15504831939266_3_alg».proof.Proof.Gen.Kernel.Frame
import proofs.«430761_j15504831939266_3_alg».proof.Proof.Gen.KernelIdeal
import proofs.«430761_j15504831939266_3_alg».proof.Proof.Gen.KernelIdeal.Skeleton
import proofs.«430761_j15504831939266_3_alg».proof.Proof.Gen.KernelIdeal.Launch
import proofs.«430761_j15504831939266_3_alg».proof.Proof.Gen.KernelIdeal.Points
import proofs.«430761_j15504831939266_3_alg».proof.Proof.Gen.KernelIdeal.Frame
import proofs.«430761_j15504831939266_3_alg».proof.Proof.Gen.ReferenceIdeal
import proofs.«430761_j15504831939266_3_alg».proof.Proof.Gen.Pre_finite_inputs
import proofs.«430761_j15504831939266_3_alg».proof.Proof.KernelValue
import proofs.«430761_j15504831939266_3_alg».proof.Proof.RefValue
import proofs.«430761_j15504831939266_3_alg».proof.Proof.Algebra
import proofs.«430761_j15504831939266_3_alg».proof.Proof.Finite
import Idealize.ShloMosaic.Adequacy
import Idealize.ShloMosaic.Init

noncomputable section

namespace Cert.Proof

open Idealize.ShloMosaic Idealize.SL.Sem Cert.Unpool

/-- The word-level kernel's frame: the generated frame certificate. -/
theorem frame_k : Cert.frame_Kernel := fun m ρ _ => Cert.Kernel.Gen.frame m ρ

/-- The idealized kernel's frame: the generated frame certificate. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the stage-by-stage function of the kernel's arguments: the kernel by its run read back
    through the two launches, the reference by its stages read index by index and, the precondition making every float
    argument finite, the agreement of the two ways of normalizing. -/
theorem algebraic : Cert.algebraic_KernelIdeal_ReferenceIdeal := by
  intro m ρ m' ρ' hpre hagree
  refine ⟨fun c => kernelOut (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KValue.W4_v118 m ρ c), (h c).2⟩) (Cert.KernelIdeal.Gen.run_value m ρ)
  · refine (θ_run Cert.ReferenceIdeal.defs _ _).mono (fun r h c => ⟨(h c).1.trans ?_, (h c).2⟩)
      (Cert.ReferenceIdeal.ValueP.run (F := Ideal) m' ρ')
    obtain ⟨-, e1, e2, e3, e4, e5, e6, e7, e8, e9, e10, e11, e12⟩ := hagree c
    obtain ⟨r1, r3, r5, r6, r7, r8, r9, r10, r11, r12⟩ := Cert.Pre_finite_inputs.Finite.real_of_finite_inputs _ _ _ _ _ _ _ _ _ _ _ _ _ (hpre c)
    rw [Cert.ReferenceIdeal.ReadP.val_main_v69_eq, Cert.ReferenceIdeal.RefValue.ref_value, e1, e2, e3, e4, e5, e6, e7, e8, e9, e10, e11, e12]
    exact (kernelOut_eq_refOut _ _ _ _ _ _ _ _ _ _ _ _ r1 r3 r5 r6 r7 r8 r9 r10 r11 r12).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
